-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x3 : Shape := ⟨2, ![50000, 3]⟩
abbrev S73x32 : Shape := ⟨2, ![73, 32]⟩
abbrev S32 : Shape := ⟨1, ![32]⟩
abbrev S32x32 : Shape := ⟨2, ![32, 32]⟩
abbrev S32x288 : Shape := ⟨2, ![32, 288]⟩
abbrev S288 : Shape := ⟨1, ![288]⟩
abbrev S2x800000 : Shape := ⟨2, ![2, 800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S73x32 : S_.BroadcastsInDim S73x32 (![] : Fin 0 → Fin S73x32.rank)
  reducesTo_S73x32_S_d0_1 : S73x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x288 : S_.BroadcastsInDim S32x288 (![] : Fin 0 → Fin S32x288.rank)
  reducesTo_S32x288_S_d0_1 : S32x288.ReducesTo [0, 1] S_
  bcast_S_S288 : S_.BroadcastsInDim S288 (![] : Fin 0 → Fin S288.rank)
  reducesTo_S288_S_d0 : S288.ReducesTo [0] S_

variable [Facts]

def fn_part2 {F : FTy → Type} [FloatOps F] (main_arg7 : FVec F S288 .f32) (main_v33 : IVec S_ 1) : IVec S_ 1 :=
  let main_v34 : FVec F S288 .f32 := Host.absf main_arg7
  let main_cst_12 : FVec F S_ .f32 := constant S_ .f32 0x7F800000#32
  let main_v35 : FVec F S288 .f32 := broadcastInDim S288 ![] bcast_S_S288 main_cst_12
  let main_v36 : IVec S288 1 := cmpf .olt main_v34 main_v35
  let main_c_13 : IVec S_ 1 := constantI S_ 1 1#1
  let main_v37 : IVec S_ 1 := (fun x v => Host.reduce IntOp.andi x v reducesTo_S288_S_d0 h_S_) main_v36 main_c_13
  let main_v38 : IVec S_ 1 := andi main_v33 main_v37
  main_v38

def fn_part1 {F : FTy → Type} [FloatOps F] (main_arg4 : FVec F S32x32 .f32) (main_arg5 : FVec F S32 .f32) (main_arg6 : FVec F S32x288 .f32) (main_arg7 : FVec F S288 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x288 .f32 := Host.absf main_arg6
  let main_cst_10 : FVec F S_ .f32 := constant S_ .f32 0x7F800000#32
  let main_v30 : FVec F S32x288 .f32 := broadcastInDim S32x288 ![] bcast_S_S32x288 main_cst_10
  let main_v31 : IVec S32x288 1 := cmpf .olt main_v29 main_v30
  let main_c_11 : IVec S_ 1 := constantI S_ 1 1#1
  let main_v32 : IVec S_ 1 := (fun x v => Host.reduce IntOp.andi x v reducesTo_S32x288_S_d0_1 h_S_) main_v31 main_c_11
  let main_v33 : IVec S_ 1 := andi main_v28 main_v32
  fn_part2 (F := F) main_arg7 main_v33

def fn {F : FTy → Type} [FloatOps F] (main_arg0 : FVec F S50000x64 .f32) (main_arg1 : FVec F S50000x3 .f32) (main_arg2 : FVec F S73x32 .f32) (main_arg3 : FVec F S32 .f32) (main_arg4 : FVec F S32x32 .f32) (main_arg5 : FVec F S32 .f32) (main_arg6 : FVec F S32x288 .f32) (main_arg7 : FVec F S288 .f32) (main_arg8 : IVec S2x800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S73x32 .f32 := Host.absf main_arg2
  let main_cst_2 : FVec F S_ .f32 := constant S_ .f32 0x7F800000#32
  let main_v10 : FVec F S73x32 .f32 := broadcastInDim S73x32 ![] bcast_S_S73x32 main_cst_2
  let main_v11 : IVec S73x32 1 := cmpf .olt main_v9 main_v10
  let main_c_3 : IVec S_ 1 := constantI S_ 1 1#1
  let main_v12 : IVec S_ 1 := (fun x v => Host.reduce IntOp.andi x v reducesTo_S73x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_v13 main_v16
-- ==== Kernel.lean ====
abbrev S50000x64 : Shape := ⟨2, ![50000, 64]⟩
abbrev S50000x3 : Shape := ⟨2, ![50000, 3]⟩
abbrev S73x32 : Shape := ⟨2, ![73, 32]⟩
abbrev S32 : Shape := ⟨1, ![32]⟩
abbrev S32x32 : Shape := ⟨2, ![32, 32]⟩
abbrev S32x288 : Shape := ⟨2, ![32, 288]⟩
abbrev S288 : Shape := ⟨1, ![288]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S9x32 : Shape := ⟨2, ![9, 32]⟩
abbrev S64x32 : Shape := ⟨2, ![64, 32]⟩
abbrev S50000x32 : Shape := ⟨2, ![50000, 32]⟩
abbrev S800000x32 : Shape := ⟨2, ![800000, 32]⟩
abbrev S32x9x32 : Shape := ⟨3, ![32, 9, 32]⟩
abbrev S1x32 : Shape := ⟨2, ![1, 32]⟩
abbrev S4000x3 : Shape := ⟨2, ![4000, 3]⟩
abbrev S4000x32 : Shape := ⟨2, ![4000, 32]⟩
abbrev S4000 : Shape := ⟨1, ![4000]⟩
abbrev S4000x1 : Shape := ⟨2, ![4000, 1]⟩

abbrev nBuf : Space → Nat
  | .hbm => 59
  | .vmem => 12
  | .smem => 0
  | _ => 0

abbrev bufTy : (tb : Table) → Fin (tcTables nBuf tb) → BufTy
  | .hbm, ⟨0, _⟩ => ⟨S50000x64, .f32⟩
  | .hbm, ⟨1, _⟩ => ⟨S50000x3, .f32⟩
  | .hbm, ⟨2, _⟩ => ⟨S73x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x288, .f32⟩
  | .hbm, ⟨7, _⟩ => ⟨S288, .f32⟩
  | .hbm, ⟨8, _⟩ => ⟨S2x800000, .i32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x3, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x3, .f32⟩
  | .hbm, ⟨31, _⟩ => ⟨S800000x3, .f32⟩
  | .hbm, ⟨32, _⟩ => ⟨S9x32, .f32⟩
  | .hbm, ⟨33, _⟩ => ⟨S64x32, .f32⟩
  | .hbm, ⟨34, _⟩ => ⟨S50000x32, .f32⟩
  | .hbm, ⟨35, _⟩ => ⟨S50000x32, .bf16⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x32, .bf16⟩
  | .hbm, ⟨45, _⟩ => ⟨S32x9x32, .f32⟩
  | .hbm, ⟨46, _⟩ => ⟨S_, .f32⟩
  | .hbm, ⟨47, _⟩ => ⟨S32x32, .f32⟩
  | .hbm, ⟨48, _⟩ => ⟨S9x32, .f32⟩
  | .hbm, ⟨49, _⟩ => ⟨S_, .f32⟩
  | .hbm, ⟨50, _⟩ => ⟨S32, .f32⟩
  | .hbm, ⟨51, _⟩ => ⟨S1x32, .f32⟩
  | .hbm, ⟨52, _⟩ => ⟨S1x32, .f32⟩
  | .hbm, ⟨53, _⟩ => ⟨S1x32, .f32⟩
  | .hbm, ⟨54, _⟩ => ⟨S800000x32, .f32⟩
  | .hbm, ⟨55, _⟩ => ⟨S_, .f32⟩
  | .hbm, ⟨56, _⟩ => ⟨S50000x32, .f32⟩
  | .hbm, ⟨57, _⟩ => ⟨S800000x1, .i32⟩
  | .hbm, ⟨58, _⟩ => ⟨S50000x32, .f32⟩
  | .local _ .vmem, ⟨0, _⟩ => ⟨S4000x3, .f32⟩
  | .local _ .vmem, ⟨1, _⟩ => ⟨S4000x3, .f32⟩
  | .local _ .vmem, ⟨2, _⟩ => ⟨S4000x32, .bf16⟩
  | .local _ .vmem, ⟨3, _⟩ => ⟨S4000x32, .bf16⟩
  | .local _ .vmem, ⟨4, _⟩ => ⟨S9x32, .f32⟩
  | .local _ .vmem, ⟨5, _⟩ => ⟨S1x32, .f32⟩
  | .local _ .vmem, ⟨6, _⟩ => ⟨S32x32, .f32⟩
  | .local _ .vmem, ⟨7, _⟩ => ⟨S1x32, .f32⟩
  | .local _ .vmem, ⟨8, _⟩ => ⟨S32x32, .f32⟩
  | .local _ .vmem, ⟨9, _⟩ => ⟨S1x32, .f32⟩
  | .local _ .vmem, ⟨10, _⟩ => ⟨S4000x32, .f32⟩
  | .local _ .vmem, ⟨11, _⟩ => ⟨S4000x32, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S9x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4000x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S73x32_S9x32_0_0 : S73x32.Slices ![0, 0] S9x32
  slices_S73x32_S64x32_9_0 : S73x32.Slices ![9, 0] S64x32
  bitsLt_bf16_f32 : FTy.bits .bf16 < FTy.bits .f32
  shapeCasts_S32x288_S32x9x32 : S32x288.ShapeCasts S32x9x32
  reducesTo_S32x9x32_S32x32_d1 : S32x9x32.ReducesTo [1] S32x32
  h_S_ : 0 < S_.numel
  shapeCasts_S288_S9x32 : S288.ShapeCasts S9x32
  reducesTo_S9x32_S32_d0 : S9x32.ReducesTo [0] S32
  shapeCasts_S32_S1x32 : S32.ShapeCasts S1x32
  inb_S4000x3_S4000x3_0_0 : ∀ a, (![0, 0] : Fin 2 → Nat) a + S4000x3.size a ≤ S4000x3.size a
  h_S4000x3 : 0 < S4000x3.numel
  shapeCasts_S4000x3_S4000x3 : S4000x3.ShapeCasts S4000x3
  inb_S4000x32_S4000x32_0_0 : ∀ a, (![0, 0] : Fin 2 → Nat) a + S4000x32.size a ≤ S4000x32.size a
  h_S4000x32 : 0 < S4000x32.numel
  shapeCasts_S4000x32_S4000x32 : S4000x32.ShapeCasts S4000x32
  reduces_S4000x3_S4000 : S4000x3.Reduces [1] S4000
  shapeCasts_S4000_S4000x1 : S4000.ShapeCasts S4000x1
  broadcasts_S4000x1_S4000x3 : S4000x1.Broadcasts S4000x3
  slices_S4000x3_o0_0_S4000x1 : S4000x3.Slices ![0, 0] S4000x1
  slices_S4000x3_o0_1_S4000x1 : S4000x3.Slices ![0, 1] S4000x1
  slices_S4000x3_o0_2_S4000x1 : S4000x3.Slices ![0, 2] S4000x1
  inb_S9x32_S9x32_0_0 : ∀ a, (![0, 0] : Fin 2 → Nat) a + S9x32.size a ≤ S9x32.size a
  h_S9x32 : 0 < S9x32.numel
  shapeCasts_S9x32_S9x32 : S9x32.ShapeCasts S9x32
  slices_S9x32_o0_0_S1x32 : S9x32.Slices ![0, 0] S1x32
  slices_S9x32_o1_0_S1x32 : S9x32.Slices ![1, 0] S1x32
  broadcasts_S4000x1_S4000x32 : S4000x1.Broadcasts S4000x32
  broadcasts_S1x32_S4000x32 : S1x32.Broadcasts S4000x32
  slices_S9x32_o2_0_S1x32 : S9x32.Slices ![2, 0] S1x32
  slices_S9x32_o3_0_S1x32 : S9x32.Slices ![3, 0] S1x32
  slices_S9x32_o4_0_S1x32 : S9x32.Slices ![4, 0] S1x32
  slices_S9x32_o5_0_S1x32 : S9x32.Slices ![5, 0] S1x32
  slices_S9x32_o6_0_S1x32 : S9x32.Slices ![6, 0] S1x32
  slices_S9x32_o7_0_S1x32 : S9x32.Slices ![7, 0] S1x32
  slices_S9x32_o8_0_S1x32 : S9x32.Slices ![8, 0] S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  bcast_S_S50000x32 : S_.BroadcastsInDim S50000x32 (![] : Fin 0 → Fin S50000x32.rank)
  gather_S50000x3_S800000x1_S800000x3_1_0_n_n_0_1_13_wf : GatherDims.WF S50000x3 S800000x1 S800000x3 [1] [0] [] [0] [] 1 ![1, 3]
  dot_S50000x64_S64x32_S50000x32_1_0_0_1_n_n_wf : DotDims.WF S50000x64 S64x32 S50000x32 [1] [0] [0] [1] [] []
  gather_S50000x32_S800000x1_S800000x32_1_0_n_n_0_1_132_wf : GatherDims.WF S50000x32 S800000x1 S800000x32 [1] [0] [] [0] [] 1 ![1, 32]
  dot_S4000x32_S32x32_S4000x32_1_0_0_1_n_n_wf : DotDims.WF S4000x32 S32x32 S4000x32 [1] [0] [0] [1] [] []
  scatter_S50000x32_S800000x1_S800000x32_1_0_0_1_wf : ScatterDims.WF S50000x32 S800000x1 S800000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x3.size a ≤ S800000x3.size a
  hwx0_0 : ∀ i : grid0.Coords, EltTy.bits .f32 = 32 ∨ (Rect.block (s := S800000x3) S4000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x32.size a ≤ S800000x32.size a
  hwx0_1 : ∀ i : grid0.Coords, EltTy.bits .bf16 = 32 ∨ (Rect.block (s := S800000x32) S4000x32.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S9x32.size a ≤ S9x32.size a
  hwx0_2 : ∀ i : grid0.Coords, EltTy.bits .f32 = 32 ∨ (Rect.block (s := S9x32) S9x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x32.size a ≤ S32x32.size a
  hwx0_6 : ∀ i : grid0.Coords, EltTy.bits .f32 = 32 ∨ (Rect.block (s := S32x32) S32x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x32.size a ≤ S800000x32.size a
  hwx0_8 : ∀ i : grid0.Coords, EltTy.bits .f32 = 32 ∨ (Rect.block (s := S800000x32) S4000x32.size (cc0_transform_8 i) (hinb0_8 i)).WholeWords (EltTy.packing .f32)

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def dot_S4000x32_S32x32_S4000x32_1_0_0_1_n_n : DotDims S4000x32 S32x32 S4000x32 where
  lhsContracting := [1]
  rhsContracting := [0]
  lhsNonContracting := [0]
  rhsNonContracting := [1]
  lhsBatch := []
  rhsBatch := []
  wf := dot_S4000x32_S32x32_S4000x32_1_0_0_1_n_n_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf

abbrev win0_0 : Pipeline.Window sig grid0 :=
  Pipeline.Window.ofSpec (Memref.whole main_v18) S4000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S4000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S9x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v31) S32x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v36) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v37) S4000x32.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x64 : Shape := ⟨2, ![50000, 64]⟩
abbrev S50000x3 : Shape := ⟨2, ![50000, 3]⟩
abbrev S73x32 : Shape := ⟨2, ![73, 32]⟩
abbrev S32 : Shape := ⟨1, ![32]⟩
abbrev S32x32 : Shape := ⟨2, ![32, 32]⟩
abbrev S32x288 : Shape := ⟨2, ![32, 288]⟩
abbrev S288 : Shape := ⟨1, ![288]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S800000x9 : Shape := ⟨2, ![800000, 9]⟩
abbrev S800000x64 : Shape := ⟨2, ![800000, 64]⟩
abbrev S800000x73 : Shape := ⟨2, ![800000, 73]⟩
abbrev S800000x32 : Shape := ⟨2, ![800000, 32]⟩
abbrev S1x32 : Shape := ⟨2, ![1, 32]⟩
abbrev S800000x288 : Shape := ⟨2, ![800000, 288]⟩
abbrev S1x288 : Shape := ⟨2, ![1, 288]⟩
abbrev S800000x9x32 : Shape := ⟨3, ![800000, 9, 32]⟩
abbrev S50000x32 : Shape := ⟨2, ![50000, 32]⟩

abbrev nBuf : Space → Nat
  | .hbm => 162
  | .vmem => 0
  | .smem => 0
  | _ => 0

abbrev hbmTy0_0 (i : Nat) : BufTy := match i % 128 with
  | 0 => ⟨S50000x64, .f32⟩
  | 1 => ⟨S50000x3, .f32⟩
  | 2 => ⟨S73x32, .f32⟩
  | 3 => ⟨S32, .f32⟩
  | 4 => ⟨S32x32, .f32⟩
  | 5 => ⟨S32, .f32⟩
  | 6 => ⟨S32x288, .f32⟩
  | 7 => ⟨S288, .f32⟩
  | 8 => ⟨S2x800000, .i32⟩
  | 9 => ⟨S1x800000, .i32⟩
  | 10 => ⟨S800000, .i32⟩
  | 11 => ⟨S1x800000, .i32⟩
  | 12 => ⟨S800000, .i32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x3, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x3, .f32⟩
  | 31 => ⟨S800000x3, .f32⟩
  | 32 => ⟨S800000x3, .f32⟩
  | 33 => ⟨S_, .f32⟩
  | 34 => ⟨S800000, .f32⟩
  | 35 => ⟨S800000x1, .f32⟩
  | 36 => ⟨S800000x1, .f32⟩
  | 37 => ⟨S_, .f32⟩
  | 38 => ⟨S_, .f32⟩
  | 39 => ⟨S800000x1, .f32⟩
  | 40 => ⟨S800000x1, .f32⟩
  | 41 => ⟨S800000x3, .f32⟩
  | 42 => ⟨S800000x3, .f32⟩
  | 43 => ⟨S800000x3, .f32⟩
  | 44 => ⟨S_, .f32⟩
  | 45 => ⟨S800000, .f32⟩
  | 46 => ⟨S800000x1, .f32⟩
  | 47 => ⟨S800000x1, .f32⟩
  | 48 => ⟨S_, .f32⟩
  | 49 => ⟨S_, .f32⟩
  | 50 => ⟨S800000x1, .f32⟩
  | 51 => ⟨S800000x1, .f32⟩
  | 52 => ⟨S800000x3, .f32⟩
  | 53 => ⟨S800000x3, .f32⟩
  | 54 => ⟨S800000x1, .f32⟩
  | 55 => ⟨S800000, .f32⟩
  | 56 => ⟨S800000x1, .f32⟩
  | 57 => ⟨S800000, .f32⟩
  | 58 => ⟨S800000x1, .f32⟩
  | 59 => ⟨S800000, .f32⟩
  | 60 => ⟨S_, .f32⟩
  | 61 => ⟨S800000, .f32⟩
  | 62 => ⟨S_, .f32⟩
  | 63 => ⟨S800000, .f32⟩
  | 64 => ⟨S800000, .f32⟩
  | 65 => ⟨S_, .f32⟩
  | 66 => ⟨S800000, .f32⟩
  | 67 => ⟨S800000, .f32⟩
  | 68 => ⟨S_, .f32⟩
  | 69 => ⟨S800000, .f32⟩
  | 70 => ⟨S800000, .f32⟩
  | 71 => ⟨S_, .f32⟩
  | 72 => ⟨S800000, .f32⟩
  | 73 => ⟨S800000, .f32⟩
  | 74 => ⟨S800000, .f32⟩
  | 75 => ⟨S800000, .f32⟩
  | 76 => ⟨S800000, .f32⟩
  | 77 => ⟨S_, .f32⟩
  | 78 => ⟨S800000, .f32⟩
  | 79 => ⟨S800000, .f32⟩
  | 80 => ⟨S_, .f32⟩
  | 81 => ⟨S800000, .f32⟩
  | 82 => ⟨S800000, .f32⟩
  | 83 => ⟨S800000, .f32⟩
  | 84 => ⟨S_, .f32⟩
  | 85 => ⟨S800000, .f32⟩
  | 86 => ⟨S800000, .f32⟩
  | 87 => ⟨S800000, .f32⟩
  | 88 => ⟨S800000, .f32⟩
  | 89 => ⟨S800000, .f32⟩
  | 90 => ⟨S800000, .f32⟩
  | 91 => ⟨S800000, .f32⟩
  | 92 => ⟨S_, .f32⟩
  | 93 => ⟨S800000, .f32⟩
  | 94 => ⟨S800000, .f32⟩
  | 95 => ⟨S_, .f32⟩
  | 96 => ⟨S800000, .f32⟩
  | 97 => ⟨S800000, .f32⟩
  | 98 => ⟨S800000, .f32⟩
  | 99 => ⟨S800000, .f32⟩
  | 100 => ⟨S800000, .f32⟩
  | 101 => ⟨S800000, .f32⟩
  | 102 => ⟨S_, .f32⟩
  | 103 => ⟨S800000, .f32⟩
  | 104 => ⟨S800000, .f32⟩
  | 105 => ⟨S800000x1, .f32⟩
  | 106 => ⟨S800000x1, .f32⟩
  | 107 => ⟨S800000x1, .f32⟩
  | 108 => ⟨S800000x1, .f32⟩
  | 109 => ⟨S800000x1, .f32⟩
  | 110 => ⟨S800000x1, .f32⟩
  | 111 => ⟨S800000x1, .f32⟩
  | 112 => ⟨S800000x1, .f32⟩
  | 113 => ⟨S800000x1, .f32⟩
  | 114 => ⟨S800000x9, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x64, .f32⟩
  | 124 => ⟨S800000x73, .f32⟩
  | 125 => ⟨S800000x32, .f32⟩
  | 126 => ⟨S1x32, .f32⟩
  | 127 => ⟨S800000x32, .f32⟩
  | _ => ⟨S50000x64, .f32⟩

abbrev hbmTy0_1 (i : Nat) : BufTy := match i % 128 with
  | 0 => ⟨S800000x32, .f32⟩
  | 1 => ⟨S800000x32, .f32⟩
  | 2 => ⟨S800000x32, .f32⟩
  | 3 => ⟨S_, .f32⟩
  | 4 => ⟨S800000x32, .f32⟩
  | 5 => ⟨S800000x32, .f32⟩
  | 6 => ⟨S_, .f32⟩
  | 7 => ⟨S800000x32, .f32⟩
  | 8 => ⟨S800000x32, .f32⟩
  | 9 => ⟨S800000x32, .f32⟩
  | 10 => ⟨S800000x32, .f32⟩
  | 11 => ⟨S1x32, .f32⟩
  | 12 => ⟨S800000x32, .f32⟩
  | 13 => ⟨S800000x32, .f32⟩
  | 14 => ⟨S800000x32, .f32⟩
  | 15 => ⟨S800000x32, .f32⟩
  | 16 => ⟨S_, .f32⟩
  | 17 => ⟨S800000x32, .f32⟩
  | 18 => ⟨S800000x32, .f32⟩
  | 19 => ⟨S_, .f32⟩
  | 20 => ⟨S800000x32, .f32⟩
  | 21 => ⟨S800000x32, .f32⟩
  | 22 => ⟨S800000x32, .f32⟩
  | 23 => ⟨S800000x288, .f32⟩
  | 24 => ⟨S1x288, .f32⟩
  | 25 => ⟨S800000x288, .f32⟩
  | 26 => ⟨S800000x288, .f32⟩
  | 27 => ⟨S800000x9x32, .f32⟩
  | 28 => ⟨S_, .f32⟩
  | 29 => ⟨S800000x32, .f32⟩
  | 30 => ⟨S_, .f32⟩
  | 31 => ⟨S50000x32, .f32⟩
  | 32 => ⟨S800000x1, .i32⟩
  | 33 => ⟨S50000x32, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_v0 : Ref sig .tc := ⟨.hbm, 32, rfl⟩
abbrev main_call0_cst : Ref sig .tc := ⟨.hbm, 33, rfl⟩
abbrev main_call0_v1 : Ref sig .tc := ⟨.hbm, 34, rfl⟩
abbrev main_call0_v2 : Ref sig .tc := ⟨.hbm, 35, rfl⟩
abbrev main_v19 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call2_v0 : Ref sig .tc := ⟨.hbm, 43, rfl⟩
abbrev main_call2_cst : Ref sig .tc := ⟨.hbm, 44, rfl⟩
abbrev main_call2_v1 : Ref sig .tc := ⟨.hbm, 45, rfl⟩
abbrev main_call2_v2 : Ref sig .tc := ⟨.hbm, 46, rfl⟩
abbrev main_v23 : Ref sig .tc := ⟨.hbm, 47, rfl⟩
abbrev main_cst_3 : Ref sig .tc := ⟨.hbm, 48, rfl⟩
abbrev main_call3_v0 : Ref sig .tc := ⟨.hbm, 49, rfl⟩
abbrev main_call3_v1 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_4 : Ref sig .tc := ⟨.hbm, 60, rfl⟩
abbrev main_v33 : Ref sig .tc := ⟨.hbm, 61, rfl⟩
abbrev main_cst_5 : Ref sig .tc := ⟨.hbm, 62, rfl⟩
abbrev main_v34 : Ref sig .tc := ⟨.hbm, 63, rfl⟩
abbrev main_v35 : Ref sig .tc := ⟨.hbm, 64, rfl⟩
abbrev main_cst_6 : Ref sig .tc := ⟨.hbm, 65, rfl⟩
abbrev main_v36 : Ref sig .tc := ⟨.hbm, 66, rfl⟩
abbrev main_v37 : Ref sig .tc := ⟨.hbm, 67, rfl⟩
abbrev main_cst_7 : Ref sig .tc := ⟨.hbm, 68, rfl⟩
abbrev main_v38 : Ref sig .tc := ⟨.hbm, 69, rfl⟩
abbrev main_v39 : Ref sig .tc := ⟨.hbm, 70, rfl⟩
abbrev main_cst_8 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_9 : Ref sig .tc := ⟨.hbm, 77, rfl⟩
abbrev main_v45 : Ref sig .tc := ⟨.hbm, 78, rfl⟩
abbrev main_v46 : Ref sig .tc := ⟨.hbm, 79, rfl⟩
abbrev main_cst_10 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_11 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_12 : Ref sig .tc := ⟨.hbm, 92, rfl⟩
abbrev main_v57 : Ref sig .tc := ⟨.hbm, 93, rfl⟩
abbrev main_v58 : Ref sig .tc := ⟨.hbm, 94, rfl⟩
abbrev main_cst_13 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_14 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_c_15 : Ref sig .tc := ⟨.hbm, 115, rfl⟩
abbrev main_v77 : Ref sig .tc := ⟨.hbm, 116, rfl⟩
abbrev main_v78 : Ref sig .tc := ⟨.hbm, 117, rfl⟩
abbrev main_c_16 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_call4_v0 : Ref sig .tc := ⟨.hbm, 129, rfl⟩
abbrev main_call4_v1 : Ref sig .tc := ⟨.hbm, 130, rfl⟩
abbrev main_call4_cst : Ref sig .tc := ⟨.hbm, 131, rfl⟩
abbrev main_call4_v2 : Ref sig .tc := ⟨.hbm, 132, rfl⟩
abbrev main_call4_v3 : Ref sig .tc := ⟨.hbm, 133, rfl⟩
abbrev main_call4_cst_0 : Ref sig .tc := ⟨.hbm, 134, rfl⟩
abbrev main_call4_v4 : Ref sig .tc := ⟨.hbm, 135, rfl⟩
abbrev main_call4_v5 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_call5_v0 : Ref sig .tc := ⟨.hbm, 142, rfl⟩
abbrev main_call5_v1 : Ref sig .tc := ⟨.hbm, 143, rfl⟩
abbrev main_call5_cst : Ref sig .tc := ⟨.hbm, 144, rfl⟩
abbrev main_call5_v2 : Ref sig .tc := ⟨.hbm, 145, rfl⟩
abbrev main_call5_v3 : Ref sig .tc := ⟨.hbm, 146, rfl⟩
abbrev main_call5_cst_0 : Ref sig .tc := ⟨.hbm, 147, rfl⟩
abbrev main_call5_v4 : Ref sig .tc := ⟨.hbm, 148, rfl⟩
abbrev main_call5_v5 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_cst_17 : Ref sig .tc := ⟨.hbm, 156, rfl⟩
abbrev main_v100 : Ref sig .tc := ⟨.hbm, 157, rfl⟩
abbrev main_cst_18 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  bcast_S_S800000x1 : S_.BroadcastsInDim S800000x1 (![] : Fin 0 → Fin S800000x1.rank)
  bcast_S800000x1_S800000x3_0_1 : S800000x1.BroadcastsInDim S800000x3 (![0, 1] : Fin 2 → Fin S800000x3.rank)
  slices_S800000x3_S800000x1_0_0 : S800000x3.Slices ![0, 0] S800000x1
  shapeCasts_S800000x1_S800000 : S800000x1.ShapeCasts S800000
  slices_S800000x3_S800000x1_0_1 : S800000x3.Slices ![0, 1] S800000x1
  slices_S800000x3_S800000x1_0_2 : S800000x3.Slices ![0, 2] S800000x1
  concatenates_S800000x1_S800000x1_S800000x1_S800000x1_S800000x1_S800000x1_S800000x1_S800000x1_S800000x1_S800000x9_d1 : Shape.Concatenates [S800000x1, S800000x1, S800000x1, S800000x1, S800000x1, S800000x1, S800000x1, S800000x1, S800000x1] S800000x9 1
  concatenates_S800000x9_S800000x64_S800000x73_d1 : Shape.Concatenates [S800000x9, S800000x64] S800000x73 1
  bcast_S32_S1x32_1 : S32.BroadcastsInDim S1x32 (![1] : Fin 1 → Fin S1x32.rank)
  bcast_S1x32_S800000x32_0_1 : S1x32.BroadcastsInDim S800000x32 (![0, 1] : Fin 2 → Fin S800000x32.rank)
  bcast_S_S800000x32 : S_.BroadcastsInDim S800000x32 (![] : Fin 0 → Fin S800000x32.rank)
  bcast_S288_S1x288_1 : S288.BroadcastsInDim S1x288 (![1] : Fin 1 → Fin S1x288.rank)
  bcast_S1x288_S800000x288_0_1 : S1x288.BroadcastsInDim S800000x288 (![0, 1] : Fin 2 → Fin S800000x288.rank)
  shapeCasts_S800000x288_S800000x9x32 : S800000x288.ShapeCasts S800000x9x32
  reducesTo_S800000x9x32_S800000x32_d1 : S800000x9x32.ReducesTo [1] S800000x32
  bcast_S_S50000x32 : S_.BroadcastsInDim S50000x32 (![] : Fin 0 → Fin S50000x32.rank)
  gather_S50000x3_S800000x1_S800000x3_1_0_n_n_0_1_13_wf : GatherDims.WF S50000x3 S800000x1 S800000x3 [1] [0] [] [0] [] 1 ![1, 3]
  gather_S50000x64_S800000x1_S800000x64_1_0_n_n_0_1_164_wf : GatherDims.WF S50000x64 S800000x1 S800000x64 [1] [0] [] [0] [] 1 ![1, 64]
  dot_S800000x73_S73x32_S800000x32_1_0_0_1_n_n_wf : DotDims.WF S800000x73 S73x32 S800000x32 [1] [0] [0] [1] [] []
  dot_S800000x32_S32x32_S800000x32_1_0_0_1_n_n_wf : DotDims.WF S800000x32 S32x32 S800000x32 [1] [0] [0] [1] [] []
  dot_S800000x32_S32x288_S800000x288_1_0_0_1_n_n_wf : DotDims.WF S800000x32 S32x288 S800000x288 [1] [0] [0] [1] [] []
  scatter_S50000x32_S800000x1_S800000x32_1_0_0_1_wf : ScatterDims.WF S50000x32 S800000x1 S800000x32 [1] [0] [0] 1

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x73_S73x32_S800000x32_1_0_0_1_n_n : DotDims S800000x73 S73x32 S800000x32 where
  lhsContracting := [1]
  rhsContracting := [0]
  lhsNonContracting := [0]
  rhsNonContracting := [1]
  lhsBatch := []
  rhsBatch := []
  wf := dot_S800000x73_S73x32_S800000x32_1_0_0_1_n_n_wf
def dot_S800000x32_S32x32_S800000x32_1_0_0_1_n_n : DotDims S800000x32 S32x32 S800000x32 where
  lhsContracting := [1]
  rhsContracting := [0]
  lhsNonContracting := [0]
  rhsNonContracting := [1]
  lhsBatch := []
  rhsBatch := []
  wf := dot_S800000x32_S32x32_S800000x32_1_0_0_1_n_n_wf
def dot_S800000x32_S32x288_S800000x288_1_0_0_1_n_n : DotDims S800000x32 S32x288 S800000x288 where
  lhsContracting := [1]
  rhsContracting := [0]
  lhsNonContracting := [0]
  rhsNonContracting := [1]
  lhsBatch := []
  rhsBatch := []
  wf := dot_S800000x32_S32x288_S800000x288_1_0_0_1_n_n_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf

class Facts : Prop extends Facts₀ where

variable [Facts]
-- ==== Proof.RefRun.lean ====
/-
  The reference program's run: every weakly fair execution terminates with the result buffer at the last stage of the
  arguments' launch contents (the sum of every edge's message into its target node's row) and the arguments unchanged.

  The result is read off the operation list stretch by stretch.  Read whole from the end, its term repeats the edge's
  direction at each of its twenty-odd uses, and inside it the relative position four times; cut where the direction is
  complete, where the nine angular features stand as columns, and just before the 73 numbers are joined, each stretch is a
  short term of a few values the stretch before left, and those are taken over by name.
-/
import proofs.«427460_j56573309223683_3_alg».proof.Proof.RefOps
import proofs.«427460_j56573309223683_3_alg».proof.Proof.RefStages
import Idealize.ShloMosaic.Lib.StableHlo.Run

noncomputable section

namespace Cert.ReferenceIdeal.Run

open Cert.ReferenceIdeal Cert.ReferenceIdeal.Gen Cert.ReferenceIdeal.Ops Cert.ReferenceIdeal.Stages Idealize.ShloMosaic Idealize.ShloMosaic.TcCoe Idealize.SL.Sem Idealize.ShloMosaic.StableHlo

variable {F : FTy → Type} [FloatOps F]

/-! ## The result, stretch by stretch -/

/-- The contents after two lists run in order. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

section Stretches
variable (W : Valuation τ sig (Elt F))

/-! ### First stretch: the direction and the two flat index arrays; the weights pass through -/

set_option maxRecDepth 8192 in
set_option maxHeartbeats 8000000 in
theorem A_v26 : after (opsA (F := F)) W (Proc.devRef .tc main_v26)
    = val_main_v26 (F := F) (W (Proc.devRef .tc main_arg1)) (W (Proc.devRef .tc main_arg8)) := by
  after_results_simp <;> rfl

theorem A_v1 : after (opsA (F := F)) W (Proc.devRef .tc main_v1) = val_main_v1 (F := F) (W (Proc.devRef .tc main_arg8)) := by
  after_results_simp <;> rfl

theorem A_v3 : after (opsA (F := F)) W (Proc.devRef .tc main_v3) = val_main_v3 (F := F) (W (Proc.devRef .tc main_arg8)) := by
  after_results_simp <;> rfl

theorem A_keep_arg0 : after (opsA (F := F)) W (Proc.devRef .tc main_arg0) = W (Proc.devRef .tc main_arg0) := by
  after_results_simp <;> rfl

theorem A_keep_arg2 : after (opsA (F := F)) W (Proc.devRef .tc main_arg2) = W (Proc.devRef .tc main_arg2) := by
  after_results_simp <;> rfl

theorem A_keep_arg3 : after (opsA (F := F)) W (Proc.devRef .tc main_arg3) = W (Proc.devRef .tc main_arg3) := by
  after_results_simp <;> rfl

theorem A_keep_arg4 : after (opsA (F := F)) W (Proc.devRef .tc main_arg4) = W (Proc.devRef .tc main_arg4) := by
  after_results_simp <;> rfl

theorem A_keep_arg5 : after (opsA (F := F)) W (Proc.devRef .tc main_arg5) = W (Proc.devRef .tc main_arg5) := by
  after_results_simp <;> rfl

theorem A_keep_arg6 : after (opsA (F := F)) W (Proc.devRef .tc main_arg6) = W (Proc.devRef .tc main_arg6) := by
  after_results_simp <;> rfl

theorem A_keep_arg7 : after (opsA (F := F)) W (Proc.devRef .tc main_arg7) = W (Proc.devRef .tc main_arg7) := by
  after_results_simp <;> rfl

/-! ### Second stretch: the nine angular features, each as a column, from the direction; everything else passes through -/

theorem B_v67 : after (opsB (F := F)) W (Proc.devRef .tc main_v67) = val_main_v67 (F := F) := by
  after_results_simp <;> rfl

theorem B_v68 (x1 : (⟨S50000x3, .f32⟩ : BufTy).Contents (Elt F)) (x8 : (⟨S2x800000, .i32⟩ : BufTy).Contents (Elt F))
    (h26 : W (Proc.devRef .tc main_v26) = val_main_v26 (F := F) x1 x8) :
    after (opsB (F := F)) W (Proc.devRef .tc main_v68) = val_main_v68 (F := F) x1 x8 := by
  after_results_simp
  simp only [h26]
  rfl

theorem B_v69 (x1 : (⟨S50000x3, .f32⟩ : BufTy).Contents (Elt F)) (x8 : (⟨S2x800000, .i32⟩ : BufTy).Contents (Elt F))
    (h26 : W (Proc.devRef .tc main_v26) = val_main_v26 (F := F) x1 x8) :
    after (opsB (F := F)) W (Proc.devRef .tc main_v69) = val_main_v69 (F := F) x1 x8 := by
  after_results_simp
  simp only [h26]
  rfl

theorem B_v70 (x1 : (⟨S50000x3, .f32⟩ : BufTy).Contents (Elt F)) (x8 : (⟨S2x800000, .i32⟩ : BufTy).Contents (Elt F))
    (h26 : W (Proc.devRef .tc main_v26) = val_main_v26 (F := F) x1 x8) :
    after (opsB (F := F)) W (Proc.devRef .tc main_v70) = val_main_v70 (F := F) x1 x8 := by
  after_results_simp
  simp only [h26]
  rfl

theorem B_v71 (x1 : (⟨S50000x3, .f32⟩ : BufTy).Contents (Elt F)) (x8 : (⟨S2x800000, .i32⟩ : BufTy).Contents (Elt F))
    (h26 : W (Proc.devRef .tc main_v26) = val_main_v26 (F := F) x1 x8) :
    after (opsB (F := F)) W (Proc.devRef .tc main_v71) = val_main_v71 (F := F) x1 x8 := by
  after_results_simp
  simp only [h26]
  rfl

theorem B_v72 (x1 : (⟨S50000x3, .f32⟩ : BufTy).Contents (Elt F)) (x8 : (⟨S2x800000, .i32⟩ : BufTy).Contents (Elt F))
    (h26 : W (Proc.devRef .tc main_v26) = val_main_v26 (F := F) x1 x8) :
    after (opsB (F := F)) W (Proc.devRef .tc main_v72) = val_main_v72 (F := F) x1 x8 := by
  after_results_simp
  simp only [h26]
  rfl

theorem B_v73 (x1 : (⟨S50000x3, .f32⟩ : BufTy).Contents (Elt F)) (x8 : (⟨S2x800000, .i32⟩ : BufTy).Contents (Elt F))
    (h26 : W (Proc.devRef .tc main_v26) = val_main_v26 (F := F) x1 x8) :
    after (opsB (F := F)) W (Proc.devRef .tc main_v73) = val_main_v73 (F := F) x1 x8 := by
  after_results_simp
  simp only [h26]
  rfl

theorem B_v74 (x1 : (⟨S50000x3, .f32⟩ : BufTy).Contents (Elt F)) (x8 : (⟨S2x800000, .i32⟩ : BufTy).Contents (Elt F))
    (h26 : W (Proc.devRef .tc main_v26) = val_main_v26 (F := F) x1 x8) :
    after (opsB (F := F)) W (Proc.devRef .tc main_v74) = val_main_v74 (F := F) x1 x8 := by
  after_results_simp
  simp only [h26]
  rfl

theorem B_v75 (x1 : (⟨S50000x3, .f32⟩ : BufTy).Contents (Elt F)) (x8 : (⟨S2x800000, .i32⟩ : BufTy).Contents (Elt F))
    (h26 : W (Proc.devRef .tc main_v26) = val_main_v26 (F := F) x1 x8) :
    after (opsB (F := F)) W (Proc.devRef .tc main_v75) = val_main_v75 (F := F) x1 x8 := by
  after_results_simp
  simp only [h26]
  rfl

theorem B_keep_v1 : after (opsB (F := F)) W (Proc.devRef .tc main_v1) = W (Proc.devRef .tc main_v1) := by
  after_results_simp <;> rfl

theorem B_keep_v3 : after (opsB (F := F)) W (Proc.devRef .tc main_v3) = W (Proc.devRef .tc main_v3) := by
  after_results_simp <;> rfl

theorem B_keep_arg0 : after (opsB (F := F)) W (Proc.devRef .tc main_arg0) = W (Proc.devRef .tc main_arg0) := by
  after_results_simp <;> rfl

theorem B_keep_arg2 : after (opsB (F := F)) W (Proc.devRef .tc main_arg2) = W (Proc.devRef .tc main_arg2) := by
  after_results_simp <;> rfl

theorem B_keep_arg3 : after (opsB (F := F)) W (Proc.devRef .tc main_arg3) = W (Proc.devRef .tc main_arg3) := by
  after_results_simp <;> rfl

theorem B_keep_arg4 : after (opsB (F := F)) W (Proc.devRef .tc main_arg4) = W (Proc.devRef .tc main_arg4) := by
  after_results_simp <;> rfl

theorem B_keep_arg5 : after (opsB (F := F)) W (Proc.devRef .tc main_arg5) = W (Proc.devRef .tc main_arg5) := by
  after_results_simp <;> rfl

theorem B_keep_arg6 : after (opsB (F := F)) W (Proc.devRef .tc main_arg6) = W (Proc.devRef .tc main_arg6) := by
  after_results_simp <;> rfl

theorem B_keep_arg7 : after (opsB (F := F)) W (Proc.devRef .tc main_arg7) = W (Proc.devRef .tc main_arg7) := by
  after_results_simp <;> rfl

/-! ### Third stretch: the nine columns joined, and the source feature rows gathered -/

theorem C_v76 (x1 : (⟨S50000x3, .f32⟩ : BufTy).Contents (Elt F)) (x8 : (⟨S2x800000, .i32⟩ : BufTy).Contents (Elt F))
    (h67 : W (Proc.devRef .tc main_v67) = val_main_v67 (F := F))
    (h68 : W (Proc.devRef .tc main_v68) = val_main_v68 (F := F) x1 x8)
    (h69 : W (Proc.devRef .tc main_v69) = val_main_v69 (F := F) x1 x8)
    (h70 : W (Proc.devRef .tc main_v70) = val_main_v70 (F := F) x1 x8)
    (h71 : W (Proc.devRef .tc main_v71) = val_main_v71 (F := F) x1 x8)
    (h72 : W (Proc.devRef .tc main_v72) = val_main_v72 (F := F) x1 x8)
    (h73 : W (Proc.devRef .tc main_v73) = val_main_v73 (F := F) x1 x8)
    (h74 : W (Proc.devRef .tc main_v74) = val_main_v74 (F := F) x1 x8)
    (h75 : W (Proc.devRef .tc main_v75) = val_main_v75 (F := F) x1 x8) :
    after (opsC (F := F)) W (Proc.devRef .tc main_v76) = val_main_v76 (F := F) x1 x8 := by
  after_results_simp
  show concatenate S800000x9 1 [⟨S800000x1, W (Proc.devRef .tc main_v67)⟩, ⟨S800000x1, W (Proc.devRef .tc main_v68)⟩, ⟨S800000x1, W (Proc.devRef .tc main_v69)⟩, ⟨S800000x1, W (Proc.devRef .tc main_v70)⟩, ⟨S800000x1, W (Proc.devRef .tc main_v71)⟩, ⟨S800000x1, W (Proc.devRef .tc main_v72)⟩, ⟨S800000x1, W (Proc.devRef .tc main_v73)⟩, ⟨S800000x1, W (Proc.devRef .tc main_v74)⟩, ⟨S800000x1, W (Proc.devRef .tc main_v75)⟩]
      concatenates_S800000x1_S800000x1_S800000x1_S800000x1_S800000x1_S800000x1_S800000x1_S800000x1_S800000x1_S800000x9_d1 = _
  rw [h67, h68, h69, h70, h71, h72, h73, h74, h75]
  rfl

theorem C_v83 (x0 : (⟨S50000x64, .f32⟩ : BufTy).Contents (Elt F)) (x8 : (⟨S2x800000, .i32⟩ : BufTy).Contents (Elt F))
    (h3 : W (Proc.devRef .tc main_v3) = val_main_v3 (F := F) x8) (a0 : W (Proc.devRef .tc main_arg0) = x0) :
    after (opsC (F := F)) W (Proc.devRef .tc main_v83) = val_main_v83 (F := F) x0 x8 := by
  after_results_simp
  simp only [h3, a0]
  rfl

theorem C_keep_v1 : after (opsC (F := F)) W (Proc.devRef .tc main_v1) = W (Proc.devRef .tc main_v1) := by
  after_results_simp <;> rfl

theorem C_keep_arg2 : after (opsC (F := F)) W (Proc.devRef .tc main_arg2) = W (Proc.devRef .tc main_arg2) := by
  after_results_simp <;> rfl

theorem C_keep_arg3 : after (opsC (F := F)) W (Proc.devRef .tc main_arg3) = W (Proc.devRef .tc main_arg3) := by
  after_results_simp <;> rfl

theorem C_keep_arg4 : after (opsC (F := F)) W (Proc.devRef .tc main_arg4) = W (Proc.devRef .tc main_arg4) := by
  after_results_simp <;> rfl

theorem C_keep_arg5 : after (opsC (F := F)) W (Proc.devRef .tc main_arg5) = W (Proc.devRef .tc main_arg5) := by
  after_results_simp <;> rfl

theorem C_keep_arg6 : after (opsC (F := F)) W (Proc.devRef .tc main_arg6) = W (Proc.devRef .tc main_arg6) := by
  after_results_simp <;> rfl

theorem C_keep_arg7 : after (opsC (F := F)) W (Proc.devRef .tc main_arg7) = W (Proc.devRef .tc main_arg7) := by
  after_results_simp <;> rfl

/-! ### Last stretch: the result, from the joined features, the gathered rows, the target indices and the weights -/

set_option maxRecDepth 8192 in
set_option maxHeartbeats 8000000 in
theorem D_v103 (x0 : (⟨S50000x64, .f32⟩ : BufTy).Contents (Elt F)) (x1 : (⟨S50000x3, .f32⟩ : BufTy).Contents (Elt F)) (x2 : (⟨S73x32, .f32⟩ : BufTy).Contents (Elt F)) (x3 : (⟨S32, .f32⟩ : BufTy).Contents (Elt F)) (x4 : (⟨S32x32, .f32⟩ : BufTy).Contents (Elt F)) (x5 : (⟨S32, .f32⟩ : BufTy).Contents (Elt F)) (x6 : (⟨S32x288, .f32⟩ : BufTy).Contents (Elt F)) (x7 : (⟨S288, .f32⟩ : BufTy).Contents (Elt F)) (x8 : (⟨S2x800000, .i32⟩ : BufTy).Contents (Elt F))
    (h76 : W (Proc.devRef .tc main_v76) = val_main_v76 (F := F) x1 x8) (h83 : W (Proc.devRef .tc main_v83) = val_main_v83 (F := F) x0 x8)
    (h1 : W (Proc.devRef .tc main_v1) = val_main_v1 (F := F) x8)
    (a2 : W (Proc.devRef .tc main_arg2) = x2) (a3 : W (Proc.devRef .tc main_arg3) = x3)
    (a4 : W (Proc.devRef .tc main_arg4) = x4) (a5 : W (Proc.devRef .tc main_arg5) = x5) (a6 : W (Proc.devRef .tc main_arg6) = x6)
    (a7 : W (Proc.devRef .tc main_arg7) = x7) :
    after (opsD (F := F)) W (Proc.devRef .tc main_v103) = val_main_v103 (F := F) x0 x1 x2 x3 x4 x5 x6 x7 x8 := by
  after_results_simp
  simp only [h1, a2, a3, a4, a5, a6, a7]
  rw [h76, h83]
  rfl

end Stretches

/-- The result buffer after the whole list, from the launch contents: the last stage of the arguments. -/
theorem v103_eq (m : (ℓ : Loc nD τ sig) → Buf (Elt F) ℓ) (c : Dev nD) :
    after (ops (F := F)) (launchContents m c) (Proc.devRef .tc main_v103)
      = val_main_v103 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [ops_split, after_append, after_append, after_append]
  exact D_v103 _ _ _ _ _ _ _ _ _ _
    (C_v76 _ _ _ (B_v67 _) (B_v68 _ _ _ (A_v26 _)) (B_v69 _ _ _ (A_v26 _)) (B_v70 _ _ _ (A_v26 _)) (B_v71 _ _ _ (A_v26 _)) (B_v72 _ _ _ (A_v26 _)) (B_v73 _ _ _ (A_v26 _)) (B_v74 _ _ _ (A_v26 _)) (B_v75 _ _ _ (A_v26 _)))
    (C_v83 _ _ _ ((B_keep_v3 _).trans (A_v3 _)) ((B_keep_arg0 _).trans (A_keep_arg0 _)))
    ((C_keep_v1 _).trans ((B_keep_v1 _).trans (A_v1 _)))
    ((C_keep_arg2 _).trans ((B_keep_arg2 _).trans (A_keep_arg2 _))) ((C_keep_arg3 _).trans ((B_keep_arg3 _).trans (A_keep_arg3 _)))
    ((C_keep_arg4 _).trans ((B_keep_arg4 _).trans (A_keep_arg4 _))) ((C_keep_arg5 _).trans ((B_keep_arg5 _).trans (A_keep_arg5 _)))
    ((C_keep_arg6 _).trans ((B_keep_arg6 _).trans (A_keep_arg6 _))) ((C_keep_arg7 _).trans ((B_keep_arg7 _).trans (A_keep_arg7 _)))

/-! ## The arguments: no operation writes them -/

theorem arg0_kept (m : (ℓ : Loc nD τ sig) → Buf (Elt F) ℓ) (c : Dev nD) :
    after (ops (F := F)) (launchContents m c) (Proc.devRef .tc main_arg0) = m ((c.tc : Thread nD τ).loc main_arg0) := by
  after_results_simp <;> rfl

theorem arg1_kept (m : (ℓ : Loc nD τ sig) → Buf (Elt F) ℓ) (c : Dev nD) :
    after (ops (F := F)) (launchContents m c) (Proc.devRef .tc main_arg1) = m ((c.tc : Thread nD τ).loc main_arg1) := by
  after_results_simp <;> rfl

theorem arg2_kept (m : (ℓ : Loc nD τ sig) → Buf (Elt F) ℓ) (c : Dev nD) :
    after (ops (F := F)) (launchContents m c) (Proc.devRef .tc main_arg2) = m ((c.tc : Thread nD τ).loc main_arg2) := by
  after_results_simp <;> rfl

theorem arg3_kept (m : (ℓ : Loc nD τ sig) → Buf (Elt F) ℓ) (c : Dev nD) :
    after (ops (F := F)) (launchContents m c) (Proc.devRef .tc main_arg3) = m ((c.tc : Thread nD τ).loc main_arg3) := by
  after_results_simp <;> rfl

theorem arg4_kept (m : (ℓ : Loc nD τ sig) → Buf (Elt F) ℓ) (c : Dev nD) :
    after (ops (F := F)) (launchContents m c) (Proc.devRef .tc main_arg4) = m ((c.tc : Thread nD τ).loc main_arg4) := by
  after_results_simp <;> rfl

theorem arg5_kept (m : (ℓ : Loc nD τ sig) → Buf (Elt F) ℓ) (c : Dev nD) :
    after (ops (F := F)) (launchContents m c) (Proc.devRef .tc main_arg5) = m ((c.tc : Thread nD τ).loc main_arg5) := by
  after_results_simp <;> rfl

theorem arg6_kept (m : (ℓ : Loc nD τ sig) → Buf (Elt F) ℓ) (c : Dev nD) :
    after (ops (F := F)) (launchContents m c) (Proc.devRef .tc main_arg6) = m ((c.tc : Thread nD τ).loc main_arg6) := by
  after_results_simp <;> rfl

theorem arg7_kept (m : (ℓ : Loc nD τ sig) → Buf (Elt F) ℓ) (c : Dev nD) :
    after (ops (F := F)) (launchContents m c) (Proc.devRef .tc main_arg7) = m ((c.tc : Thread nD τ).loc main_arg7) := by
  after_results_simp <;> rfl

theorem arg8_kept (m : (ℓ : Loc nD τ sig) → Buf (Elt F) ℓ) (c : Dev nD) :
    after (ops (F := F)) (launchContents m c) (Proc.devRef .tc main_arg8) = m ((c.tc : Thread nD τ).loc main_arg8) := by
  after_results_simp <;> rfl

/-! ## The run -/

/-- On every device, for any float values, from any memory with zero counters: every weakly fair execution of @main
    terminates with the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v103) = val_main_v103 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v103).trans (v103_eq m c),
      (h c main_arg0).trans (arg0_kept m c), (h c main_arg1).trans (arg1_kept m c), (h c main_arg2).trans (arg2_kept m c),
      (h c main_arg3).trans (arg3_kept m c), (h c main_arg4).trans (arg4_kept m c), (h c main_arg5).trans (arg5_kept m c),
      (h c main_arg6).trans (arg6_kept m c), (h c main_arg7).trans (arg7_kept m c), (h c main_arg8).trans (arg8_kept m c)⟩)
    (run_seq scopedRefs_eq scopedSems_eq defs main (fun _ => ops) main_eq (fun _ => ops_sub) m ρ)

end Cert.ReferenceIdeal.Run

end
-- ==== Proof.Spec.lean ====
/-
  The edge message as scalar functions of one edge's data, on the extended reals.

  An edge carries a relative position r (three numbers) and the feature row f of its source node (64 numbers).
  r is scaled to unit length twice (each time by its length clamped below at a small positive constant), nine
  angular features are taken of the result, and a three-layer perceptron with the activation x * logistic x is
  applied to the 73 numbers (features then f); the 288 outputs are summed in nine groups of 32.

  Two arrangements of this computation are stated: the one that contracts all 73 numbers against the first weight
  matrix and sums the nine groups at the end, and the one that contracts the nine angular features term by term,
  takes the contraction of f with the lower 64 rows of the first weight matrix as given, and folds the sum of the
  nine groups into the last weight matrix and bias.  They agree by associativity and commutativity of addition in
  the first layer, and by distributivity in the last, which holds because every number involved is a finite real.
-/
import Idealize.ShloMosaic.PureOps.Ideal
import Idealize.ShloMosaic.PureOps.Ideal.Laws
import Mathlib.Algebra.BigOperators.Fin

noncomputable section

namespace Cert.EdgeMsg

open Idealize.ShloMosaic

/-- The clamp below which a length is not allowed to fall. -/
abbrev eps : EReal := Ideal.ofBits .f32 0x322BCC77#32
abbrev one : EReal := Ideal.ofBits .f32 0x3F800000#32
abbrev two : EReal := Ideal.ofBits .f32 0x40000000#32
/-- The coefficients of the nine angular features. -/
abbrev c00 : EReal := Ideal.ofBits .f32 0x3E906EBB#32
abbrev c1n : EReal := Ideal.ofBits .f32 0xBEB0E49C#32
abbrev c1z : EReal := Ideal.ofBits .f32 0x3EFA2A1C#32
abbrev c1 : EReal := Ideal.ofBits .f32 0x3EB0E49C#32
abbrev c2 : EReal := Ideal.ofBits .f32 0x3EC5C5BB#32
abbrev c2zn : EReal := Ideal.ofBits .f32 0xBF45C5BB#32
abbrev c20 : EReal := Ideal.ofBits .f32 0x3EA17B01#32
abbrev c2z : EReal := Ideal.ofBits .f32 0x3F45C5BB#32

/-- A number is a finite real. -/
def IsR (x : EReal) : Prop := ∃ r : ℝ, x = (r : EReal)

/-- The length of a triple, clamped below at `eps`. -/
def len (r : Fin 3 → EReal) : EReal := max (Ideal.sqrt (∑ b : Fin 3, r b * r b)) eps

/-- A triple divided by its clamped length. -/
def unit3 (r : Fin 3 → EReal) : Fin 3 → EReal := fun a => Ideal.div (r a) (len r)

/-- The direction: scaled to unit length twice. -/
def dirn (r : Fin 3 → EReal) : Fin 3 → EReal := unit3 (unit3 r)

/-- The activation. -/
def silu (x : EReal) : EReal := x * Ideal.logistic x

/-- The nine angular features of a direction `d` = (x, y, z). -/
def sh (d : Fin 3 → EReal) : Fin 9 → EReal :=
  ![c00 * one, c1n * d 0, c1z * d 2, c1 * d 0, c2 * (d 0 * d 0 - d 1 * d 1), (c2zn * d 2) * d 0,
    c20 * (((two * d 2) * d 2 - d 0 * d 0) - d 1 * d 1), (c2z * d 2) * d 0, c2 * (d 0 * d 0 - d 1 * d 1)]

/-- The angular features contracted against nine weights, term by term from the left. -/
def shDot (d : Fin 3 → EReal) (w : Fin 9 → EReal) : EReal :=
  ((((((((c00 * w 0 + (c1n * d 0) * w 1) + (c1z * d 2) * w 2) + (c1 * d 0) * w 3)
    + (c2 * (d 0 * d 0 - d 1 * d 1)) * w 4) + (c2zn * (d 2 * d 0)) * w 5)
    + (c20 * (((two * d 2) * d 2 - d 0 * d 0) - d 1 * d 1)) * w 6) + (c2z * (d 2 * d 0)) * w 7)
    + (c2 * (d 0 * d 0 - d 1 * d 1)) * w 8)

/-- First hidden layer, split arrangement: `g j` is the contraction of the feature row with column `j` of the lower
    64 rows of the first weight matrix, `W1a` its upper nine rows. -/
def hid1K (r : Fin 3 → EReal) (g : Fin 32 → EReal) (W1a : Fin 9 → Fin 32 → EReal) (b1 : Fin 32 → EReal) (j : Fin 32) : EReal :=
  silu ((shDot (dirn r) (fun s => W1a s j) + g j) + b1 j)

/-- First hidden layer, whole arrangement: the 73 numbers (features, then the feature row) against column `j`. -/
def hid1R (r : Fin 3 → EReal) (f : Fin 64 → EReal) (W1 : Fin 73 → Fin 32 → EReal) (b1 : Fin 32 → EReal) (j : Fin 32) : EReal :=
  silu ((∑ t : Fin 73, (Fin.append (sh (dirn r)) f : Fin 73 → EReal) t * W1 t j) + b1 j)

/-- Second hidden layer. -/
def hid2 (h : Fin 32 → EReal) (W2 : Fin 32 → Fin 32 → EReal) (b2 : Fin 32 → EReal) (k : Fin 32) : EReal :=
  silu ((∑ j : Fin 32, h j * W2 j k) + b2 k)

/-- Column `32 s + c` of the 288: member `c` of group `s`. -/
def col (s : Fin 9) (c : Fin 32) : Fin 288 := ⟨32 * s.val + c.val, by omega⟩

/-- Output, folded arrangement: against the last weight matrix and bias already summed over the nine groups. -/
def outK (h : Fin 32 → EReal) (W3s : Fin 32 → Fin 32 → EReal) (b3s : Fin 32 → EReal) (c : Fin 32) : EReal :=
  (∑ k : Fin 32, h k * W3s k c) + b3s c

/-- Output, whole arrangement: all 288 outputs, then the sum over the nine groups (from zero). -/
def outR (h : Fin 32 → EReal) (W3 : Fin 32 → Fin 288 → EReal) (b3 : Fin 288 → EReal) (c : Fin 32) : EReal :=
  0 + ∑ s : Fin 9, ((∑ k : Fin 32, h k * W3 k (col s c)) + b3 (col s c))

/-! ### Auxiliary facts: finite reals are closed under the operations used -/

theorem one_eq : one = 1 := by
  simp [one, Ideal.ofBits, Ideal.ieee, -EReal.coe_mul]; norm_num

theorem IsR.add {x y : EReal} (hx : IsR x) (hy : IsR y) : IsR (x + y) := by
  obtain ⟨a, rfl⟩ := hx; obtain ⟨b, rfl⟩ := hy; exact ⟨a + b, (EReal.coe_add a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.sum {ι : Type} (S : Finset ι) {u : ι → EReal} (hu : ∀ i, IsR (u i)) : IsR (∑ i ∈ S, u i) := by
  classical
  induction S using Finset.induction_on with
  | empty => exact ⟨0, by simp⟩
  | insert a S ha ih => rw [Finset.sum_insert ha]; exact (hu a).add ih

/-- A single-precision pattern whose exponent field is not all ones denotes a finite real. -/
theorem isR_ofBits (b : BitVec 32) (h : (b.extractLsb' 23 8).toNat ≠ 255) : IsR (Ideal.ofBits .f32 b) := by
  unfold Ideal.ofBits Ideal.ieee
  simp only
  rw [if_neg (by simpa using h)]
  split_ifs <;> exact ⟨_, rfl⟩

theorem isR_one : IsR one := isR_ofBits _ (by decide)
theorem isR_two : IsR two := isR_ofBits _ (by decide)
theorem isR_c00 : IsR c00 := isR_ofBits _ (by decide)
theorem isR_c1n : IsR c1n := isR_ofBits _ (by decide)
theorem isR_c1z : IsR c1z := isR_ofBits _ (by decide)
theorem isR_c1 : IsR c1 := isR_ofBits _ (by decide)
theorem isR_c2 : IsR c2 := isR_ofBits _ (by decide)
theorem isR_c2zn : IsR c2zn := isR_ofBits _ (by decide)
theorem isR_c20 : IsR c20 := isR_ofBits _ (by decide)
theorem isR_c2z : IsR c2z := isR_ofBits _ (by decide)

/-- The clamp is a positive real. -/
theorem eps_pos : ∃ e : ℝ, 0 < e ∧ eps = (e : EReal) := by
  refine ⟨(2 ^ 23 + 2870391 : ℕ) * (2 : ℝ) ^ ((100 : Int) - 127 - 23), by positivity, ?_⟩
  simp [eps, Ideal.ofBits, Ideal.ieee, -EReal.coe_mul]

/-- The clamped length of a finite triple is a positive real. -/
theorem len_pos (r : Fin 3 → EReal) (hr : ∀ a, IsR (r a)) : ∃ y : ℝ, 0 < y ∧ len r = (y : EReal) := by
  obtain ⟨e, he, hE⟩ := eps_pos
  obtain ⟨x, hx⟩ := IsR.sum Finset.univ (fun b => (hr b).mul (hr b))
  unfold len
  rw [hx, hE, Ideal.sqrt_coe]
  split_ifs with hneg
  · exact ⟨e, he, max_eq_right bot_le⟩
  · refine ⟨max (Real.sqrt x) e, lt_max_of_lt_right he, ?_⟩
    rcases le_total (Real.sqrt x) e with h | h
    · rw [max_eq_right h, max_eq_right (EReal.coe_le_coe_iff.2 h)]
    · rw [max_eq_left h, max_eq_left (EReal.coe_le_coe_iff.2 h)]

theorem isR_unit3 (r : Fin 3 → EReal) (hr : ∀ a, IsR (r a)) (a : Fin 3) : IsR (unit3 r a) := by
  obtain ⟨y, hy, hL⟩ := len_pos r hr
  unfold unit3
  rw [hL, Ideal.div_coe hy.ne']
  exact (hr a).mul ⟨_, rfl⟩

theorem isR_dirn (r : Fin 3 → EReal) (hr : ∀ a, IsR (r a)) (a : Fin 3) : IsR (dirn r a) :=
  isR_unit3 _ (isR_unit3 r hr) a

theorem isR_silu {x : EReal} (hx : IsR x) : IsR (silu x) := by
  obtain ⟨a, rfl⟩ := hx
  unfold silu
  rw [Ideal.logistic_coe]
  exact IsR.mul ⟨a, rfl⟩ ⟨_, rfl⟩

theorem isR_vecCons {n : ℕ} {a : EReal} {v : Fin n → EReal} (ha : IsR a) (hv : ∀ i, IsR (v i)) (i : Fin (n + 1)) :
    IsR (Matrix.vecCons a v i) := by
  refine Fin.cases ?_ (fun i => ?_) i
  · simpa using ha
  · simpa using hv i

theorem isR_sh (d : Fin 3 → EReal) (hd : ∀ a, IsR (d a)) (s : Fin 9) : IsR (sh d s) := by
  have h0 := hd 0; have h1 := hd 1; have h2 := hd 2
  have hq : IsR (d 0 * d 0 - d 1 * d 1) := (h0.mul h0).sub (h1.mul h1)
  unfold sh
  exact isR_vecCons (isR_c00.mul isR_one) (isR_vecCons (isR_c1n.mul h0) (isR_vecCons (isR_c1z.mul h2)
    (isR_vecCons (isR_c1.mul h0) (isR_vecCons (isR_c2.mul hq) (isR_vecCons ((isR_c2zn.mul h2).mul h0)
    (isR_vecCons (isR_c20.mul ((((isR_two.mul h2).mul h2).sub (h0.mul h0)).sub (h1.mul h1)))
    (isR_vecCons ((isR_c2z.mul h2).mul h0) (isR_vecCons (isR_c2.mul hq) (fun i => i.elim0))))))))) s

theorem isR_append {u : Fin 9 → EReal} {v : Fin 64 → EReal} (hu : ∀ i, IsR (u i)) (hv : ∀ i, IsR (v i))
    (t : Fin (9 + 64)) : IsR (Fin.append u v t) := by
  induction t using Fin.addCases with
  | left i => rw [Fin.append_left]; exact hu i
  | right i => rw [Fin.append_right]; exact hv i

/-- The coercion of a finite sum of reals is the sum of the coercions. -/
theorem coe_sum {ι : Type} (S : Finset ι) (g : ι → ℝ) : ((∑ i ∈ S, g i : ℝ) : EReal) = ∑ i ∈ S, (g i : EReal) := by
  classical
  induction S using Finset.induction_on with
  | empty => simp
  | insert a S ha ih => rw [Finset.sum_insert ha, Finset.sum_insert ha, EReal.coe_add, ih]

/-- A finite factor distributes over a finite sum of finite terms. -/
theorem mul_sum_of_isR {ι : Type} (S : Finset ι) {a : EReal} {w : ι → EReal} (ha : IsR a) (hw : ∀ i, IsR (w i)) :
    a * ∑ i ∈ S, w i = ∑ i ∈ S, a * w i := by
  obtain ⟨x, rfl⟩ := ha
  choose g hg using hw
  simp only [hg]
  rw [← coe_sum, ← EReal.coe_mul, Finset.mul_sum, coe_sum]
  simp only [EReal.coe_mul]

/-- The sum over the 73 numbers splits into the nine angular terms and the 64 feature terms. -/
theorem sum73 (u : Fin 9 → EReal) (f : Fin 64 → EReal) (w : Fin 73 → EReal) :
    ∑ t : Fin 73, (Fin.append u f : Fin 73 → EReal) t * w t
      = (∑ s : Fin 9, u s * w (Fin.castAdd 64 s)) + ∑ k : Fin 64, f k * w (Fin.natAdd 9 k) := by
  have h := Fin.sum_univ_add (fun t : Fin (9 + 64) => Fin.append u f t * w t)
  simp only [Fin.append_left, Fin.append_right] at h
  exact h

/-- A sum of nine terms, nested from the left. -/
theorem sum9 (u : Fin 9 → EReal) :
    ∑ s : Fin 9, u s = (((((((u 0 + u 1) + u 2) + u 3) + u 4) + u 5) + u 6) + u 7) + u 8 := by
  rw [Fin.sum_univ_castSucc, Fin.sum_univ_eight]
  rfl

theorem shDot_eq (d : Fin 3 → EReal) (w : Fin 9 → EReal) : shDot d w = ∑ s : Fin 9, sh d s * w s := by
  rw [sum9]
  show _ = (((((((((c00 * one) * w 0 + (c1n * d 0) * w 1) + (c1z * d 2) * w 2) + (c1 * d 0) * w 3)
    + (c2 * (d 0 * d 0 - d 1 * d 1)) * w 4) + ((c2zn * d 2) * d 0) * w 5)
    + (c20 * (((two * d 2) * d 2 - d 0 * d 0) - d 1 * d 1)) * w 6) + ((c2z * d 2) * d 0) * w 7)
    + (c2 * (d 0 * d 0 - d 1 * d 1)) * w 8)
  rw [one_eq, mul_one, mul_assoc c2zn, mul_assoc c2z]
  rfl

/-- The first layer's two arrangements agree: the sum over 73 splits into the nine angular terms and the 64
    feature terms; nothing but associativity and commutativity of addition, and `one = 1`. -/
theorem hid1K_eq_hid1R (r : Fin 3 → EReal) (f : Fin 64 → EReal) (W1 : Fin 73 → Fin 32 → EReal) (b1 : Fin 32 → EReal) (j : Fin 32) :
    hid1K r (fun j => ∑ k : Fin 64, f k * W1 (Fin.natAdd 9 k) j) (fun s j => W1 (Fin.castAdd 64 s) j) b1 j
      = hid1R r f W1 b1 j := by
  unfold hid1K hid1R
  rw [sum73, shDot_eq]

/-- The second hidden layer of finite data is finite. -/
theorem isR_hid2_hid1R (r : Fin 3 → EReal) (f : Fin 64 → EReal) (W1 : Fin 73 → Fin 32 → EReal) (b1 : Fin 32 → EReal)
    (W2 : Fin 32 → Fin 32 → EReal) (b2 : Fin 32 → EReal)
    (hr : ∀ a, IsR (r a)) (hf : ∀ k, IsR (f k)) (hW1 : ∀ t j, IsR (W1 t j)) (hb1 : ∀ j, IsR (b1 j))
    (hW2 : ∀ j k, IsR (W2 j k)) (hb2 : ∀ k, IsR (b2 k)) (k : Fin 32) :
    IsR (hid2 (hid1R r f W1 b1) W2 b2 k) := by
  have hh : ∀ j, IsR (hid1R r f W1 b1 j) := by
    intro j
    unfold hid1R
    refine isR_silu (IsR.add (IsR.sum _ (fun t => IsR.mul ?_ (hW1 t j))) (hb1 j))
    exact isR_append (isR_sh _ (isR_dirn r hr)) hf t
  unfold hid2
  exact isR_silu (IsR.add (IsR.sum _ (fun j => (hh j).mul (hW2 j k))) (hb2 k))

/-- The last layer's two arrangements agree on finite data: a finite factor distributes over a sum of finite terms. -/
theorem outK_eq_outR (h : Fin 32 → EReal) (W3 : Fin 32 → Fin 288 → EReal) (b3 : Fin 288 → EReal)
    (hh : ∀ k, IsR (h k)) (hW3 : ∀ k n, IsR (W3 k n)) (c : Fin 32) :
    outK h (fun k c => 0 + ∑ s : Fin 9, W3 k (col s c)) (fun c => 0 + ∑ s : Fin 9, b3 (col s c)) c = outR h W3 b3 c := by
  unfold outK outR
  simp only [zero_add]
  rw [Finset.sum_add_distrib, Finset.sum_comm]
  congr 1
  refine Finset.sum_congr rfl (fun k _ => ?_)
  exact mul_sum_of_isR _ (hh k) (fun s => hW3 k (col s c))

end Cert.EdgeMsg

end
-- ==== Proof.KernelBlock.lean ====
/-
  What the kernel body leaves in its output block, read at one index.

  The body reads a block of 4000 relative positions, the matching block of feature-row contractions, the nine upper
  rows of the first weight matrix, the three biases and the two 32 by 32 weight matrices, and stores ONE value over the
  whole block. Read at row p and column q, that value is the three-layer perceptron of row p's data in the split and
  folded arrangement of the scalar specification: the position is scaled to unit length twice, its nine angular
  features are contracted term by term against the nine rows, the feature-row contraction and the bias are added, the
  activation is applied; then a second layer, then the last product and bias.

  The proof goes through the body's arithmetic from the leaves up. Each operation that moves data (a broadcast, a
  slice, a change of shape, the sum along a row, the two matrix products) is read once at explicit coordinates; the
  elementwise operations are the extended reals' by definition; the payloads are then compositions of these.
-/
import proofs.«427460_j56573309223683_3_alg».proof.Proof.Gen.KernelIdeal.Frame
import proofs.«427460_j56573309223683_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Block

open Idealize.ShloMosaic Idealize.ShloMosaic.ValueIdx Cert.KernelIdeal Cert.KernelIdeal.Gen Cert.EdgeMsg

/-! ## Layout operations read at coordinates -/

/-- The block rectangle starts at the origin. -/
theorem hz2 : (![0, 0] : Fin 2 → Nat) = fun _ => 0 := funext fun a => by fin_cases a <;> rfl

/-- A column vector spread over three columns reads its row's entry. -/
theorem bc_col3 (v : FVec Ideal S4000x1 .f32) (p : Fin 4000) (a : Fin 3) :
    broadcastTo S4000x3 v broadcasts_S4000x1_S4000x3 (ix2 p a) = v (ix2 p (0 : Fin 1)) := by
  refine broadcastTo_apply v broadcasts_S4000x1_S4000x3 (ix2 p a) (ix2 p (0 : Fin 1)) fun ax => ?_
  match ax with
  | ⟨0, _⟩ => show p.val = if (4000 : Nat) = 1 then 0 else p.val; rw [if_neg (by decide)]
  | ⟨1, _⟩ => show 0 = if (1 : Nat) = 1 then 0 else a.val; rw [if_pos rfl]

/-- A column vector spread over thirty-two columns reads its row's entry. -/
theorem bc_col32 (v : FVec Ideal S4000x1 .f32) (p : Fin 4000) (q : Fin 32) :
    broadcastTo S4000x32 v broadcasts_S4000x1_S4000x32 (ix2 p q) = v (ix2 p (0 : Fin 1)) := by
  refine broadcastTo_apply v broadcasts_S4000x1_S4000x32 (ix2 p q) (ix2 p (0 : Fin 1)) fun ax => ?_
  match ax with
  | ⟨0, _⟩ => show p.val = if (4000 : Nat) = 1 then 0 else p.val; rw [if_neg (by decide)]
  | ⟨1, _⟩ => show 0 = if (1 : Nat) = 1 then 0 else q.val; rw [if_pos rfl]

/-- A row vector spread over all rows reads its column's entry. -/
theorem bc_row32 (v : FVec Ideal S1x32 .f32) (p : Fin 4000) (q : Fin 32) :
    broadcastTo S4000x32 v broadcasts_S1x32_S4000x32 (ix2 p q) = v (ix2 (0 : Fin 1) q) :=
  broadcastTo_1b_ab_apply v broadcasts_S1x32_S4000x32 p q

/-- A vector of length 4000 viewed as a column. -/
theorem sc_col (v : FVec Ideal S4000 .f32) (p : Fin 4000) :
    shapeCast S4000x1 v shapeCasts_S4000_S4000x1 (ix2 p (0 : Fin 1)) = v (ix1 p) :=
  shapeCast_apply v shapeCasts_S4000_S4000x1 _ _ (by
    rw [Shape.rowMajor_val_two, Shape.rowMajor_val_one]
    show p.val = p.val * 1 + 0
    omega)

/-- Column `k` of a three-column array, as a column vector. -/
theorem sl_col (k : Nat) (k' : Fin 3) (hk : k'.val = k) (v : FVec Ideal S4000x3 .f32) (h : S4000x3.Slices ![0, k] S4000x1)
    (p : Fin 4000) : extractStridedSlice S4000x1 ![0, k] v h (ix2 p (0 : Fin 1)) = v (ix2 p k') :=
  slice2_axis1_apply k v h p (0 : Fin 1) k' (by rw [hk]; rfl)

/-- Row `s` of a nine-row array, as a row vector. -/
theorem sl_row (s : Nat) (s' : Fin 9) (hs : s'.val = s) (v : FVec Ideal S9x32 .f32) (h : S9x32.Slices ![s, 0] S1x32)
    (q : Fin 32) : extractStridedSlice S1x32 ![s, 0] v h (ix2 (0 : Fin 1) q) = v (ix2 s' q) :=
  slice2_axis0_apply s v h (0 : Fin 1) q s' (by rw [hs]; rfl)

/-- The sum along the three columns. -/
theorem red3 (v : FVec Ideal S4000x3 .f32) (p : Fin 4000) :
    multiReduction (F := Ideal) .add [1] S4000 v 0x00000000#32 reduces_S4000x3_S4000 (.inl rfl) rfl (ix1 p)
      = ∑ b : Fin 3, v (ix2 p b) := by
  refine (Ideal.multiReduction_add_single v _ reduces_S4000x3_S4000 (.inl rfl) rfl (ix1 p)).trans ?_
  refine Finset.sum_congr rfl fun b _ => congrArg v ?_
  funext c; apply Fin.ext
  match c with
  | ⟨0, _⟩ => rfl
  | ⟨1, _⟩ => rfl

/-! ## The contraction read at coordinates -/

theorem lhs_dot_0 (i : S4000x32.Idx) (k : dot_S4000x32_S32x32_S4000x32_1_0_0_1_n_n.contr.Idx) :
    (dot_S4000x32_S32x32_S4000x32_1_0_0_1_n_n.lhsIdx i k 0).val = (i 0).val := by
  unfold DotDims.lhsIdx
  rw [dif_neg (show ¬(0 : Fin S4000x32.rank) ∈ dot_S4000x32_S32x32_S4000x32_1_0_0_1_n_n.lhsBatch by decide), dif_pos (show (0 : Fin S4000x32.rank) ∈ dot_S4000x32_S32x32_S4000x32_1_0_0_1_n_n.lhsNonContracting by decide)]
  rfl
theorem lhs_dot_1 (i : S4000x32.Idx) (k : dot_S4000x32_S32x32_S4000x32_1_0_0_1_n_n.contr.Idx) :
    (dot_S4000x32_S32x32_S4000x32_1_0_0_1_n_n.lhsIdx i k 1).val = (k ⟨0, by decide⟩).val :=
  dot_S4000x32_S32x32_S4000x32_1_0_0_1_n_n.lhsIdx_val_of_single rfl i k
theorem rhs_dot_0 (i : S4000x32.Idx) (k : dot_S4000x32_S32x32_S4000x32_1_0_0_1_n_n.contr.Idx) :
    (dot_S4000x32_S32x32_S4000x32_1_0_0_1_n_n.rhsIdx i k 0).val = (k ⟨0, by decide⟩).val :=
  dot_S4000x32_S32x32_S4000x32_1_0_0_1_n_n.rhsIdx_val_of_single rfl i k
theorem rhs_dot_1 (i : S4000x32.Idx) (k : dot_S4000x32_S32x32_S4000x32_1_0_0_1_n_n.contr.Idx) :
    (dot_S4000x32_S32x32_S4000x32_1_0_0_1_n_n.rhsIdx i k 1).val = (i 1).val := by
  unfold DotDims.rhsIdx
  rw [dif_neg (show ¬(1 : Fin S32x32.rank) ∈ dot_S4000x32_S32x32_S4000x32_1_0_0_1_n_n.rhsBatch by decide), dif_pos (show (1 : Fin S32x32.rank) ∈ dot_S4000x32_S32x32_S4000x32_1_0_0_1_n_n.rhsNonContracting by decide)]
  rfl

/-- A product of a block of rows with a 32 by 32 matrix, accumulated from zero: entry `(p, q)` is row `p` against
    column `q`. -/
theorem mm_apply (lhs : FVec Ideal S4000x32 .bf16) (rhs : FVec Ideal S32x32 .bf16) (p : Fin 4000) (q : Fin 32) :
    matmul dot_S4000x32_S32x32_S4000x32_1_0_0_1_n_n none lhs rhs (constant S4000x32 .f32 0x00000000#32) (ix2 p q)
      = ∑ k : Fin 32, lhs (ix2 p k) * rhs (ix2 k q) := by
  refine (Ideal.matmul_constant_zero_apply dot_S4000x32_S32x32_S4000x32_1_0_0_1_n_n none lhs rhs (ix2 p q)).trans ?_
  rw [← Equiv.sum_comp (contrEquiv1 dot_S4000x32_S32x32_S4000x32_1_0_0_1_n_n 32 rfl rfl).symm]
  refine Finset.sum_congr rfl fun k _ => ?_
  have hk := contrEquiv1_symm_val dot_S4000x32_S32x32_S4000x32_1_0_0_1_n_n 32 rfl rfl k
  have el : dot_S4000x32_S32x32_S4000x32_1_0_0_1_n_n.lhsIdx (ix2 p q) ((contrEquiv1 dot_S4000x32_S32x32_S4000x32_1_0_0_1_n_n 32 rfl rfl).symm k) = ix2 p k := funext fun a => Fin.ext (by
    match a with
    | ⟨0, _⟩ => exact lhs_dot_0 _ _
    | ⟨1, _⟩ => exact (lhs_dot_1 _ _).trans hk)
  have er : dot_S4000x32_S32x32_S4000x32_1_0_0_1_n_n.rhsIdx (ix2 p q) ((contrEquiv1 dot_S4000x32_S32x32_S4000x32_1_0_0_1_n_n 32 rfl rfl).symm k) = ix2 k q := funext fun a => Fin.ext (by
    match a with
    | ⟨0, _⟩ => exact (rhs_dot_0 _ _).trans hk
    | ⟨1, _⟩ => exact rhs_dot_1 _ _)
  rw [el, er]

/-! ## The body's compound operations, each read at coordinates -/

/-- A block of triples, each divided by its clamped length. -/
def nrm (v : FVec Ideal S4000x3 .f32) : FVec Ideal S4000x3 .f32 :=
  divf v (broadcastTo S4000x3
    (maximumf (sqrt (shapeCast S4000x1 (multiReduction .add [1] S4000 (mulf v v) 0x00000000#32 reduces_S4000x3_S4000 (.inl rfl) rfl)
        shapeCasts_S4000_S4000x1))
      (broadcast S4000x1 (Scalar.ofBits .f32 0x322BCC77#32)))
    broadcasts_S4000x1_S4000x3)

theorem nrm_apply (v : FVec Ideal S4000x3 .f32) (p : Fin 4000) (a : Fin 3) :
    nrm v (ix2 p a) = unit3 (fun b => v (ix2 p b)) a := by
  show Ideal.div (v (ix2 p a)) (broadcastTo S4000x3 _ broadcasts_S4000x1_S4000x3 (ix2 p a)) = Ideal.div (v (ix2 p a)) (len fun b => v (ix2 p b))
  refine congrArg (Ideal.div (v (ix2 p a))) ((bc_col3 _ p a).trans ?_)
  show max (Ideal.sqrt (shapeCast S4000x1 _ shapeCasts_S4000_S4000x1 (ix2 p (0 : Fin 1)))) eps = max (Ideal.sqrt (∑ b : Fin 3, v (ix2 p b) * v (ix2 p b))) eps
  exact congrArg (fun t => max (Ideal.sqrt t) eps) ((sc_col _ p).trans (red3 _ p))

/-- One of the eight weighted terms: a column vector scaled by a constant, times a row of the nine-row array. -/
def term (c : Ideal .f32) (u : FVec Ideal S4000x1 .f32) (s : Nat) (v36 : FVec Ideal S9x32 .f32) (h : S9x32.Slices ![s, 0] S1x32) :
    FVec Ideal S4000x32 .f32 :=
  mulf (broadcastTo S4000x32 (mulf (broadcast S4000x1 c) u) broadcasts_S4000x1_S4000x32)
    (broadcastTo S4000x32 (extractStridedSlice S1x32 ![s, 0] v36 h) broadcasts_S1x32_S4000x32)

theorem term_apply (c : Ideal .f32) (u : FVec Ideal S4000x1 .f32) (s : Nat) (s' : Fin 9) (hs : s'.val = s) (v36 : FVec Ideal S9x32 .f32)
    (h : S9x32.Slices ![s, 0] S1x32) (p : Fin 4000) (j : Fin 32) :
    term c u s v36 h (ix2 p j) = (c * u (ix2 p (0 : Fin 1))) * v36 (ix2 s' j) := by
  show broadcastTo S4000x32 (mulf (broadcast S4000x1 c) u) broadcasts_S4000x1_S4000x32 (ix2 p j)
      * broadcastTo S4000x32 (extractStridedSlice S1x32 ![s, 0] v36 h) broadcasts_S1x32_S4000x32 (ix2 p j) = _
  rw [bc_col32, bc_row32, sl_row s s' hs]
  rfl

/-- A bias row added to every row, then the activation. -/
def lay (h : FVec Ideal S4000x32 .f32) (b : FVec Ideal S1x32 .f32) : FVec Ideal S4000x32 .f32 :=
  mulf (addf h (broadcastTo S4000x32 b broadcasts_S1x32_S4000x32))
    (logistic (addf h (broadcastTo S4000x32 b broadcasts_S1x32_S4000x32)))

theorem lay_apply (h : FVec Ideal S4000x32 .f32) (b : FVec Ideal S1x32 .f32) (p : Fin 4000) (j : Fin 32) :
    lay h b (ix2 p j) = silu (h (ix2 p j) + b (ix2 (0 : Fin 1) j)) := by
  show (h (ix2 p j) + broadcastTo S4000x32 b broadcasts_S1x32_S4000x32 (ix2 p j))
      * Ideal.logistic (h (ix2 p j) + broadcastTo S4000x32 b broadcasts_S1x32_S4000x32 (ix2 p j)) = _
  rw [bc_row32]
  rfl

/-- The product of a block with a weight matrix, both passed through the narrower format (the identity on the
    extended reals), accumulated from zero. -/
def mmul (a : FVec Ideal S4000x32 .f32) (w : FVec Ideal S32x32 .f32) : FVec Ideal S4000x32 .f32 :=
  matmul dot_S4000x32_S32x32_S4000x32_1_0_0_1_n_n none (truncf .bf16 a bitsLt_bf16_f32) (truncf .bf16 w bitsLt_bf16_f32)
    (constant S4000x32 .f32 0x00000000#32)

theorem mmul_apply (a : FVec Ideal S4000x32 .f32) (w : FVec Ideal S32x32 .f32) (p : Fin 4000) (q : Fin 32) :
    mmul a w (ix2 p q) = ∑ k : Fin 32, a (ix2 p k) * w (ix2 k q) :=
  mm_apply _ _ p q

/-! ## The payloads read at coordinates -/

/-- The first payload of triples is the block scaled twice. -/
theorem pay3_eq (x0 : Vec Ideal S4000x3 .f32) : k0_pay3 (F := Ideal) x0 = nrm (nrm x0) := by
  have e : k0_pay3 (F := Ideal) x0 = nrm (nrm (shapeCast S4000x3 x0 shapeCasts_S4000x3_S4000x3)) := rfl
  rw [e, shapeCast_self]

theorem pay3_apply (x0 : Vec Ideal S4000x3 .f32) (p : Fin 4000) (a : Fin 3) :
    k0_pay3 (F := Ideal) x0 (ix2 p a) = dirn (fun b => x0 (ix2 p b)) a := by
  rw [pay3_eq, nrm_apply]
  show unit3 (fun b => nrm x0 (ix2 p b)) a = unit3 (unit3 fun b => x0 (ix2 p b)) a
  exact congrArg (fun r => unit3 r a) (funext fun b => nrm_apply x0 p b)

/-- The three coordinates of the direction. -/
theorem pay4_apply (x0 : Vec Ideal S4000x3 .f32) (p : Fin 4000) :
    k0_pay4 (F := Ideal) x0 (ix2 p (0 : Fin 1)) = dirn (fun b => x0 (ix2 p b)) 0 :=
  (sl_col 0 0 rfl (k0_pay3 (F := Ideal) x0) slices_S4000x3_o0_0_S4000x1 p).trans (pay3_apply x0 p 0)
theorem pay5_apply (x0 : Vec Ideal S4000x3 .f32) (p : Fin 4000) :
    k0_pay5 (F := Ideal) x0 (ix2 p (0 : Fin 1)) = dirn (fun b => x0 (ix2 p b)) 1 :=
  (sl_col 1 1 rfl (k0_pay3 (F := Ideal) x0) slices_S4000x3_o0_1_S4000x1 p).trans (pay3_apply x0 p 1)
theorem pay6_apply (x0 : Vec Ideal S4000x3 .f32) (p : Fin 4000) :
    k0_pay6 (F := Ideal) x0 (ix2 p (0 : Fin 1)) = dirn (fun b => x0 (ix2 p b)) 2 :=
  (sl_col 2 2 rfl (k0_pay3 (F := Ideal) x0) slices_S4000x3_o0_2_S4000x1 p).trans (pay3_apply x0 p 2)

/-- The three quadratic expressions of the direction. -/
theorem pay7_apply (x0 : Vec Ideal S4000x3 .f32) (p : Fin 4000) :
    k0_pay7 (F := Ideal) x0 (ix2 p (0 : Fin 1))
      = dirn (fun b => x0 (ix2 p b)) 0 * dirn (fun b => x0 (ix2 p b)) 0
        - dirn (fun b => x0 (ix2 p b)) 1 * dirn (fun b => x0 (ix2 p b)) 1 := by
  show k0_pay4 (F := Ideal) x0 (ix2 p (0 : Fin 1)) * k0_pay4 (F := Ideal) x0 (ix2 p (0 : Fin 1))
      - k0_pay5 (F := Ideal) x0 (ix2 p (0 : Fin 1)) * k0_pay5 (F := Ideal) x0 (ix2 p (0 : Fin 1)) = _
  rw [pay4_apply, pay5_apply]
theorem pay8_apply (x0 : Vec Ideal S4000x3 .f32) (p : Fin 4000) :
    k0_pay8 (F := Ideal) x0 (ix2 p (0 : Fin 1))
      = dirn (fun b => x0 (ix2 p b)) 2 * dirn (fun b => x0 (ix2 p b)) 0 := by
  show k0_pay6 (F := Ideal) x0 (ix2 p (0 : Fin 1)) * k0_pay4 (F := Ideal) x0 (ix2 p (0 : Fin 1)) = _
  rw [pay6_apply, pay4_apply]
theorem pay9_apply (x0 : Vec Ideal S4000x3 .f32) (p : Fin 4000) :
    k0_pay9 (F := Ideal) x0 (ix2 p (0 : Fin 1))
      = ((two * dirn (fun b => x0 (ix2 p b)) 2) * dirn (fun b => x0 (ix2 p b)) 2
          - dirn (fun b => x0 (ix2 p b)) 0 * dirn (fun b => x0 (ix2 p b)) 0)
        - dirn (fun b => x0 (ix2 p b)) 1 * dirn (fun b => x0 (ix2 p b)) 1 := by
  show ((two * k0_pay6 (F := Ideal) x0 (ix2 p (0 : Fin 1))) * k0_pay6 (F := Ideal) x0 (ix2 p (0 : Fin 1))
        - k0_pay4 (F := Ideal) x0 (ix2 p (0 : Fin 1)) * k0_pay4 (F := Ideal) x0 (ix2 p (0 : Fin 1)))
      - k0_pay5 (F := Ideal) x0 (ix2 p (0 : Fin 1)) * k0_pay5 (F := Ideal) x0 (ix2 p (0 : Fin 1)) = _
  rw [pay4_apply, pay5_apply, pay6_apply]

/-- The nine-row array as loaded. -/
theorem pay10_eq (x2 : Vec Ideal S9x32 .f32) : k0_pay10 (F := Ideal) x2 = x2 :=
  shapeCast_self x2 shapeCasts_S9x32_S9x32

/-- The constant term. -/
theorem pay11_apply (x2 : Vec Ideal S9x32 .f32) (j : Fin 32) :
    k0_pay11 (F := Ideal) x2 (ix2 (0 : Fin 1) j) = c00 * x2 (ix2 (0 : Fin 9) j) := by
  show c00 * extractStridedSlice S1x32 ![0, 0] (k0_pay10 (F := Ideal) x2) slices_S9x32_o0_0_S1x32 (ix2 (0 : Fin 1) j) = _
  rw [sl_row 0 0 rfl, pay10_eq]

/-- The first weighted term. -/
theorem pay12_apply (x0 : Vec Ideal S4000x3 .f32) (x2 : Vec Ideal S9x32 .f32) (p : Fin 4000) (j : Fin 32) :
    k0_pay12 (F := Ideal) x0 x2 (ix2 p j) = (c1n * dirn (fun b => x0 (ix2 p b)) 0) * x2 (ix2 (1 : Fin 9) j) := by
  have e : k0_pay12 (F := Ideal) x0 x2 = term c1n (k0_pay4 (F := Ideal) x0) 1 (k0_pay10 (F := Ideal) x2) slices_S9x32_o1_0_S1x32 := rfl
  rw [e, term_apply c1n _ 1 1 rfl, pay4_apply, pay10_eq]

/-- The nine terms summed from the left, then the contraction of the feature row. -/
theorem pay13_apply (v4 : FVec Ideal S4000x32 .f32) (v21 v23 v26 v27 v34 : FVec Ideal S4000x1 .f32) (v36 : FVec Ideal S9x32 .f32)
    (v39 : FVec Ideal S1x32 .f32) (v45 : FVec Ideal S4000x32 .f32) (p : Fin 4000) (j : Fin 32) :
    k0_pay13 (F := Ideal) v4 v21 v23 v26 v27 v34 v36 v39 v45 (ix2 p j)
      = ((((((((v39 (ix2 (0 : Fin 1) j) + v45 (ix2 p j))
          + (c1z * v23 (ix2 p (0 : Fin 1))) * v36 (ix2 (2 : Fin 9) j))
          + (c1 * v21 (ix2 p (0 : Fin 1))) * v36 (ix2 (3 : Fin 9) j))
          + (c2 * v26 (ix2 p (0 : Fin 1))) * v36 (ix2 (4 : Fin 9) j))
          + (c2zn * v27 (ix2 p (0 : Fin 1))) * v36 (ix2 (5 : Fin 9) j))
          + (c20 * v34 (ix2 p (0 : Fin 1))) * v36 (ix2 (6 : Fin 9) j))
          + (c2z * v27 (ix2 p (0 : Fin 1))) * v36 (ix2 (7 : Fin 9) j))
          + (c2 * v26 (ix2 p (0 : Fin 1))) * v36 (ix2 (8 : Fin 9) j))
        + v4 (ix2 p j) := by
  show ((((((((broadcastTo S4000x32 v39 broadcasts_S1x32_S4000x32 (ix2 p j) + v45 (ix2 p j))
          + term c1z v23 2 v36 slices_S9x32_o2_0_S1x32 (ix2 p j))
          + term c1 v21 3 v36 slices_S9x32_o3_0_S1x32 (ix2 p j))
          + term c2 v26 4 v36 slices_S9x32_o4_0_S1x32 (ix2 p j))
          + term c2zn v27 5 v36 slices_S9x32_o5_0_S1x32 (ix2 p j))
          + term c20 v34 6 v36 slices_S9x32_o6_0_S1x32 (ix2 p j))
          + term c2z v27 7 v36 slices_S9x32_o7_0_S1x32 (ix2 p j))
          + term c2 v26 8 v36 slices_S9x32_o8_0_S1x32 (ix2 p j))
        + v4 (ix2 p j) = _
  rw [bc_row32, term_apply c1z v23 2 2 rfl, term_apply c1 v21 3 3 rfl, term_apply c2 v26 4 4 rfl,
    term_apply c2zn v27 5 5 rfl, term_apply c20 v34 6 6 rfl, term_apply c2z v27 7 7 rfl, term_apply c2 v26 8 8 rfl]

/-- The first layer before its bias: the nine angular terms, then the contraction of the feature row. -/
theorem pre1_apply (x0 : Vec Ideal S4000x3 .f32) (x1 : Vec Ideal S4000x32 .bf16) (x2 : Vec Ideal S9x32 .f32) (p : Fin 4000) (j : Fin 32) :
    k0_pay13 (F := Ideal) (k0_pay2 x1) (k0_pay4 x0) (k0_pay6 x0) (k0_pay7 x0) (k0_pay8 x0) (k0_pay9 x0) (k0_pay10 x2) (k0_pay11 x2)
        (k0_pay12 x0 x2) (ix2 p j)
      = shDot (dirn fun b => x0 (ix2 p b)) (fun s => x2 (ix2 s j)) + x1 (ix2 p j) := by
  have e2 : k0_pay2 (F := Ideal) x1 (ix2 p j) = x1 (ix2 p j) :=
    congrFun (shapeCast_self x1 shapeCasts_S4000x32_S4000x32) (ix2 p j)
  rw [pay13_apply, pay11_apply, pay12_apply, pay4_apply, pay6_apply, pay7_apply, pay8_apply, pay9_apply, pay10_eq, e2]
  rfl

/-- The stored payload over any first-layer input: bias and activation, the second layer, the last product and bias. -/
theorem pay1_apply (v97 : FVec Ideal S4000x32 .f32) (v98 : Vec Ideal S1x32 .f32) (v105 : Vec Ideal S32x32 .f32) (v108 : Vec Ideal S1x32 .f32)
    (v115 : Vec Ideal S32x32 .f32) (v119 : Vec Ideal S1x32 .f32) (p : Fin 4000) (q : Fin 32) :
    k0_pay1 (F := Ideal) v97 v98 v105 v108 v115 v119 (ix2 p q)
      = outK (hid2 (fun j => silu (v97 (ix2 p j) + v98 (ix2 (0 : Fin 1) j))) (fun j k => v105 (ix2 j k)) (fun k => v108 (ix2 (0 : Fin 1) k)))
          (fun k c => v115 (ix2 k c)) (fun c => v119 (ix2 (0 : Fin 1) c)) q := by
  have e : k0_pay1 (F := Ideal) v97 v98 v105 v108 v115 v119
      = addf (mmul (lay (mmul (lay v97 (shapeCast S1x32 v98 shapeCasts_S1x32_S1x32)) v105) (shapeCast S1x32 v108 shapeCasts_S1x32_S1x32))
            (shapeCast S32x32 v115 shapeCasts_S32x32_S32x32))
          (broadcastTo S4000x32 (shapeCast S1x32 v119 shapeCasts_S1x32_S1x32) broadcasts_S1x32_S4000x32) := rfl
  rw [e]
  simp only [shapeCast_self]
  show mmul (lay (mmul (lay v97 v98) v105) v108) v115 (ix2 p q) + broadcastTo S4000x32 v119 broadcasts_S1x32_S4000x32 (ix2 p q) = _
  rw [bc_row32, mmul_apply]
  show _ = (∑ k : Fin 32, silu ((∑ j : Fin 32, silu (v97 (ix2 p j) + v98 (ix2 (0 : Fin 1) j)) * v105 (ix2 j k)) + v108 (ix2 (0 : Fin 1) k)) * v115 (ix2 k q))
      + v119 (ix2 (0 : Fin 1) q)
  refine congrArg (· + v119 (ix2 (0 : Fin 1) q)) (Finset.sum_congr rfl fun k _ => ?_)
  rw [lay_apply, mmul_apply]
  refine congrArg (fun t => silu (t + v108 (ix2 (0 : Fin 1) k)) * v115 (ix2 k q)) (Finset.sum_congr rfl fun j _ => ?_)
  rw [lay_apply]

/-! ## The output block -/

/-- What the body leaves in its output block, at row `p` and column `q`: the three-layer perceptron of that row's
    data, in the split and folded arrangement. -/
theorem out_apply (x0 : Vec Ideal S4000x3 .f32) (x1 : Vec Ideal S4000x32 .bf16) (x2 : Vec Ideal S9x32 .f32) (x3 : Vec Ideal S1x32 .f32) (x4 : Vec Ideal S32x32 .f32) (x5 : Vec Ideal S1x32 .f32) (x6 : Vec Ideal S32x32 .f32) (x7 : Vec Ideal S1x32 .f32) (p : Fin 4000) (q : Fin 32) :
    out0_8 (F := Ideal) x0 x1 x2 x3 x4 x5 x6 x7 (ix2 p q)
      = outK (hid2 (hid1K (fun a => x0 (ix2 p a)) (fun j => x1 (ix2 p j)) (fun s j => x2 (ix2 s j)) (fun j => x3 (ix2 (0 : Fin 1) j)))
            (fun j k => x4 (ix2 j k)) (fun k => x5 (ix2 (0 : Fin 1) k)))
          (fun k c => x6 (ix2 k c)) (fun c => x7 (ix2 (0 : Fin 1) c)) q := by
  unfold out0_8
  rw [View.canon_unit_zero hz2]
  simp only [View.ld_unit_zero (S := S4000x3) hz2, View.ld_unit_zero (S := S4000x32) hz2, View.ld_unit_zero (S := S9x32) hz2,
    View.ld_unit_zero (S := S1x32) hz2, View.ld_unit_zero (S := S32x32) hz2]
  rw [pay1_apply]
  have h1 : (fun j => silu (k0_pay13 (F := Ideal) (k0_pay2 x1) (k0_pay4 x0) (k0_pay6 x0) (k0_pay7 x0) (k0_pay8 x0) (k0_pay9 x0) (k0_pay10 x2)
          (k0_pay11 x2) (k0_pay12 x0 x2) (ix2 p j) + x3 (ix2 (0 : Fin 1) j)))
      = hid1K (fun a => x0 (ix2 p a)) (fun j => x1 (ix2 p j)) (fun s j => x2 (ix2 s j)) (fun j => x3 (ix2 (0 : Fin 1) j)) :=
    funext fun j => by rw [pre1_apply]; rfl
  rw [h1]

end Cert.KernelIdeal.Block

end
-- ==== Proof.LibRowGather.lean ====
/-
  A ROW GATHER READ AT AN INDEX. `x[idx]` of a matrix `x : [N, C]` at a column of integer start indices
  `idx : [E, 1]` is a `stablehlo.gather` with offset_dims `[1]`, collapsed_slice_dims `[0]`, no batching axes,
  start_index_map `[0]`, index_vector_dim `1` and slice_sizes `[1, C]`, with result `[E, C]`. Result element `(e, j)`
  is the operand at row `r(e)` and column `j`, where `r(e)` is the start index `idx[e, 0]` read as a signed integer
  and clamped into `[0, N − 1]` (the slice on the row axis has size one, so the clamp `[0, N − slice size]` of the
  gather is `[0, N − 1]`; the column axis is not named by the start index map, its slice starts at `0` and is
  the whole row). The row `r(e)` is the function `clampRow` of the start-index word and of `N` alone: it does
  not depend on the row width `C`, so two row gathers of operands `[N, C]` and `[N, C']` at one index column
  read the same row.
-/
import Idealize.ShloMosaic.Lib.ValueIdx

namespace Idealize.ShloMosaic.RowGather

open Idealize.ShloMosaic Idealize.ShloMosaic.ValueIdx

/-- The dimension numbers of a row gather, for an operand `[N, C]`, start indices `[E, 1]` and result `[E, C]`:
    the result's axis 1 is the offset axis (it runs along the gathered row), the operand's axis 0 is collapsed (one
    row is taken) and is the axis the start index names, the start indices' axis 1 holds the one-component index
    vector, and the slice is one row, `[1, C]`. Their conditions `wf` are decided on a program's literal shapes. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start-index word selects in an operand of `N` rows: the word read as a signed integer, a negative
    one taken to `0` and one above `N − 1` taken to `N − 1`. It depends on the word and on `N` only. -/
def clampRow (N : Nat) (hN : 0 < N) {w : Nat} (b : BitVec w) : Fin N := ⟨min b.toInt.toNat (N - 1), by omega⟩

/-- The value of `clampRow`: the signed reading of the word, clamped into `[0, N − 1]`. -/
theorem clampRow_val (N : Nat) (hN : 0 < N) {w : Nat} (b : BitVec w) :
    (clampRow N hN b).val = min b.toInt.toNat (N - 1) := rfl

/-- A start index that reads as a natural number below `N` selects that very row. -/
theorem clampRow_of_lt (N : Nat) (hN : 0 < N) {w : Nat} (b : BitVec w) (h0 : 0 ≤ b.toInt) (h : b.toInt.toNat < N) :
    (clampRow N hN b).val = b.toInt.toNat := by
  rw [clampRow_val]; omega

section Row
variable {α : Type}

/-- THE ROW GATHER READ AT `(e, j)`: the operand at row `clampRow` of the start index `idx[e, 0]` (read signed and
    clamped into `[0, N − 1]`) and column `j`. -/
theorem gather_row_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx) :
    Host.gather (rowDims N C E wf) x idx y
      = x (ix2 (clampRow N hN (idx (ix2 ⟨(y 0).val, idx2_lt0 y⟩ ⟨0, Nat.one_pos⟩))) ⟨(y 1).val, idx2_lt1 y⟩) := by
  unfold Host.gather
  congr 1
  funext a
  refine Fin.ext ?_
  match a with
  | ⟨0, _⟩ =>
    -- the row axis: collapsed, named by the start index map; no batching and no offset coordinate
    show (rowDims N C E wf).start y idx 0 + (rowDims N C E wf).batchCoord y 0 + (rowDims N C E wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx y ⟨List.idxOf (0 : Fin 2) (rowDims N C E wf).startIndexMap,
        List.idxOf_lt_length_iff.2 (List.mem_singleton.mpr rfl)⟩ = ix2 ⟨(y 0).val, idx2_lt0 y⟩ ⟨0, Nat.one_pos⟩ := by
      funext b; refine Fin.ext ?_
      match b with
      | ⟨0, _⟩ => rfl
      | ⟨1, _⟩ => rfl
    rw [hsi]
    rfl
  | ⟨1, _⟩ =>
    -- the column axis: not named by the start index map (start 0), not batching, the one offset axis
    show (rowDims N C E wf).start y idx 1 + (rowDims N C E wf).batchCoord y 1 + (rowDims N C E wf).offCoord y 1 = (y 1).val
    rw [GatherDims.batchCoord_eq_zero _ _ _ List.not_mem_nil]
    have hstart : (rowDims N C E wf).start y idx 1 = 0 := by
      unfold GatherDims.start
      rw [dif_neg (show (1 : Fin 2) ∉ (rowDims N C E wf).startIndexMap from
        fun h => absurd (congrArg Fin.val (List.mem_singleton.mp h)) Nat.one_ne_zero)]
    have hmem : (1 : Fin 2) ∈ (rowDims N C E wf).sKept :=
      (GatherDims.mem_sKept _ _).mpr
        ⟨fun h => absurd (congrArg Fin.val (List.mem_singleton.mp h)) Nat.one_ne_zero, List.not_mem_nil⟩
    rw [hstart]
    unfold GatherDims.offCoord
    rw [dif_pos hmem]
    simp only [Nat.zero_add, Nat.add_zero]
    rfl

/-- The same in coordinates: result element `(e, j)` of the row gather is the operand at row `clampRow` of
    `idx[e, 0]` and column `j`. -/
theorem gather_row_ix2 {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowDims N C E wf) x idx (ix2 e j)
      = x (ix2 (clampRow N hN (idx (ix2 e ⟨0, Nat.one_pos⟩))) j) :=
  gather_row_apply hN wf x idx (ix2 e j)

/-- The same for ANY dimension numbers whose fields are those of a row gather (a program carries its own value of the
    structure): the gather reads the operand at row `clampRow` of `idx[e, 0]` and column `j`. -/
theorem gather_row_apply_of_fields {N C E w : Nat} (hN : 0 < N)
    (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (y : (⟨2, ![E, C]⟩ : Shape).Idx) :
    Host.gather d x idx y
      = x (ix2 (clampRow N hN (idx (ix2 ⟨(y 0).val, idx2_lt0 y⟩ ⟨0, Nat.one_pos⟩))) ⟨(y 1).val, idx2_lt1 y⟩) := by
  obtain ⟨od, cd, ob, sb, sm, iv, ss, wf⟩ := d
  simp only at h1 h2 h3 h4 h5 h6 h7
  subst h1 h2 h3 h4 h5 h6 h7
  exact gather_row_apply hN wf x idx y

/-- … and in coordinates. -/
theorem gather_row_ix2_of_fields {N C E w : Nat} (hN : 0 < N)
    (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (j : Fin C) :
    Host.gather d x idx (ix2 e j) = x (ix2 (clampRow N hN (idx (ix2 e ⟨0, Nat.one_pos⟩))) j) :=
  gather_row_apply_of_fields hN d h1 h2 h3 h4 h5 h6 h7 x idx (ix2 e j)

end Row

end Idealize.ShloMosaic.RowGather
-- ==== Proof.Edges.lean ====
/-
  The message of every edge as a function of the nine argument arrays, in the two arrangements.

  Edge `e` joins the node `node x8 0 e` (its target: the row the message is later added to) and the node
  `node x8 1 e` (its source).  A node index is read from the index array as a signed word, a negative one counted from
  the end of the table, and clamped into the table, which is what a gather of rows does with a start index.
  The edge's data are the difference of the two nodes' positions and the source node's feature row; its message is
  the perceptron of Spec.lean applied to them.
-/
import proofs.«427460_j56573309223683_3_alg».proof.Proof.Spec
import proofs.«427460_j56573309223683_3_alg».proof.Proof.LibRowGather
import Idealize.ShloMosaic.Lib.ValueIdx

noncomputable section

namespace Cert.Edges

open Idealize.ShloMosaic Idealize.ShloMosaic.ValueIdx Cert.EdgeMsg

/-- A node index as written, a negative one counted from the end of the 50000 nodes. -/
def wrap (w : BitVec 32) : BitVec 32 := Scalar.select (IntOp.cmpi .slt w 0#32) (IntOp.addi w 50000#32) w

/-- The column of start indices of end `which` of every edge (0: target, 1: source). -/
def ends (x8 : IVec ⟨2, ![2, 800000]⟩ 32) (which : Fin 2) : IVec ⟨2, ![800000, 1]⟩ 32 :=
  fun y => wrap (x8 (ix2 which ⟨(y 0).val, idx2_lt0 y⟩))

/-- The node row that end `which` of edge `e` reads. -/
def node (x8 : IVec ⟨2, ![2, 800000]⟩ 32) (which : Fin 2) (e : Fin 800000) : Fin 50000 :=
  RowGather.clampRow 50000 (by decide) (ends x8 which (ix2 e ⟨0, Nat.one_pos⟩))

/-- The edge's relative position: target node's position minus source node's. -/
def rel (x1 : (⟨2, ![50000, 3]⟩ : Shape).Idx → EReal) (x8 : IVec ⟨2, ![2, 800000]⟩ 32) (e : Fin 800000) : Fin 3 → EReal :=
  fun a => x1 (ix2 (node x8 0 e) a) - x1 (ix2 (node x8 1 e) a)

/-- The source node's feature row. -/
def feat (x0 : (⟨2, ![50000, 64]⟩ : Shape).Idx → EReal) (x8 : IVec ⟨2, ![2, 800000]⟩ 32) (e : Fin 800000) : Fin 64 → EReal :=
  fun k => x0 (ix2 (node x8 1 e) k)

/-- Edge `e`'s message, member `c`, whole arrangement. -/
def msgR (x0 : (⟨2, ![50000, 64]⟩ : Shape).Idx → EReal) (x1 : (⟨2, ![50000, 3]⟩ : Shape).Idx → EReal)
    (x2 : (⟨2, ![73, 32]⟩ : Shape).Idx → EReal) (x3 : (⟨1, ![32]⟩ : Shape).Idx → EReal)
    (x4 : (⟨2, ![32, 32]⟩ : Shape).Idx → EReal) (x5 : (⟨1, ![32]⟩ : Shape).Idx → EReal)
    (x6 : (⟨2, ![32, 288]⟩ : Shape).Idx → EReal) (x7 : (⟨1, ![288]⟩ : Shape).Idx → EReal)
    (x8 : IVec ⟨2, ![2, 800000]⟩ 32) (e : Fin 800000) (c : Fin 32) : EReal :=
  outR (hid2 (hid1R (rel x1 x8 e) (feat x0 x8 e) (fun t j => x2 (ix2 t j)) (fun j => x3 (ix1 j)))
      (fun j k => x4 (ix2 j k)) (fun k => x5 (ix1 k)))
    (fun k n => x6 (ix2 k n)) (fun n => x7 (ix1 n)) c

/-- Edge `e`'s message, member `c`, split and folded arrangement. -/
def msgK (x0 : (⟨2, ![50000, 64]⟩ : Shape).Idx → EReal) (x1 : (⟨2, ![50000, 3]⟩ : Shape).Idx → EReal)
    (x2 : (⟨2, ![73, 32]⟩ : Shape).Idx → EReal) (x3 : (⟨1, ![32]⟩ : Shape).Idx → EReal)
    (x4 : (⟨2, ![32, 32]⟩ : Shape).Idx → EReal) (x5 : (⟨1, ![32]⟩ : Shape).Idx → EReal)
    (x6 : (⟨2, ![32, 288]⟩ : Shape).Idx → EReal) (x7 : (⟨1, ![288]⟩ : Shape).Idx → EReal)
    (x8 : IVec ⟨2, ![2, 800000]⟩ 32) (e : Fin 800000) (c : Fin 32) : EReal :=
  outK (hid2 (hid1K (rel x1 x8 e) (fun j => ∑ k : Fin 64, feat x0 x8 e k * x2 (ix2 (Fin.natAdd 9 k) j))
        (fun s j => x2 (ix2 (Fin.castAdd 64 s) j)) (fun j => x3 (ix1 j)))
      (fun j k => x4 (ix2 j k)) (fun k => x5 (ix1 k)))
    (fun k c => 0 + ∑ s : Fin 9, x6 (ix2 k (col s c))) (fun c => 0 + ∑ s : Fin 9, x7 (ix1 (col s c))) c

/-- On finite arguments the two arrangements give one message. -/
theorem msgK_eq_msgR (x0 : (⟨2, ![50000, 64]⟩ : Shape).Idx → EReal) (x1 : (⟨2, ![50000, 3]⟩ : Shape).Idx → EReal)
    (x2 : (⟨2, ![73, 32]⟩ : Shape).Idx → EReal) (x3 : (⟨1, ![32]⟩ : Shape).Idx → EReal)
    (x4 : (⟨2, ![32, 32]⟩ : Shape).Idx → EReal) (x5 : (⟨1, ![32]⟩ : Shape).Idx → EReal)
    (x6 : (⟨2, ![32, 288]⟩ : Shape).Idx → EReal) (x7 : (⟨1, ![288]⟩ : Shape).Idx → EReal)
    (x8 : IVec ⟨2, ![2, 800000]⟩ 32)
    (h0 : ∀ i, IsR (x0 i)) (h1 : ∀ i, IsR (x1 i)) (h2 : ∀ i, IsR (x2 i)) (h3 : ∀ i, IsR (x3 i))
    (h4 : ∀ i, IsR (x4 i)) (h5 : ∀ i, IsR (x5 i)) (h6 : ∀ i, IsR (x6 i))
    (e : Fin 800000) (c : Fin 32) :
    msgK x0 x1 x2 x3 x4 x5 x6 x7 x8 e c = msgR x0 x1 x2 x3 x4 x5 x6 x7 x8 e c := by
  have hr : ∀ a, IsR (rel x1 x8 e a) := by
    intro a
    obtain ⟨p, hp⟩ := h1 (ix2 (node x8 0 e) a)
    obtain ⟨q, hq⟩ := h1 (ix2 (node x8 1 e) a)
    exact ⟨p - q, by unfold rel; rw [hp, hq]; exact (EReal.coe_sub p q).symm⟩
  have hfun : (hid1K (rel x1 x8 e) (fun j => ∑ k : Fin 64, feat x0 x8 e k * x2 (ix2 (Fin.natAdd 9 k) j))
        (fun s j => x2 (ix2 (Fin.castAdd 64 s) j)) (fun j => x3 (ix1 j)))
      = hid1R (rel x1 x8 e) (feat x0 x8 e) (fun t j => x2 (ix2 t j)) (fun j => x3 (ix1 j)) :=
    funext fun j => hid1K_eq_hid1R (rel x1 x8 e) (feat x0 x8 e) (fun t j => x2 (ix2 t j)) (fun j => x3 (ix1 j)) j
  unfold msgK msgR
  rw [hfun]
  exact outK_eq_outR _ (fun k n => x6 (ix2 k n)) (fun n => x7 (ix1 n))
    (fun k => isR_hid2_hid1R (rel x1 x8 e) (feat x0 x8 e) (fun t j => x2 (ix2 t j)) (fun j => x3 (ix1 j))
      (fun j k => x4 (ix2 j k)) (fun k => x5 (ix1 k)) hr (fun k => h0 _) (fun t j => h2 _) (fun j => h3 _)
      (fun j k => h4 _) (fun k => h5 _) k)
    (fun k n => h6 _) c

end Cert.Edges

end
-- ==== Proof.KernelHostE.lean ====
/-
  The two gathered arrays the kernel's windows stage, read at an index, in terms of the argument arrays.

  Before its one region the program computes, from the index array x8 : [2, 800000], three columns of start
  indices: row 0 (each edge's target node) once and row 1 (its source node) twice. A word of a row is counted
  from the end of the 50000 nodes when it is negative, and the row is stood up as a column [800000, 1]. With these
  columns it gathers rows of the positions x1 at the target and at the source, whose difference is the edge's
  relative position, and rows of the product of the features x0 with the lower 64 rows of the first weight matrix x2
  at the source. A gather of rows reads the row its start index names, clamped into the table; row n of the product
  is, column by column, the contraction of feature row n with that column of the 64 rows; the change of format
  between the product and the gather is the identity on extended reals. Hence the first array at (e, a) is the
  relative position of edge e, and the second at (e, j) is the contraction of the source node's feature row with
  column j of the lower 64 rows of the first weight matrix.
-/
import proofs.«427460_j56573309223683_3_alg».proof.Proof.Gen.KernelIdeal.Frame
import proofs.«427460_j56573309223683_3_alg».proof.Proof.Edges
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.HostE

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ)

/-! ## The argument arrays as launched -/

/-- The node features. -/
abbrev A0 (c : Dev nD) : S50000x64.Idx → EReal := m ((c : Thread nD τ).loc main_arg0)
/-- The node positions. -/
abbrev A1 (c : Dev nD) : S50000x3.Idx → EReal := m ((c : Thread nD τ).loc main_arg1)
/-- The first weight matrix. -/
abbrev A2 (c : Dev nD) : S73x32.Idx → EReal := m ((c : Thread nD τ).loc main_arg2)
/-- The first bias. -/
abbrev A3 (c : Dev nD) : S32.Idx → EReal := m ((c : Thread nD τ).loc main_arg3)
/-- The second weight matrix. -/
abbrev A4 (c : Dev nD) : S32x32.Idx → EReal := m ((c : Thread nD τ).loc main_arg4)
/-- The second bias. -/
abbrev A5 (c : Dev nD) : S32.Idx → EReal := m ((c : Thread nD τ).loc main_arg5)
/-- The last weight matrix. -/
abbrev A6 (c : Dev nD) : S32x288.Idx → EReal := m ((c : Thread nD τ).loc main_arg6)
/-- The last bias. -/
abbrev A7 (c : Dev nD) : S288.Idx → EReal := m ((c : Thread nD τ).loc main_arg7)
/-- The edges' two ends, as node indices. -/
abbrev A8 (c : Dev nD) : IVec S2x800000 32 := m ((c : Thread nD τ).loc main_arg8)

/-! ## A column of start indices -/

/-- Row `o` of the index array, cut out and flattened: the node-index words of one end of every edge. -/
abbrev rowTerm (x8 : IVec S2x800000 32) (o : Nat) (h : S2x800000.Slices ![o, 0] S1x800000) : IVec S800000 32 :=
  shapeCast S800000 (extractStridedSlice (s := S2x800000) S1x800000 ![o, 0] x8 h) shapeCasts_S1x800000_S800000

/-- The same with each negative word counted from the end of the 50000 nodes, stood up as a column. -/
abbrev colTerm (x8 : IVec S2x800000 32) (o : Nat) (h : S2x800000.Slices ![o, 0] S1x800000) : IVec S800000x1 32 :=
  broadcastInDim S800000x1 ![0] bcast_S800000_S800000x1_0
    (select (cmpi .slt (rowTerm x8 o h) (broadcastInDim S800000 ![] bcast_S_S800000 (constantI S_ 32 0#32)))
      (addi (rowTerm x8 o h) (broadcastInDim S800000 ![] bcast_S_S800000 (constantI S_ 32 50000#32)))
      (rowTerm x8 o h))

/-- A flattened row read at `i` is the index array at `(which, i)`. -/
theorem rowTerm_apply (x8 : IVec S2x800000 32) (which : Fin 2) (o : Nat) (ho : which.val = o)
    (h : S2x800000.Slices ![o, 0] S1x800000) (i : Fin 800000) :
    rowTerm x8 o h (ix1 i) = x8 (ix2 which i) :=
  (shapeCast_1a_a_apply _ shapeCasts_S1x800000_S800000 i).trans
    (slice2_axis0_apply o x8 h (0 : Fin 1) i which (ho.trans (Nat.add_zero o).symm))

/-- A scalar word broadcast along the edges reads that word everywhere. -/
theorem splat_apply (b : BitVec 32) (i : S800000.Idx) :
    broadcastInDim S800000 ![] bcast_S_S800000 (constantI S_ 32 b) i = b :=
  broadcastInDim_apply _ bcast_S_S800000 (constantI S_ 32 b) i (fun a => a.elim0) (fun a => a.elim0)

/-- The column the program builds from row `which` of the index array is the column of start indices of that end of
    every edge: the comparison with zero, the sum with 50000 and the choice between them are taken word by word. -/
theorem colTerm_eq (x8 : IVec S2x800000 32) (which : Fin 2) (o : Nat) (ho : which.val = o)
    (h : S2x800000.Slices ![o, 0] S1x800000) :
    colTerm x8 o h = Cert.Edges.ends x8 which := by
  funext y
  refine (broadcastInDim_apply _ bcast_S800000_S800000x1_0 _ y (ix1 ⟨(y 0).val, idx2_lt0 y⟩) (fun a => match a with
    | ⟨0, _⟩ => by show (y 0).val = if (800000 : Nat) = 1 then 0 else (y 0).val; rw [if_neg (by decide)])).trans ?_
  show Scalar.select
      (IntOp.cmpi .slt (rowTerm x8 o h (ix1 ⟨(y 0).val, idx2_lt0 y⟩))
        (broadcastInDim S800000 ![] bcast_S_S800000 (constantI S_ 32 0#32) (ix1 ⟨(y 0).val, idx2_lt0 y⟩)))
      (IntOp.addi (rowTerm x8 o h (ix1 ⟨(y 0).val, idx2_lt0 y⟩))
        (broadcastInDim S800000 ![] bcast_S_S800000 (constantI S_ 32 50000#32) (ix1 ⟨(y 0).val, idx2_lt0 y⟩)))
      (rowTerm x8 o h (ix1 ⟨(y 0).val, idx2_lt0 y⟩)) = Cert.Edges.ends x8 which y
  rw [rowTerm_apply x8 which o ho h, splat_apply, splat_apply]
  rfl

/-! ## The three columns the program builds -/

/-- The column of target nodes. -/
theorem v9_eq (c : Dev nD) : (V m c main_v9 : IVec S800000x1 32) = Cert.Edges.ends (A8 m c) 0 := by
  refine Eq.trans ?_ (colTerm_eq (A8 m c) 0 0 rfl slices_S2x800000_S1x800000_0_0)
  show StableHlo.after (hostOps0 (F := Ideal)) (fun b => m (c, b)) (Proc.devRef .tc main_v9) = _
  after_results
  rfl

/-- The column of source nodes, as built for the positions. -/
theorem v16_eq (c : Dev nD) : (V m c main_v16 : IVec S800000x1 32) = Cert.Edges.ends (A8 m c) 1 := by
  refine Eq.trans ?_ (colTerm_eq (A8 m c) 1 1 rfl slices_S2x800000_S1x800000_1_0)
  show StableHlo.after (hostOps0 (F := Ideal)) (fun b => m (c, b)) (Proc.devRef .tc main_v16) = _
  after_results
  rfl

set_option maxHeartbeats 1000000 in
/-- The column of source nodes, as built again for the features. -/
theorem v28_eq (c : Dev nD) : (V m c main_v28 : IVec S800000x1 32) = Cert.Edges.ends (A8 m c) 1 := by
  refine Eq.trans ?_ (colTerm_eq (A8 m c) 1 1 rfl slices_S2x800000_S1x800000_1_0)
  show StableHlo.after (hostOps0 (F := Ideal)) (fun b => m (c, b)) (Proc.devRef .tc main_v28) = _
  after_results_simp
  rfl

/-! ## The relative positions -/

set_option maxHeartbeats 1000000 in
/-- The array of relative positions is the difference of two row gathers of the positions. -/
theorem v18_eq (c : Dev nD) :
    (V m c main_v18 : S800000x3.Idx → EReal)
      = subf (F := Ideal) (s := S800000x3) (φ := .f32)
          (Host.gather gather_S50000x3_S800000x1_S800000x3_1_0_n_n_0_1_13 (A1 m c)
            (colTerm (A8 m c) 0 slices_S2x800000_S1x800000_0_0))
          (Host.gather gather_S50000x3_S800000x1_S800000x3_1_0_n_n_0_1_13 (A1 m c)
            (colTerm (A8 m c) 1 slices_S2x800000_S1x800000_1_0)) := by
  show StableHlo.after (hostOps0 (F := Ideal)) (fun b => m (c, b)) (Proc.devRef .tc main_v18) = _
  after_results_simp
  rfl

/-- The first gathered array at `(e, a)`: coordinate `a` of edge `e`'s relative position. -/
theorem v18_apply (c : Dev nD) (e : Fin 800000) (a : Fin 3) :
    (V m c main_v18 : S800000x3.Idx → EReal) (ix2 e a) = Cert.Edges.rel (A1 m c) (A8 m c) e a := by
  rw [v18_eq, colTerm_eq (A8 m c) 0 0 rfl, colTerm_eq (A8 m c) 1 1 rfl]
  show Host.gather gather_S50000x3_S800000x1_S800000x3_1_0_n_n_0_1_13 (A1 m c) (Cert.Edges.ends (A8 m c) 0) (ix2 e a)
      - Host.gather gather_S50000x3_S800000x1_S800000x3_1_0_n_n_0_1_13 (A1 m c) (Cert.Edges.ends (A8 m c) 1) (ix2 e a) = _
  rw [RowGather.gather_row_ix2_of_fields (by decide) gather_S50000x3_S800000x1_S800000x3_1_0_n_n_0_1_13
      rfl rfl rfl rfl rfl rfl rfl (A1 m c) (Cert.Edges.ends (A8 m c) 0) e a,
    RowGather.gather_row_ix2_of_fields (by decide) gather_S50000x3_S800000x1_S800000x3_1_0_n_n_0_1_13
      rfl rfl rfl rfl rfl rfl rfl (A1 m c) (Cert.Edges.ends (A8 m c) 1) e a]
  rfl

/-! ## The features against the lower 64 rows of the first weight matrix -/

/-- Rows 9 to 72 of the first weight matrix. -/
abbrev lowTerm (x2 : S73x32.Idx → EReal) : S64x32.Idx → EReal :=
  extractStridedSlice (s := S73x32) S64x32 ![9, 0] x2 slices_S73x32_S64x32_9_0

/-- Row `k` of them is row `9 + k` of the matrix. -/
theorem lowTerm_apply (x2 : S73x32.Idx → EReal) (k : Fin 64) (j : Fin 32) :
    lowTerm x2 (ix2 k j) = x2 (ix2 (Fin.natAdd 9 k) j) :=
  slice2_axis0_apply 9 x2 slices_S73x32_S64x32_9_0 k j (Fin.natAdd 9 k) rfl

/-- The product of the features with those rows, in the narrower format. -/
abbrev prodTerm (x0 : S50000x64.Idx → EReal) (x2 : S73x32.Idx → EReal) : S50000x32.Idx → EReal :=
  truncf (F := Ideal) (s := S50000x32) (φ := .f32) .bf16
    (Host.dotGeneral (F := Ideal) (φ₁ := .f32) (φ₂ := .f32) dot_S50000x64_S64x32_S50000x32_1_0_0_1_n_n none x0 (lowTerm x2))
    bitsLt_bf16_f32

theorem lhs_prod_0 (i : S50000x32.Idx) (q : dot_S50000x64_S64x32_S50000x32_1_0_0_1_n_n.contr.Idx) :
    (dot_S50000x64_S64x32_S50000x32_1_0_0_1_n_n.lhsIdx i q 0).val = (i 0).val := by
  unfold DotDims.lhsIdx
  rw [dif_neg (show ¬(0 : Fin S50000x64.rank) ∈ dot_S50000x64_S64x32_S50000x32_1_0_0_1_n_n.lhsBatch by decide),
    dif_pos (show (0 : Fin S50000x64.rank) ∈ dot_S50000x64_S64x32_S50000x32_1_0_0_1_n_n.lhsNonContracting by decide)]
  rfl
theorem lhs_prod_1 (i : S50000x32.Idx) (q : dot_S50000x64_S64x32_S50000x32_1_0_0_1_n_n.contr.Idx) :
    (dot_S50000x64_S64x32_S50000x32_1_0_0_1_n_n.lhsIdx i q 1).val = (q ⟨0, by decide⟩).val :=
  dot_S50000x64_S64x32_S50000x32_1_0_0_1_n_n.lhsIdx_val_of_single rfl i q
theorem rhs_prod_0 (i : S50000x32.Idx) (q : dot_S50000x64_S64x32_S50000x32_1_0_0_1_n_n.contr.Idx) :
    (dot_S50000x64_S64x32_S50000x32_1_0_0_1_n_n.rhsIdx i q 0).val = (q ⟨0, by decide⟩).val :=
  dot_S50000x64_S64x32_S50000x32_1_0_0_1_n_n.rhsIdx_val_of_single rfl i q
theorem rhs_prod_1 (i : S50000x32.Idx) (q : dot_S50000x64_S64x32_S50000x32_1_0_0_1_n_n.contr.Idx) :
    (dot_S50000x64_S64x32_S50000x32_1_0_0_1_n_n.rhsIdx i q 1).val = (i 1).val := by
  unfold DotDims.rhsIdx
  rw [dif_neg (show ¬(1 : Fin S64x32.rank) ∈ dot_S50000x64_S64x32_S50000x32_1_0_0_1_n_n.rhsBatch by decide),
    dif_pos (show (1 : Fin S64x32.rank) ∈ dot_S50000x64_S64x32_S50000x32_1_0_0_1_n_n.rhsNonContracting by decide)]
  rfl

/-- The product at `(n, j)`: feature row `n` contracted with column `j` of rows 9 to 72 of the first weight matrix. The
    change of format is the identity on extended reals. -/
theorem prodTerm_apply (x0 : S50000x64.Idx → EReal) (x2 : S73x32.Idx → EReal) (n : Fin 50000) (j : Fin 32) :
    prodTerm x0 x2 (ix2 n j) = ∑ k : Fin 64, x0 (ix2 n k) * x2 (ix2 (Fin.natAdd 9 k) j) := by
  show FloatOps.dotGeneral (F := Ideal) dot_S50000x64_S64x32_S50000x32_1_0_0_1_n_n none .single (φ₁ := .f32) (φ₂ := .f32) x0 (lowTerm x2) (ix2 n j) = _
  rw [Ideal.dotGeneral_apply,
    ← Equiv.sum_comp (ValueIdx.contrEquiv1 dot_S50000x64_S64x32_S50000x32_1_0_0_1_n_n 64 rfl rfl).symm]
  refine Finset.sum_congr rfl fun k _ => ?_
  have hk := ValueIdx.contrEquiv1_symm_val dot_S50000x64_S64x32_S50000x32_1_0_0_1_n_n 64 rfl rfl k
  have el : dot_S50000x64_S64x32_S50000x32_1_0_0_1_n_n.lhsIdx (ix2 n j)
      ((ValueIdx.contrEquiv1 dot_S50000x64_S64x32_S50000x32_1_0_0_1_n_n 64 rfl rfl).symm k) = ix2 n k :=
    funext fun a => Fin.ext (by
      match a with
      | ⟨0, _⟩ => exact lhs_prod_0 _ _
      | ⟨1, _⟩ => exact (lhs_prod_1 _ _).trans hk)
  have er : dot_S50000x64_S64x32_S50000x32_1_0_0_1_n_n.rhsIdx (ix2 n j)
      ((ValueIdx.contrEquiv1 dot_S50000x64_S64x32_S50000x32_1_0_0_1_n_n 64 rfl rfl).symm k) = ix2 k j :=
    funext fun a => Fin.ext (by
      match a with
      | ⟨0, _⟩ => exact (rhs_prod_0 _ _).trans hk
      | ⟨1, _⟩ => exact rhs_prod_1 _ _)
  rw [el, er, lowTerm_apply]

set_option maxHeartbeats 1000000 in
/-- The second gathered array is a row gather of that product at the column of source nodes. -/
theorem v29_eq (c : Dev nD) :
    (V m c main_v29 : S800000x32.Idx → EReal)
      = Host.gather gather_S50000x32_S800000x1_S800000x32_1_0_n_n_0_1_132 (prodTerm (A0 m c) (A2 m c))
          (colTerm (A8 m c) 1 slices_S2x800000_S1x800000_1_0) := by
  show StableHlo.after (hostOps0 (F := Ideal)) (fun b => m (c, b)) (Proc.devRef .tc main_v29) = _
  after_results_simp
  rfl

/-- The second gathered array at `(e, j)`: the feature row of edge `e`'s source node contracted with column `j` of
    rows 9 to 72 of the first weight matrix. -/
theorem v29_apply (c : Dev nD) (e : Fin 800000) (j : Fin 32) :
    (V m c main_v29 : S800000x32.Idx → EReal) (ix2 e j)
      = ∑ k : Fin 64, Cert.Edges.feat (A0 m c) (A8 m c) e k * (A2 m c) (ix2 (Fin.natAdd 9 k) j) := by
  rw [v29_eq, colTerm_eq (A8 m c) 1 1 rfl,
    RowGather.gather_row_ix2_of_fields (by decide) gather_S50000x32_S800000x1_S800000x32_1_0_n_n_0_1_132
      rfl rfl rfl rfl rfl rfl rfl (prodTerm (A0 m c) (A2 m c)) (Cert.Edges.ends (A8 m c) 1) e j]
  exact prodTerm_apply (A0 m c) (A2 m c) (Cert.Edges.node (A8 m c) 1 e) j

end Cert.KernelIdeal.HostE

end
-- ==== Proof.KernelHostF.lean ====
/-
  The small window arrays of the kernel program, read at an index.

  Before its one region the kernel program's @main prepares, from the weight and bias arguments, five small arrays the
  region's windows stage whole: the upper nine rows of the first weight matrix, the three biases as single rows, and the
  last weight matrix and the last bias summed over the nine groups of 32 columns.  Each lemma here says what such an
  array holds at an index, in terms of the argument arrays as launched.

  A slice of rows from row 0 reads the same row of the source; a vector recast as a single row reads the vector; a
  [32, 288] matrix recast as [32, 9, 32] holds at (k, s, q) the element (k, 32 s + q), row-major, and its sum over the
  middle axis from the constant zero is 0 + the sum over s of those elements; the bias likewise through [9, 32].

  First the five operations are read at an index over an arbitrary operand; then each array the region finds is
  identified with its operations' term over the arguments, and the two are composed.
-/
import proofs.«427460_j56573309223683_3_alg».proof.Proof.Gen.KernelIdeal.Frame
import proofs.«427460_j56573309223683_3_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HostF

open Idealize.ShloMosaic Idealize.ShloMosaic.ValueIdx Idealize.ShloMosaic.TcCoe Idealize.SL.Sem Cert.KernelIdeal Cert.KernelIdeal.Gen

/-! ## The five operations read at an index, over any operand -/

/-- Rows 0 to 8 of a [73, 32] matrix: row s of the slice is row s of the matrix. -/
theorem rows9_apply (x : S73x32.Idx → EReal) (s : Fin 9) (j : Fin 32) :
    extractStridedSlice S9x32 ![0, 0] x slices_S73x32_S9x32_0_0 (ix2 s j) = x (ix2 (Fin.castAdd 64 s) j) :=
  slice2_axis0_apply 0 _ _ s j (Fin.castAdd 64 s) (Nat.zero_add _).symm

/-- A [32] vector recast as one row reads the vector. -/
theorem row_apply (x : S32.Idx → EReal) (j : Fin 32) :
    shapeCast S1x32 x shapeCasts_S32_S1x32 (ix2 (0 : Fin 1) j) = x (ix1 j) :=
  shapeCast_a_1a_apply _ _ 0 j

/-- A [32, 288] matrix recast as [32, 9, 32], row-major: element (k, s, q) is element (k, 32 s + q), since
    288 k + (32 s + q) = 32 (9 k + s) + q. -/
theorem cast_W3_apply (x : S32x288.Idx → EReal) (k : Fin 32) (s : Fin 9) (q : Fin 32) :
    shapeCast S32x9x32 x shapeCasts_S32x288_S32x9x32 (ix3 k s q) = x (ix2 k (Cert.EdgeMsg.col s q)) :=
  shapeCast_apply x shapeCasts_S32x288_S32x9x32 (ix3 k s q) (ix2 k (Cert.EdgeMsg.col s q)) (by
    rw [Shape.rowMajor_val_two, Shape.rowMajor_val_three]
    show k.val * 288 + (32 * s.val + q.val) = (k.val * 9 + s.val) * 32 + q.val
    omega)

/-- A [288] vector recast as [9, 32], row-major: element (s, q) is element 32 s + q. -/
theorem cast_b3_apply (x : S288.Idx → EReal) (s : Fin 9) (q : Fin 32) :
    shapeCast S9x32 x shapeCasts_S288_S9x32 (ix2 s q) = x (ix1 (Cert.EdgeMsg.col s q)) :=
  shapeCast_apply x shapeCasts_S288_S9x32 (ix2 s q) (ix1 (Cert.EdgeMsg.col s q)) (by
    rw [Shape.rowMajor_val_one, Shape.rowMajor_val_two]
    show 32 * s.val + q.val = s.val * 32 + q.val
    omega)

/-- The recast matrix summed over its middle axis from the constant zero: at (k, q), 0 + the sum over s of the matrix at
    (k, 32 s + q). -/
theorem sumW3_apply (x : S32x288.Idx → EReal) (k q : Fin 32) :
    Host.reduceAdd (shapeCast S32x9x32 x shapeCasts_S32x288_S32x9x32)
        (constant (F := Ideal) S_ .f32 0x00000000#32) reducesTo_S32x9x32_S32x32_d1 h_S_ (ix2 k q)
      = 0 + ∑ s : Fin 9, x (ix2 k (Cert.EdgeMsg.col s q)) := by
  have hR : S32x9x32.Reduces [1] S32x32 := by decide
  -- the host's sum starts from the constant's one element, which is the extended real zero
  show Ideal.hostReduceAdd reducesTo_S32x9x32_S32x32_d1
      (shapeCast S32x9x32 x shapeCasts_S32x288_S32x9x32) (Ideal.ofBits .f32 0x00000000#32) (ix2 k q) = _
  rw [Ideal.hostReduceAdd_single reducesTo_S32x9x32_S32x32_d1 hR, Ideal.ofBits_zero_f32]
  refine congrArg ((0 : EReal) + ·) (Finset.sum_congr rfl fun s _ => ?_)
  -- the index over (k, q) with s on the middle axis is (k, s, q)
  have hl : hR.lift (ix2 k q) s = ix3 k s q := funext fun a => Fin.ext (by
    match a with
    | ⟨0, _⟩ => rfl
    | ⟨1, _⟩ => rfl
    | ⟨2, _⟩ => rfl)
  rw [hl]
  exact cast_W3_apply x k s q

/-- The recast vector summed over its leading axis from the constant zero, as one row: at q, 0 + the sum over s of the
    vector at 32 s + q. -/
theorem sumb3_apply (x : S288.Idx → EReal) (q : Fin 32) :
    shapeCast S1x32
        (Host.reduceAdd (shapeCast S9x32 x shapeCasts_S288_S9x32)
          (constant (F := Ideal) S_ .f32 0x00000000#32) reducesTo_S9x32_S32_d0 h_S_ : S32.Idx → EReal)
        shapeCasts_S32_S1x32 (ix2 (0 : Fin 1) q)
      = 0 + ∑ s : Fin 9, x (ix1 (Cert.EdgeMsg.col s q)) := by
  have hR : S9x32.Reduces [0] S32 := by decide
  rw [shapeCast_a_1a_apply _ _ 0 q]
  show Ideal.hostReduceAdd reducesTo_S9x32_S32_d0
      (shapeCast S9x32 x shapeCasts_S288_S9x32) (Ideal.ofBits .f32 0x00000000#32) (ix1 q) = _
  rw [Ideal.hostReduceAdd_single reducesTo_S9x32_S32_d0 hR, Ideal.ofBits_zero_f32]
  refine congrArg ((0 : EReal) + ·) (Finset.sum_congr rfl fun s _ => ?_)
  -- the index over q with s on the leading axis is (s, q)
  have hl : hR.lift (ix1 q) s = ix2 s q := funext fun a => Fin.ext (by
    match a with
    | ⟨0, _⟩ => rfl
    | ⟨1, _⟩ => rfl)
  rw [hl]
  exact cast_b3_apply x s q

/-! ## The argument arrays as launched -/

variable (m : (ℓ : Loc nD τ sig) → Buf (Elt Ideal) ℓ)

/-- Node features, [50000, 64]. -/
abbrev A0 (c : Dev nD) : S50000x64.Idx → EReal := m ((c : Thread nD τ).loc main_arg0)
/-- Node positions, [50000, 3]. -/
abbrev A1 (c : Dev nD) : S50000x3.Idx → EReal := m ((c : Thread nD τ).loc main_arg1)
/-- First weight matrix, [73, 32]. -/
abbrev A2 (c : Dev nD) : S73x32.Idx → EReal := m ((c : Thread nD τ).loc main_arg2)
/-- First bias, [32]. -/
abbrev A3 (c : Dev nD) : S32.Idx → EReal := m ((c : Thread nD τ).loc main_arg3)
/-- Second weight matrix, [32, 32]. -/
abbrev A4 (c : Dev nD) : S32x32.Idx → EReal := m ((c : Thread nD τ).loc main_arg4)
/-- Second bias, [32]. -/
abbrev A5 (c : Dev nD) : S32.Idx → EReal := m ((c : Thread nD τ).loc main_arg5)
/-- Last weight matrix, [32, 288]. -/
abbrev A6 (c : Dev nD) : S32x288.Idx → EReal := m ((c : Thread nD τ).loc main_arg6)
/-- Last bias, [288]. -/
abbrev A7 (c : Dev nD) : S288.Idx → EReal := m ((c : Thread nD τ).loc main_arg7)
/-- Edge endpoints, [2, 800000] 32-bit words. -/
abbrev A8 (c : Dev nD) : IVec S2x800000 32 := m ((c : Thread nD τ).loc main_arg8)

/-! ## The arrays the region finds, as their operations' terms over the arguments -/

theorem v19_eq (c : Dev nD) :
    (V m c main_v19 : S9x32.Idx → EReal) = extractStridedSlice S9x32 ![0, 0] (A2 m c) slices_S73x32_S9x32_0_0 := by
  show StableHlo.after hostOps0 (fun b => m (c, b)) (Proc.devRef .tc main_v19) = _
  after_results

theorem v34_eq (c : Dev nD) :
    (V m c main_v34 : S1x32.Idx → EReal) = shapeCast S1x32 (A3 m c) shapeCasts_S32_S1x32 := by
  show StableHlo.after hostOps0 (fun b => m (c, b)) (Proc.devRef .tc main_v34) = _
  after_results; rfl

theorem v35_eq (c : Dev nD) :
    (V m c main_v35 : S1x32.Idx → EReal) = shapeCast S1x32 (A5 m c) shapeCasts_S32_S1x32 := by
  show StableHlo.after hostOps0 (fun b => m (c, b)) (Proc.devRef .tc main_v35) = _
  after_results; rfl

theorem v31_eq (c : Dev nD) :
    (V m c main_v31 : S32x32.Idx → EReal)
      = Host.reduceAdd (shapeCast S32x9x32 (A6 m c) shapeCasts_S32x288_S32x9x32)
          (constant (F := Ideal) S_ .f32 0x00000000#32) reducesTo_S32x9x32_S32x32_d1 h_S_ := by
  show StableHlo.after hostOps0 (fun b => m (c, b)) (Proc.devRef .tc main_v31) = _
  after_results; rfl

theorem v36_eq (c : Dev nD) :
    (V m c main_v36 : S1x32.Idx → EReal)
      = shapeCast S1x32
          (Host.reduceAdd (shapeCast S9x32 (A7 m c) shapeCasts_S288_S9x32)
            (constant (F := Ideal) S_ .f32 0x00000000#32) reducesTo_S9x32_S32_d0 h_S_ : S32.Idx → EReal)
          shapeCasts_S32_S1x32 := by
  show StableHlo.after hostOps0 (fun b => m (c, b)) (Proc.devRef .tc main_v36) = _
  after_results; rfl

/-! ## The arrays the region finds, at an index -/

/-- The upper nine rows of the first weight matrix. -/
theorem v19_apply (c : Dev nD) (s : Fin 9) (j : Fin 32) :
    (V m c main_v19 : S9x32.Idx → EReal) (ix2 s j) = (A2 m c) (ix2 (Fin.castAdd 64 s) j) := by
  rw [v19_eq m c]; exact rows9_apply (A2 m c) s j

/-- The first bias as one row. -/
theorem v34_apply (c : Dev nD) (j : Fin 32) :
    (V m c main_v34 : S1x32.Idx → EReal) (ix2 (0 : Fin 1) j) = (A3 m c) (ix1 j) := by
  rw [v34_eq m c]; exact row_apply (A3 m c) j

/-- The second bias as one row. -/
theorem v35_apply (c : Dev nD) (k : Fin 32) :
    (V m c main_v35 : S1x32.Idx → EReal) (ix2 (0 : Fin 1) k) = (A5 m c) (ix1 k) := by
  rw [v35_eq m c]; exact row_apply (A5 m c) k

/-- The last weight matrix summed over the nine groups, from zero. -/
theorem v31_apply (c : Dev nD) (k q : Fin 32) :
    (V m c main_v31 : S32x32.Idx → EReal) (ix2 k q) = 0 + ∑ s : Fin 9, (A6 m c) (ix2 k (Cert.EdgeMsg.col s q)) := by
  rw [v31_eq m c]; exact sumW3_apply (A6 m c) k q

/-- The last bias summed over the nine groups, from zero, as one row. -/
theorem v36_apply (c : Dev nD) (q : Fin 32) :
    (V m c main_v36 : S1x32.Idx → EReal) (ix2 (0 : Fin 1) q) = 0 + ∑ s : Fin 9, (A7 m c) (ix1 (Cert.EdgeMsg.col s q)) := by
  rw [v36_eq m c]; exact sumb3_apply (A7 m c) q

end Cert.KernelIdeal.HostF

end
-- ==== Proof.KernelArray.lean ====
/-
  The kernel's message array after the run.

  The grid has 200 points; point `t` stages rows 4000 t … 4000 t + 3999 of the relative positions and of the
  gathered contractions, and the whole of each weight and bias array, and writes back rows 4000 t … 4000 t + 3999
  of the message array.  Row `p` of what the body leaves is the perceptron of row `p` of its input blocks, so
  row `4000 t + p` of the message array is the perceptron of edge `4000 t + p`'s data: every row is written by
  exactly the point `e / 4000`, and the array is the message of every edge.
-/
import proofs.«427460_j56573309223683_3_alg».proof.Proof.Gen.KernelIdeal.Frame
import proofs.«427460_j56573309223683_3_alg».proof.Proof.KernelBlock
import proofs.«427460_j56573309223683_3_alg».proof.Proof.KernelHostE
import proofs.«427460_j56573309223683_3_alg».proof.Proof.KernelHostF
import proofs.«427460_j56573309223683_3_alg».proof.Proof.Edges
import Idealize.ShloMosaic.Lib.Pipeline.Value
import Idealize.ShloMosaic.Lib.ValueIdx

set_option maxRecDepth 16384

noncomputable section

namespace Cert.KernelIdeal.Arr

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.EdgeMsg

variable (m : (ℓ : Loc nD τ sig) → Buf (Elt Ideal) ℓ) (ρ : Dev nD → PrngReg)

/-- The nine argument arrays as launched. -/
abbrev A0 (c : Dev nD) : S50000x64.Idx → EReal := m ((c : Thread nD τ).loc main_arg0)
abbrev A1 (c : Dev nD) : S50000x3.Idx → EReal := m ((c : Thread nD τ).loc main_arg1)
abbrev A2 (c : Dev nD) : S73x32.Idx → EReal := m ((c : Thread nD τ).loc main_arg2)
abbrev A3 (c : Dev nD) : S32.Idx → EReal := m ((c : Thread nD τ).loc main_arg3)
abbrev A4 (c : Dev nD) : S32x32.Idx → EReal := m ((c : Thread nD τ).loc main_arg4)
abbrev A5 (c : Dev nD) : S32.Idx → EReal := m ((c : Thread nD τ).loc main_arg5)
abbrev A6 (c : Dev nD) : S32x288.Idx → EReal := m ((c : Thread nD τ).loc main_arg6)
abbrev A7 (c : Dev nD) : S288.Idx → EReal := m ((c : Thread nD τ).loc main_arg7)
abbrev A8 (c : Dev nD) : IVec S2x800000 32 := m ((c : Thread nD τ).loc main_arg8)

/-- The message of every edge, as an array: row `e`, member `q`. -/
def msgArr (c : Dev nD) : S800000x32.Idx → EReal := fun i =>
  Cert.Edges.msgK (A0 m c) (A1 m c) (A2 m c) (A3 m c) (A4 m c) (A5 m c) (A6 m c) (A7 m c) (A8 m c)
    ⟨(i 0).val, idx2_lt0 i⟩ ⟨(i 1).val, idx2_lt1 i⟩

/-- The printed index maps over the grid: the two edge-blocked inputs and the output move with the point along the
    rows and stay at column block 0; the weights and biases stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- The row of the arrays that row `p` of point `t`'s blocks is. -/
def erow (t : Fin cfg0.N) (p : Fin 4000) : Fin 800000 := ⟨t.val * 4000 + p.val, by have := t.isLt; have h : t.val < 200 := this; omega⟩

/-! ## Each input block, read where the point's rectangle says -/

theorem blk0 (c : Dev nD) (t : Fin cfg0.N) (p : Fin 4000) (a : Fin 3) :
    (iblk m c 0 t : S4000x3.Idx → EReal) (ix2 p a) = (V m c main_v18 : S800000x3.Idx → EReal) (ix2 (erow t p) a) := by
  obtain ⟨e00, e01, -⟩ := idx_facts t
  show (V m c main_v18 : S800000x3.Idx → EReal) (((cfg0.win 0).blk t).view.emb (ix2 p a)) = _
  refine congrArg (V m c main_v18 : S800000x3.Idx → EReal) (funext fun d => Fin.ext ?_)
  match d with
  | ⟨0, _⟩ => show win0_0.index t (0 : Fin 2) * 4000 + 1 * p.val = t.val * 4000 + p.val; rw [e00]; omega
  | ⟨1, _⟩ => show win0_0.index t (1 : Fin 2) * 3 + 1 * a.val = a.val; rw [e01]; omega

theorem blk1 (c : Dev nD) (t : Fin cfg0.N) (p : Fin 4000) (j : Fin 32) :
    (iblk m c 1 t : S4000x32.Idx → EReal) (ix2 p j) = (V m c main_v29 : S800000x32.Idx → EReal) (ix2 (erow t p) j) := by
  obtain ⟨-, -, e10, e11, -⟩ := idx_facts t
  show (V m c main_v29 : S800000x32.Idx → EReal) (((cfg0.win 1).blk t).view.emb (ix2 p j)) = _
  refine congrArg (V m c main_v29 : S800000x32.Idx → EReal) (funext fun d => Fin.ext ?_)
  match d with
  | ⟨0, _⟩ => show win0_1.index t (0 : Fin 2) * 4000 + 1 * p.val = t.val * 4000 + p.val; rw [e10]; omega
  | ⟨1, _⟩ => show win0_1.index t (1 : Fin 2) * 32 + 1 * j.val = j.val; rw [e11]; omega

theorem blk2 (c : Dev nD) (t : Fin cfg0.N) (s : Fin 9) (j : Fin 32) :
    (iblk m c 2 t : S9x32.Idx → EReal) (ix2 s j) = (V m c main_v19 : S9x32.Idx → EReal) (ix2 s j) := by
  obtain ⟨-, -, -, -, e0, e1, -⟩ := idx_facts t
  show (V m c main_v19 : S9x32.Idx → EReal) (((cfg0.win 2).blk t).view.emb (ix2 s j)) = _
  refine congrArg (V m c main_v19 : S9x32.Idx → EReal) (funext fun d => Fin.ext ?_)
  match d with
  | ⟨0, _⟩ => show win0_2.index t (0 : Fin 2) * 9 + 1 * s.val = s.val; rw [e0]; omega
  | ⟨1, _⟩ => show win0_2.index t (1 : Fin 2) * 32 + 1 * j.val = j.val; rw [e1]; omega

theorem blk3 (c : Dev nD) (t : Fin cfg0.N) (z : Fin 1) (j : Fin 32) :
    (iblk m c 3 t : S1x32.Idx → EReal) (ix2 z j) = (V m c main_v34 : S1x32.Idx → EReal) (ix2 z j) := by
  obtain ⟨-, -, -, -, -, -, e0, e1, -⟩ := idx_facts t
  show (V m c main_v34 : S1x32.Idx → EReal) (((cfg0.win 3).blk t).view.emb (ix2 z j)) = _
  refine congrArg (V m c main_v34 : S1x32.Idx → EReal) (funext fun d => Fin.ext ?_)
  match d with
  | ⟨0, _⟩ => show win0_3.index t (0 : Fin 2) * 1 + 1 * z.val = z.val; rw [e0]; omega
  | ⟨1, _⟩ => show win0_3.index t (1 : Fin 2) * 32 + 1 * j.val = j.val; rw [e1]; omega

theorem blk4 (c : Dev nD) (t : Fin cfg0.N) (j k : Fin 32) :
    (iblk m c 4 t : S32x32.Idx → EReal) (ix2 j k) = (V m c main_arg4 : S32x32.Idx → EReal) (ix2 j k) := by
  obtain ⟨-, -, -, -, -, -, -, -, e0, e1, -⟩ := idx_facts t
  show (V m c main_arg4 : S32x32.Idx → EReal) (((cfg0.win 4).blk t).view.emb (ix2 j k)) = _
  refine congrArg (V m c main_arg4 : S32x32.Idx → EReal) (funext fun d => Fin.ext ?_)
  match d with
  | ⟨0, _⟩ => show win0_4.index t (0 : Fin 2) * 32 + 1 * j.val = j.val; rw [e0]; omega
  | ⟨1, _⟩ => show win0_4.index t (1 : Fin 2) * 32 + 1 * k.val = k.val; rw [e1]; omega

theorem blk5 (c : Dev nD) (t : Fin cfg0.N) (z : Fin 1) (j : Fin 32) :
    (iblk m c 5 t : S1x32.Idx → EReal) (ix2 z j) = (V m c main_v35 : S1x32.Idx → EReal) (ix2 z j) := by
  obtain ⟨-, -, -, -, -, -, -, -, -, -, e0, e1, -⟩ := idx_facts t
  show (V m c main_v35 : S1x32.Idx → EReal) (((cfg0.win 5).blk t).view.emb (ix2 z j)) = _
  refine congrArg (V m c main_v35 : S1x32.Idx → EReal) (funext fun d => Fin.ext ?_)
  match d with
  | ⟨0, _⟩ => show win0_5.index t (0 : Fin 2) * 1 + 1 * z.val = z.val; rw [e0]; omega
  | ⟨1, _⟩ => show win0_5.index t (1 : Fin 2) * 32 + 1 * j.val = j.val; rw [e1]; omega

theorem blk6 (c : Dev nD) (t : Fin cfg0.N) (j k : Fin 32) :
    (iblk m c 6 t : S32x32.Idx → EReal) (ix2 j k) = (V m c main_v31 : S32x32.Idx → EReal) (ix2 j k) := by
  obtain ⟨-, -, -, -, -, -, -, -, -, -, -, -, e0, e1, -⟩ := idx_facts t
  show (V m c main_v31 : S32x32.Idx → EReal) (((cfg0.win 6).blk t).view.emb (ix2 j k)) = _
  refine congrArg (V m c main_v31 : S32x32.Idx → EReal) (funext fun d => Fin.ext ?_)
  match d with
  | ⟨0, _⟩ => show win0_6.index t (0 : Fin 2) * 32 + 1 * j.val = j.val; rw [e0]; omega
  | ⟨1, _⟩ => show win0_6.index t (1 : Fin 2) * 32 + 1 * k.val = k.val; rw [e1]; omega

theorem blk7 (c : Dev nD) (t : Fin cfg0.N) (z : Fin 1) (j : Fin 32) :
    (iblk m c 7 t : S1x32.Idx → EReal) (ix2 z j) = (V m c main_v36 : S1x32.Idx → EReal) (ix2 z j) := by
  obtain ⟨-, -, -, -, -, -, -, -, -, -, -, -, -, -, e0, e1, -⟩ := idx_facts t
  show (V m c main_v36 : S1x32.Idx → EReal) (((cfg0.win 7).blk t).view.emb (ix2 z j)) = _
  refine congrArg (V m c main_v36 : S1x32.Idx → EReal) (funext fun d => Fin.ext ?_)
  match d with
  | ⟨0, _⟩ => show win0_7.index t (0 : Fin 2) * 1 + 1 * z.val = z.val; rw [e0]; omega
  | ⟨1, _⟩ => show win0_7.index t (1 : Fin 2) * 32 + 1 * j.val = j.val; rw [e1]; omega

/-! ## What a point writes back -/

/-- Row `p`, member `q` of what point `t`'s body leaves is the message of edge `4000 t + p`, member `q`. -/
theorem body_apply (c : Dev nD) (t : Fin cfg0.N) (p : Fin 4000) (q : Fin 32) :
    (out0_8 (F := Ideal) (iblk m c 0 t) (iblk m c 1 t) (iblk m c 2 t) (iblk m c 3 t) (iblk m c 4 t) (iblk m c 5 t) (iblk m c 6 t) (iblk m c 7 t) : S4000x32.Idx → EReal) (ix2 p q)
      = Cert.Edges.msgK (A0 m c) (A1 m c) (A2 m c) (A3 m c) (A4 m c) (A5 m c) (A6 m c) (A7 m c) (A8 m c) (erow t p) q := by
  refine (Cert.KernelIdeal.Block.out_apply (iblk m c 0 t) (iblk m c 1 t) (iblk m c 2 t) (iblk m c 3 t) (iblk m c 4 t) (iblk m c 5 t) (iblk m c 6 t) (iblk m c 7 t) p q).trans ?_
  unfold Cert.Edges.msgK
  have r0 : (fun a : Fin 3 => (iblk m c 0 t : S4000x3.Idx → EReal) (ix2 p a)) = Cert.Edges.rel (A1 m c) (A8 m c) (erow t p) :=
    funext fun a => (blk0 m c t p a).trans (Cert.KernelIdeal.HostE.v18_apply m c (erow t p) a)
  have r1 : (fun j : Fin 32 => (iblk m c 1 t : S4000x32.Idx → EReal) (ix2 p j))
      = fun j => ∑ k : Fin 64, Cert.Edges.feat (A0 m c) (A8 m c) (erow t p) k * (A2 m c) (ix2 (Fin.natAdd 9 k) j) :=
    funext fun j => (blk1 m c t p j).trans (Cert.KernelIdeal.HostE.v29_apply m c (erow t p) j)
  have r2 : (fun (s : Fin 9) (j : Fin 32) => (iblk m c 2 t : S9x32.Idx → EReal) (ix2 s j)) = fun s j => (A2 m c) (ix2 (Fin.castAdd 64 s) j) :=
    funext fun s => funext fun j => (blk2 m c t s j).trans (Cert.KernelIdeal.HostF.v19_apply m c s j)
  have r3 : (fun j : Fin 32 => (iblk m c 3 t : S1x32.Idx → EReal) (ix2 (0 : Fin 1) j)) = fun j => (A3 m c) (ix1 j) :=
    funext fun j => (blk3 m c t 0 j).trans (Cert.KernelIdeal.HostF.v34_apply m c j)
  have r4 : (fun (j k : Fin 32) => (iblk m c 4 t : S32x32.Idx → EReal) (ix2 j k)) = fun j k => (A4 m c) (ix2 j k) :=
    funext fun j => funext fun k => (blk4 m c t j k).trans (congrFun (V_main_arg4 m c) (ix2 j k))
  have r5 : (fun k : Fin 32 => (iblk m c 5 t : S1x32.Idx → EReal) (ix2 (0 : Fin 1) k)) = fun k => (A5 m c) (ix1 k) :=
    funext fun k => (blk5 m c t 0 k).trans (Cert.KernelIdeal.HostF.v35_apply m c k)
  have r6 : (fun (k q : Fin 32) => (iblk m c 6 t : S32x32.Idx → EReal) (ix2 k q)) = fun k q => 0 + ∑ s : Fin 9, (A6 m c) (ix2 k (col s q)) :=
    funext fun k => funext fun q => (blk6 m c t k q).trans (Cert.KernelIdeal.HostF.v31_apply m c k q)
  have r7 : (fun q : Fin 32 => (iblk m c 7 t : S1x32.Idx → EReal) (ix2 (0 : Fin 1) q)) = fun q => 0 + ∑ s : Fin 9, (A7 m c) (ix1 (col s q)) :=
    funext fun q => (blk7 m c t 0 q).trans (Cert.KernelIdeal.HostF.v36_apply m c q)
  rw [r0, r1, r2, r3, r4, r5, r6, r7]

/-- The array index of row `p`, member `q` of point `t`'s output block: row `4000 t + p`, member `q`. -/
theorem emb8 (t : Fin cfg0.N) (p : Fin 4000) (q : Fin 32) :
    ((cfg0.win 8).blk t).view.emb (ix2 p q) = (ix2 (erow t p) q : S800000x32.Idx) := by
  obtain ⟨-, -, -, -, -, -, -, -, -, -, -, -, -, -, -, -, e80, e81⟩ := idx_facts t
  funext d; apply Fin.ext
  match d with
  | ⟨0, _⟩ => show win0_8.index t (0 : Fin 2) * 4000 + 1 * p.val = t.val * 4000 + p.val; rw [e80]; omega
  | ⟨1, _⟩ => show win0_8.index t (1 : Fin 2) * 32 + 1 * q.val = q.val; rw [e81]; omega

/-- The message array at row `e`, member `q`. -/
theorem msgArr_ix2 (c : Dev nD) (e : Fin 800000) (q : Fin 32) :
    msgArr m c (ix2 e q) = Cert.Edges.msgK (A0 m c) (A1 m c) (A2 m c) (A3 m c) (A4 m c) (A5 m c) (A6 m c) (A7 m c) (A8 m c) e q := rfl

set_option maxHeartbeats 1000000 in
/-- What point `t` writes back is block `t` of the message array. -/
theorem flushed_eq (c : Dev nD) (t : Fin cfg0.N) :
    (dats m 0 c).flushed 8 t = ((cfg0.win 8).blk t).view.read (Elt Ideal) (msgArr m c) := by
  show (cfg0.win 8).cut (grid0.coords t) ((dats m 0 c).after 8 t) = _
  rw [after0_8]
  funext j
  obtain ⟨p, q, rfl⟩ : ∃ (p : Fin 4000) (q : Fin 32), j = ix2 p q := ⟨j 0, j 1, eq_ix2 j⟩
  show (out0_8 (F := Ideal) (iblk m c 0 t) (iblk m c 1 t) (iblk m c 2 t) (iblk m c 3 t) (iblk m c 4 t) (iblk m c 5 t) (iblk m c 6 t) (iblk m c 7 t) : S4000x32.Idx → EReal) (ix2 p q)
      = msgArr m c (((cfg0.win 8).blk t).view.emb (ix2 p q))
  refine (body_apply m c t p q).trans ?_
  refine Eq.trans ?_ (congrArg (msgArr m c) (emb8 t p q).symm)
  exact (msgArr_ix2 m c (erow t p) q).symm

/-- An index of the array is in point `t`'s block iff each coordinate is in the block's range on its axis. -/
theorem mem_blk (t : Fin cfg0.N) (i : S800000x32.Idx) :
    i ∈ ((cfg0.win 8).blk t).view.set ↔ ∀ a : Fin 2, win0_8.index t a * S4000x32.size a ≤ (i a).val ∧ (i a).val < win0_8.index t a * S4000x32.size a + S4000x32.size a := by
  show i ∈ ((View.whole main_v37).slice (win0_8.rect t)).set ↔ _
  rw [View.set_slice_whole, Rect.mem_set_unit]
  exact Iff.rfl

/-- Every index of the message array is in the block of the point `row / 4000`. -/
theorem cover (i : S800000x32.Idx) : ∃ t : Fin cfg0.N, (cfg0.win 8).flush t = true ∧ i ∈ ((cfg0.win 8).blk t).view.set := by
  have hi0 : (i 0).val < 800000 := idx2_lt0 i
  have hi1 : (i 1).val < 32 := idx2_lt1 i
  let t : Fin cfg0.N := ⟨(i 0).val / 4000, by show (i 0).val / 4000 < 200; omega⟩
  obtain ⟨-, -, -, -, -, -, -, -, -, -, -, -, -, -, -, -, e80, e81⟩ := idx_facts t
  have ht : t.val = (i 0).val / 4000 := rfl
  refine ⟨t, flush0_8 t, ?_⟩
  rw [mem_blk]
  intro a
  match a with
  | ⟨0, _⟩ => show win0_8.index t (0 : Fin 2) * 4000 ≤ (i 0).val ∧ (i 0).val < win0_8.index t (0 : Fin 2) * 4000 + 4000; rw [e80, ht]; omega
  | ⟨1, _⟩ => show win0_8.index t (1 : Fin 2) * 32 ≤ (i 1).val ∧ (i 1).val < win0_8.index t (1 : Fin 2) * 32 + 32; rw [e81]; omega

/-- THE ARRAY after the run: the message of every edge. -/
theorem final (c : Dev nD) : (dats m 0 c).arrAt 8 cfg0.N = msgArr m c :=
  (dats m 0 c).arrAt_eq_of_cover 8 (msgArr m c) (fun t _ => flushed_eq m c t) (cover)

end Cert.KernelIdeal.Arr

end
-- ==== Proof.KernelTail.lean ====
/-
  The kernel program's result: the lines after the region add each edge's message into the row of its target node.

  After the region the program takes a zero array of one row per node, the column of target indices (the first row
  of the index array, as written), and the message array the region left, and adds every message row into the row
  its index names.  So the result is that sum applied to the message of every edge.
-/
import proofs.«427460_j56573309223683_3_alg».proof.Proof.KernelArray
import Idealize.ShloMosaic.Lib.StableHlo.Run

set_option maxRecDepth 16384

noncomputable section

namespace Cert.KernelIdeal.Tail

open Idealize.ShloMosaic Idealize.ShloMosaic.TcCoe Idealize.ShloMosaic.ValueIdx Idealize.SL.Sem Idealize.ShloMosaic.StableHlo
open Cert.KernelIdeal Cert.KernelIdeal.Gen Cert.KernelIdeal.Arr

variable (m : (ℓ : Loc nD τ sig) → Buf (Elt Ideal) ℓ) (ρ : Dev nD → PrngReg)

/-- The target indices as written: the first row of the index array, as a flat array. -/
def targets (x8 : IVec S2x800000 32) : IVec S800000 32 :=
  shapeCast _ (extractStridedSlice S1x800000 ![0, 0] x8 slices_S2x800000_S1x800000_0_0) shapeCasts_S1x800000_S800000

/-- The sum of message rows into node rows, from zero. -/
def scattered (x8 : IVec S2x800000 32) (msg : S800000x32.Idx → EReal) : S50000x32.Idx → EReal :=
  Host.scatterAdd (F := Ideal) scatter_S50000x32_S800000x1_S800000x32_1_0_0_1
    (broadcastInDim S50000x32 ![] bcast_S_S50000x32 (constant (F := Ideal) S_ .f32 0x00000000#32))
    (broadcastInDim S800000x1 ![0] bcast_S800000_S800000x1_0 (targets x8)) msg

/-- The region finds the flat target indices already computed. -/
theorem V_v1 (c : Dev nD) : (V m c main_v1 : IVec S800000 32) = targets (A8 m c) := by
  show StableHlo.after hostOps0 (fun b => m (c, b)) (Proc.devRef .tc main_v1) = _
  after_results
  rfl

/-- The result buffer after the lines that follow the region. -/
theorem v40_eq (c : Dev nD) :
    Pipeline.afterTail₀ cfgs (dats m) 0 (V0 m) [hostOps1] c main_v40 = scattered (A8 m c) (msgArr m c) := by
  unfold Pipeline.afterTail₀
  show StableHlo.after hostOps1 _ (Proc.devRef .tc main_v40) = _
  after_results
  have h37 : Pipeline.withArrays (cfgs 0).spec c (V0 m c) (fun w => (dats m 0 c).arrAt w (cfgs 0).N) (Proc.devRef .tc main_v37)
      = msgArr m c :=
    (Pipeline.withArrays_arr spec0 launch0.win.arr_inj c _ _ 8).trans (final m c)
  have h1 : Pipeline.withArrays (cfgs 0).spec c (V0 m c) (fun w => (dats m 0 c).arrAt w (cfgs 0).N) (Proc.devRef .tc main_v1)
      = targets (A8 m c) :=
    (Pipeline.withArrays_of_ne _ c (V0 m c) _ main_v1 (by exact (by decide : ∀ w, Pipeline.arrRef spec0 w ≠ main_v1))).trans (V_v1 m c)
  rw [h37, h1]
  rfl

/-- The kernel program's run: the result at the scattered messages, the arguments unchanged. -/
theorem run : θ_run defs (onTc (τ := τ) (main (F := Ideal))) ⟨m, fun _ => 0, ρ⟩ (fun r => ∀ c : Dev nD,
      r.2.mem ((c.tc : Thread nD τ).loc main_v40) = scattered (A8 m c) (msgArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_v40 (Pipeline.mem_restRefs_of main_v40 (by decide) (by decide))).trans (v40_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

end Cert.KernelIdeal.Tail

end
-- ==== Proof.RefDir.lean ====
/-
  The reference's direction of an edge, read at an index.

  The reference takes the two rows of the index array, counts a negative entry from the end of the node table,
  gathers the positions of an edge's two ends and subtracts them, and then scales the difference to unit length
  twice: each time it divides the triple by the square root of the sum of its squares, clamped below at a small
  positive constant.  Read at edge `e` and coordinate `a`, the outcome is coordinate `a` of the direction
  `dirn` of the edge's relative position `rel`.

  The lemmas go stage by stage: the three columns of normalised start indices (`ends`), the two row gathers
  (`node`), their difference (`rel`), the clamped length of the difference (`len`), the quotient (`unit3`), and the
  same two steps once more on the quotient (`dirn`).
-/
import proofs.«427460_j56573309223683_3_alg».proof.Proof.RefStages
import proofs.«427460_j56573309223683_3_alg».proof.Proof.Edges
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefDir

open Idealize.ShloMosaic Idealize.ShloMosaic.ValueIdx Cert.ReferenceIdeal Cert.ReferenceIdeal.Stages Cert.EdgeMsg

/-! ## The columns of start indices

A row of the index array is sliced out, flattened, compared with zero, shifted by the number of nodes where negative,
and laid out as a column.  Element `[y, 0]` of the column is `wrap` of the row's entry `y`. -/

/-- Through the broadcast, the reshape and the slice of row 0, column element `y` reads the index array at `[0, y]`. -/
theorem idx_row0 (y : S800000x1.Idx) :
    idx_main_v0 (idx_main_v1 (idx_main_v9 y)) = ix2 (0 : Fin 2) ⟨(y 0).val, idx2_lt0 y⟩ :=
  funext fun a => Fin.ext (by
    match a with
    | ⟨0, _⟩ => rfl
    | ⟨1, _⟩ =>
      have h0 : (y 0).val < 800000 := (y 0).isLt
      show (y 0).val % 800000 = (y 0).val
      omega)

/-- Through the broadcast, the reshape and the slice of row 1, column element `y` reads the index array at `[1, y]`. -/
theorem idx_row1 (y : S800000x1.Idx) :
    idx_main_v2 (idx_main_v3 (idx_main_v16 y)) = ix2 (1 : Fin 2) ⟨(y 0).val, idx2_lt0 y⟩ :=
  funext fun a => Fin.ext (by
    match a with
    | ⟨0, _⟩ => rfl
    | ⟨1, _⟩ =>
      have h0 : (y 0).val < 800000 := (y 0).isLt
      show (y 0).val % 800000 = (y 0).val
      omega)

/-- The same for the second printing of the row-1 chain. -/
theorem idx_row1' (y : S800000x1.Idx) :
    idx_main_v2 (idx_main_v3 (idx_main_v82 y)) = ix2 (1 : Fin 2) ⟨(y 0).val, idx2_lt0 y⟩ :=
  funext fun a => Fin.ext (by
    match a with
    | ⟨0, _⟩ => rfl
    | ⟨1, _⟩ =>
      have h0 : (y 0).val < 800000 := (y 0).isLt
      show (y 0).val % 800000 = (y 0).val
      omega)

/-- The column of target-end start indices. -/
theorem v9_eq (x8 : (⟨S2x800000, .i32⟩ : BufTy).Contents (Elt Ideal)) :
    val_main_v9 (F := Ideal) x8 = Cert.Edges.ends x8 0 := by
  funext y
  rw [val_main_v9_apply, val_main_v8_apply, val_main_v5_apply, val_main_v7_apply, val_main_v4_apply,
    val_main_v6_apply, val_main_c_apply, val_main_c_0_apply, val_main_v1_apply, val_main_v0_apply, idx_row0 y]
  rfl

/-- The column of source-end start indices. -/
theorem v16_eq (x8 : (⟨S2x800000, .i32⟩ : BufTy).Contents (Elt Ideal)) :
    val_main_v16 (F := Ideal) x8 = Cert.Edges.ends x8 1 := by
  funext y
  rw [val_main_v16_apply, val_main_v15_apply, val_main_v12_apply, val_main_v14_apply, val_main_v11_apply,
    val_main_v13_apply, val_main_c_1_apply, val_main_c_2_apply, val_main_v3_apply, val_main_v2_apply, idx_row1 y]
  rfl

/-- The column of source-end start indices, as printed a second time for the gather of feature rows. -/
theorem v82_eq (x8 : (⟨S2x800000, .i32⟩ : BufTy).Contents (Elt Ideal)) :
    val_main_v82 (F := Ideal) x8 = Cert.Edges.ends x8 1 := by
  funext y
  rw [val_main_v82_apply, val_main_v81_apply, val_main_v78_apply, val_main_v80_apply, val_main_v77_apply,
    val_main_v79_apply, val_main_c_15_apply, val_main_c_16_apply, val_main_v3_apply, val_main_v2_apply, idx_row1' y]
  rfl

/-! ## The relative position

Each gather of position rows reads, at `(e, a)`, the position array at the row its start index selects (the index
read signed and clamped into the table) and column `a`; the difference of the two is `rel`. -/

/-- The target end's position. -/
theorem v10_apply (x1 : (⟨S50000x3, .f32⟩ : BufTy).Contents (Elt Ideal)) (x8 : (⟨S2x800000, .i32⟩ : BufTy).Contents (Elt Ideal))
    (e : Fin 800000) (a : Fin 3) :
    val_main_v10 (F := Ideal) x1 x8 (ix2 e a) = x1 (ix2 (Cert.Edges.node x8 0 e) a) := by
  unfold val_main_v10
  rw [v9_eq]
  exact RowGather.gather_row_apply_of_fields (by decide) gather_S50000x3_S800000x1_S800000x3_1_0_n_n_0_1_13
    rfl rfl rfl rfl rfl rfl rfl x1 (Cert.Edges.ends x8 0) (ix2 e a)

/-- The source end's position. -/
theorem v17_apply (x1 : (⟨S50000x3, .f32⟩ : BufTy).Contents (Elt Ideal)) (x8 : (⟨S2x800000, .i32⟩ : BufTy).Contents (Elt Ideal))
    (e : Fin 800000) (a : Fin 3) :
    val_main_v17 (F := Ideal) x1 x8 (ix2 e a) = x1 (ix2 (Cert.Edges.node x8 1 e) a) := by
  unfold val_main_v17
  rw [v16_eq]
  exact RowGather.gather_row_apply_of_fields (by decide) gather_S50000x3_S800000x1_S800000x3_1_0_n_n_0_1_13
    rfl rfl rfl rfl rfl rfl rfl x1 (Cert.Edges.ends x8 1) (ix2 e a)

/-- The difference of the two ends' positions is the edge's relative position. -/
theorem v18_apply (x1 : (⟨S50000x3, .f32⟩ : BufTy).Contents (Elt Ideal)) (x8 : (⟨S2x800000, .i32⟩ : BufTy).Contents (Elt Ideal))
    (e : Fin 800000) (a : Fin 3) :
    val_main_v18 (F := Ideal) x1 x8 (ix2 e a) = Cert.Edges.rel x1 x8 e a := by
  rw [val_main_v18_apply, v10_apply, v17_apply]
  rfl

/-! ## Index bookkeeping of one normalisation

The sum of squares of row `e` is laid out as column element `[e, 0]`; term `k` of the sum is the square at `[e, k]`;
the clamped length at `[e, 0]` is spread over the three columns of row `e`. -/

/-- Term `k` of the sum behind column element `[e, 0]` sits at `[e, k]` (first normalisation). -/
theorem idx_sq1 (e : Fin 800000) (k : Fin 3) :
    idx_main_call0_v1 (idx_main_call0_v2 (ix2 e ⟨0, Nat.one_pos⟩)) k = ix2 e k :=
  funext fun a => Fin.ext (by match a with | ⟨0, _⟩ => rfl | ⟨1, _⟩ => rfl)

/-- Term `k` of the sum behind column element `[e, 0]` sits at `[e, k]` (second normalisation). -/
theorem idx_sq2 (e : Fin 800000) (k : Fin 3) :
    idx_main_call2_v1 (idx_main_call2_v2 (ix2 e ⟨0, Nat.one_pos⟩)) k = ix2 e k :=
  funext fun a => Fin.ext (by match a with | ⟨0, _⟩ => rfl | ⟨1, _⟩ => rfl)

/-- Element `[e, a]` of the spread length reads the column at `[e, 0]` (first normalisation). -/
theorem idx_col1 (e : Fin 800000) (a : Fin 3) : idx_main_v21 (ix2 e a) = ix2 e ⟨0, Nat.one_pos⟩ :=
  funext fun b => Fin.ext (by match b with | ⟨0, _⟩ => rfl | ⟨1, _⟩ => rfl)

/-- Element `[e, a]` of the spread length reads the column at `[e, 0]` (second normalisation). -/
theorem idx_col2 (e : Fin 800000) (a : Fin 3) : idx_main_v25 (ix2 e a) = ix2 e ⟨0, Nat.one_pos⟩ :=
  funext fun b => Fin.ext (by match b with | ⟨0, _⟩ => rfl | ⟨1, _⟩ => rfl)

/-- The clamp constant spread over the column (first normalisation). -/
theorem clip1 (i : S800000x1.Idx) : val_main_call1_v1 (F := Ideal) i = eps :=
  (val_main_call1_v1_apply i).trans rfl

/-- The clamp constant spread over the column (second normalisation). -/
theorem clip2 (i : S800000x1.Idx) : val_main_call3_v1 (F := Ideal) i = eps :=
  (val_main_call3_v1_apply i).trans rfl

/-! ## The first normalisation -/

/-- The sum of squares of the relative position, from zero. -/
theorem sumsq1 (x1 : (⟨S50000x3, .f32⟩ : BufTy).Contents (Elt Ideal)) (x8 : (⟨S2x800000, .i32⟩ : BufTy).Contents (Elt Ideal))
    (e : Fin 800000) :
    val_main_call0_v2 (F := Ideal) x1 x8 (ix2 e ⟨0, Nat.one_pos⟩)
      = 0 + ∑ k : Fin 3, Cert.Edges.rel x1 x8 e k * Cert.Edges.rel x1 x8 e k := by
  rw [val_main_call0_v2_apply, val_main_call0_v1_apply, val_main_call0_cst_apply, Ideal.ofBits_def,
    Ideal.ofBits_zero_f32]
  refine congrArg (fun s : EReal => 0 + s) (Finset.sum_congr rfl fun k _ => ?_)
  rw [idx_sq1 e k, val_main_call0_v0_apply, v18_apply]
  rfl

/-- The clamped length of the relative position: the maximum of the clamp and the root has its arguments in the
    other order, and the sum starts from zero. -/
theorem v20_apply (x1 : (⟨S50000x3, .f32⟩ : BufTy).Contents (Elt Ideal)) (x8 : (⟨S2x800000, .i32⟩ : BufTy).Contents (Elt Ideal))
    (e : Fin 800000) :
    val_main_v20 (F := Ideal) x1 x8 (ix2 e ⟨0, Nat.one_pos⟩) = len (Cert.Edges.rel x1 x8 e) := by
  rw [val_main_v20_apply, clip1, val_main_v19_apply, sumsq1, zero_add, Ideal.maximumf_def, Ideal.hostUnary_sqrt_def]
  exact max_comm _ _

/-- The relative position scaled to unit length once. -/
theorem v22_apply (x1 : (⟨S50000x3, .f32⟩ : BufTy).Contents (Elt Ideal)) (x8 : (⟨S2x800000, .i32⟩ : BufTy).Contents (Elt Ideal))
    (e : Fin 800000) (a : Fin 3) :
    val_main_v22 (F := Ideal) x1 x8 (ix2 e a) = unit3 (Cert.Edges.rel x1 x8 e) a := by
  rw [val_main_v22_apply, val_main_v21_apply, idx_col1, v20_apply, v18_apply]
  rfl

/-! ## The second normalisation -/

/-- The sum of squares of the once-scaled triple, from zero. -/
theorem sumsq2 (x1 : (⟨S50000x3, .f32⟩ : BufTy).Contents (Elt Ideal)) (x8 : (⟨S2x800000, .i32⟩ : BufTy).Contents (Elt Ideal))
    (e : Fin 800000) :
    val_main_call2_v2 (F := Ideal) x1 x8 (ix2 e ⟨0, Nat.one_pos⟩)
      = 0 + ∑ k : Fin 3, unit3 (Cert.Edges.rel x1 x8 e) k * unit3 (Cert.Edges.rel x1 x8 e) k := by
  rw [val_main_call2_v2_apply, val_main_call2_v1_apply, val_main_call2_cst_apply, Ideal.ofBits_def,
    Ideal.ofBits_zero_f32]
  refine congrArg (fun s : EReal => 0 + s) (Finset.sum_congr rfl fun k _ => ?_)
  rw [idx_sq2 e k, val_main_call2_v0_apply, v22_apply]
  rfl

/-- The clamped length of the once-scaled triple. -/
theorem v24_apply (x1 : (⟨S50000x3, .f32⟩ : BufTy).Contents (Elt Ideal)) (x8 : (⟨S2x800000, .i32⟩ : BufTy).Contents (Elt Ideal))
    (e : Fin 800000) :
    val_main_v24 (F := Ideal) x1 x8 (ix2 e ⟨0, Nat.one_pos⟩) = len (unit3 (Cert.Edges.rel x1 x8 e)) := by
  rw [val_main_v24_apply, clip2, val_main_v23_apply, sumsq2, zero_add, Ideal.maximumf_def, Ideal.hostUnary_sqrt_def]
  exact max_comm _ _

/-- The direction of the edge: its relative position scaled to unit length twice. -/
theorem v26_apply (x1 : (⟨S50000x3, .f32⟩ : BufTy).Contents (Elt Ideal)) (x8 : (⟨S2x800000, .i32⟩ : BufTy).Contents (Elt Ideal))
    (e : Fin 800000) (a : Fin 3) :
    val_main_v26 (F := Ideal) x1 x8 (ix2 e a) = dirn (Cert.Edges.rel x1 x8 e) a := by
  rw [val_main_v26_apply, val_main_v25_apply, idx_col2, v24_apply, v22_apply]
  rfl

end Cert.ReferenceIdeal.RefDir

end
-- ==== Proof.RefFeat.lean ====
/-
  The reference's 73 numbers per edge, read at an index.

  Row `e` of the 73-column array that the first layer contracts is: the nine angular features of edge `e`'s
  direction, then the feature row of the edge's source node.  The direction's three coordinates are the three
  columns of the twice-normalised relative position, each taken as a one-column slice and flattened.  Each feature
  is a fixed polynomial in them with single-precision coefficients.  The nine features are laid side by side as
  nine one-column arrays joined along the column axis; the feature row is a row gather at the source node's index;
  the two are joined along the column axis, features first.
-/
import proofs.«427460_j56573309223683_3_alg».proof.Proof.RefStages
import proofs.«427460_j56573309223683_3_alg».proof.Proof.Edges
import proofs.«427460_j56573309223683_3_alg».proof.Proof.RefDir
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefFeat

open Cert.ReferenceIdeal Cert.ReferenceIdeal.Gen Cert.ReferenceIdeal.Stages Idealize.ShloMosaic Idealize.ShloMosaic.TcCoe
  Idealize.SL.Sem Idealize.ShloMosaic.StableHlo Idealize.ShloMosaic.ValueIdx Cert.EdgeMsg

variable (x0 : (⟨S50000x64, .f32⟩ : BufTy).Contents (Elt Ideal))
  (x1 : (⟨S50000x3, .f32⟩ : BufTy).Contents (Elt Ideal))
  (x8 : (⟨S2x800000, .i32⟩ : BufTy).Contents (Elt Ideal))

/-- The direction of edge `e`: its relative position scaled to unit length twice. -/
abbrev edir (e : Fin 800000) : Fin 3 → EReal := dirn (Cert.Edges.rel x1 x8 e)

/-! ## The three coordinates of the direction

Column `a` of the direction array, sliced out as one column and flattened, read at edge `e`: the flattening divides
the position by the column count one, the slice adds the column's offset. -/

theorem colIdx0 (e : Fin 800000) : idx_main_v27 (idx_main_v28 (ix1 e)) = ix2 e (0 : Fin 3) :=
  funext fun a => Fin.ext (match a with
    | ⟨0, _⟩ => by show e.val / 1 = e.val; omega
    | ⟨1, _⟩ => rfl)

theorem colIdx1 (e : Fin 800000) : idx_main_v29 (idx_main_v30 (ix1 e)) = ix2 e (1 : Fin 3) :=
  funext fun a => Fin.ext (match a with
    | ⟨0, _⟩ => by show e.val / 1 = e.val; omega
    | ⟨1, _⟩ => rfl)

theorem colIdx2 (e : Fin 800000) : idx_main_v31 (idx_main_v32 (ix1 e)) = ix2 e (2 : Fin 3) :=
  funext fun a => Fin.ext (match a with
    | ⟨0, _⟩ => by show e.val / 1 = e.val; omega
    | ⟨1, _⟩ => rfl)

/-- The first coordinate. -/
theorem v28_apply (e : Fin 800000) :
    val_main_v28 (F := Ideal) x1 x8 (ix1 e) = edir x1 x8 e 0 :=
  (val_main_v28_apply (F := Ideal) x1 x8 (ix1 e)).trans
    ((val_main_v27_apply (F := Ideal) x1 x8 _).trans
      ((congrArg (val_main_v26 (F := Ideal) x1 x8) (colIdx0 e)).trans (RefDir.v26_apply x1 x8 e 0)))

/-- The second coordinate. -/
theorem v30_apply (e : Fin 800000) :
    val_main_v30 (F := Ideal) x1 x8 (ix1 e) = edir x1 x8 e 1 :=
  (val_main_v30_apply (F := Ideal) x1 x8 (ix1 e)).trans
    ((val_main_v29_apply (F := Ideal) x1 x8 _).trans
      ((congrArg (val_main_v26 (F := Ideal) x1 x8) (colIdx1 e)).trans (RefDir.v26_apply x1 x8 e 1)))

/-- The third coordinate. -/
theorem v32_apply (e : Fin 800000) :
    val_main_v32 (F := Ideal) x1 x8 (ix1 e) = edir x1 x8 e 2 :=
  (val_main_v32_apply (F := Ideal) x1 x8 (ix1 e)).trans
    ((val_main_v31_apply (F := Ideal) x1 x8 _).trans
      ((congrArg (val_main_v26 (F := Ideal) x1 x8) (colIdx2 e)).trans (RefDir.v26_apply x1 x8 e 2)))

/-! ## The coefficients

Each coefficient is a single-precision constant broadcast to every edge. -/

theorem v33_c (i : S800000.Idx) : val_main_v33 (F := Ideal) i = one :=
  (val_main_v33_apply (F := Ideal) i).trans (val_main_cst_4_apply (F := Ideal) _)

theorem v34_c (i : S800000.Idx) : val_main_v34 (F := Ideal) i = c00 :=
  (val_main_v34_apply (F := Ideal) i).trans (val_main_cst_5_apply (F := Ideal) _)

theorem v36_c (i : S800000.Idx) : val_main_v36 (F := Ideal) i = c1n :=
  (val_main_v36_apply (F := Ideal) i).trans (val_main_cst_6_apply (F := Ideal) _)

theorem v38_c (i : S800000.Idx) : val_main_v38 (F := Ideal) i = c1z :=
  (val_main_v38_apply (F := Ideal) i).trans (val_main_cst_7_apply (F := Ideal) _)

theorem v40_c (i : S800000.Idx) : val_main_v40 (F := Ideal) i = c1 :=
  (val_main_v40_apply (F := Ideal) i).trans (val_main_cst_8_apply (F := Ideal) _)

theorem v45_c (i : S800000.Idx) : val_main_v45 (F := Ideal) i = c2 :=
  (val_main_v45_apply (F := Ideal) i).trans (val_main_cst_9_apply (F := Ideal) _)

theorem v47_c (i : S800000.Idx) : val_main_v47 (F := Ideal) i = c2zn :=
  (val_main_v47_apply (F := Ideal) i).trans (val_main_cst_10_apply (F := Ideal) _)

theorem v50_c (i : S800000.Idx) : val_main_v50 (F := Ideal) i = two :=
  (val_main_v50_apply (F := Ideal) i).trans (val_main_cst_11_apply (F := Ideal) _)

theorem v57_c (i : S800000.Idx) : val_main_v57 (F := Ideal) i = c20 :=
  (val_main_v57_apply (F := Ideal) i).trans (val_main_cst_12_apply (F := Ideal) _)

theorem v59_c (i : S800000.Idx) : val_main_v59 (F := Ideal) i = c2z :=
  (val_main_v59_apply (F := Ideal) i).trans (val_main_cst_13_apply (F := Ideal) _)

theorem v65_c (i : S800000.Idx) : val_main_v65 (F := Ideal) i = c2 :=
  (val_main_v65_apply (F := Ideal) i).trans (val_main_cst_14_apply (F := Ideal) _)

/-! ## The nine features at an edge

Every stage is one product or one difference of two earlier stages, element by element. -/

theorem v35_apply (e : Fin 800000) :
    val_main_v35 (F := Ideal) (ix1 e) = c00 * one := by
  have h := val_main_v35_apply (F := Ideal) (ix1 e)
  rw [v34_c, v33_c] at h
  exact h

theorem v37_apply (e : Fin 800000) :
    val_main_v37 (F := Ideal) x1 x8 (ix1 e) = c1n * edir x1 x8 e 0 := by
  have h := val_main_v37_apply (F := Ideal) x1 x8 (ix1 e)
  rw [v36_c, v28_apply] at h
  exact h

theorem v39_apply (e : Fin 800000) :
    val_main_v39 (F := Ideal) x1 x8 (ix1 e) = c1z * edir x1 x8 e 2 := by
  have h := val_main_v39_apply (F := Ideal) x1 x8 (ix1 e)
  rw [v38_c, v32_apply] at h
  exact h

theorem v41_apply (e : Fin 800000) :
    val_main_v41 (F := Ideal) x1 x8 (ix1 e) = c1 * edir x1 x8 e 0 := by
  have h := val_main_v41_apply (F := Ideal) x1 x8 (ix1 e)
  rw [v40_c, v28_apply] at h
  exact h

theorem v42_apply (e : Fin 800000) :
    val_main_v42 (F := Ideal) x1 x8 (ix1 e) = edir x1 x8 e 0 * edir x1 x8 e 0 := by
  have h := val_main_v42_apply (F := Ideal) x1 x8 (ix1 e)
  rw [v28_apply] at h
  exact h

theorem v43_apply (e : Fin 800000) :
    val_main_v43 (F := Ideal) x1 x8 (ix1 e) = edir x1 x8 e 1 * edir x1 x8 e 1 := by
  have h := val_main_v43_apply (F := Ideal) x1 x8 (ix1 e)
  rw [v30_apply] at h
  exact h

theorem v44_apply (e : Fin 800000) :
    val_main_v44 (F := Ideal) x1 x8 (ix1 e) = (edir x1 x8 e 0 * edir x1 x8 e 0) - (edir x1 x8 e 1 * edir x1 x8 e 1) := by
  have h := val_main_v44_apply (F := Ideal) x1 x8 (ix1 e)
  rw [v42_apply, v43_apply] at h
  exact h

theorem v46_apply (e : Fin 800000) :
    val_main_v46 (F := Ideal) x1 x8 (ix1 e) = c2 * ((edir x1 x8 e 0 * edir x1 x8 e 0) - (edir x1 x8 e 1 * edir x1 x8 e 1)) := by
  have h := val_main_v46_apply (F := Ideal) x1 x8 (ix1 e)
  rw [v45_c, v44_apply] at h
  exact h

theorem v48_apply (e : Fin 800000) :
    val_main_v48 (F := Ideal) x1 x8 (ix1 e) = c2zn * edir x1 x8 e 2 := by
  have h := val_main_v48_apply (F := Ideal) x1 x8 (ix1 e)
  rw [v47_c, v32_apply] at h
  exact h

theorem v49_apply (e : Fin 800000) :
    val_main_v49 (F := Ideal) x1 x8 (ix1 e) = (c2zn * edir x1 x8 e 2) * edir x1 x8 e 0 := by
  have h := val_main_v49_apply (F := Ideal) x1 x8 (ix1 e)
  rw [v48_apply, v28_apply] at h
  exact h

theorem v51_apply (e : Fin 800000) :
    val_main_v51 (F := Ideal) x1 x8 (ix1 e) = two * edir x1 x8 e 2 := by
  have h := val_main_v51_apply (F := Ideal) x1 x8 (ix1 e)
  rw [v50_c, v32_apply] at h
  exact h

theorem v52_apply (e : Fin 800000) :
    val_main_v52 (F := Ideal) x1 x8 (ix1 e) = (two * edir x1 x8 e 2) * edir x1 x8 e 2 := by
  have h := val_main_v52_apply (F := Ideal) x1 x8 (ix1 e)
  rw [v51_apply, v32_apply] at h
  exact h

theorem v53_apply (e : Fin 800000) :
    val_main_v53 (F := Ideal) x1 x8 (ix1 e) = edir x1 x8 e 0 * edir x1 x8 e 0 := by
  have h := val_main_v53_apply (F := Ideal) x1 x8 (ix1 e)
  rw [v28_apply] at h
  exact h

theorem v54_apply (e : Fin 800000) :
    val_main_v54 (F := Ideal) x1 x8 (ix1 e) = ((two * edir x1 x8 e 2) * edir x1 x8 e 2) - (edir x1 x8 e 0 * edir x1 x8 e 0) := by
  have h := val_main_v54_apply (F := Ideal) x1 x8 (ix1 e)
  rw [v52_apply, v53_apply] at h
  exact h

theorem v55_apply (e : Fin 800000) :
    val_main_v55 (F := Ideal) x1 x8 (ix1 e) = edir x1 x8 e 1 * edir x1 x8 e 1 := by
  have h := val_main_v55_apply (F := Ideal) x1 x8 (ix1 e)
  rw [v30_apply] at h
  exact h

theorem v56_apply (e : Fin 800000) :
    val_main_v56 (F := Ideal) x1 x8 (ix1 e) = (((two * edir x1 x8 e 2) * edir x1 x8 e 2) - (edir x1 x8 e 0 * edir x1 x8 e 0)) - (edir x1 x8 e 1 * edir x1 x8 e 1) := by
  have h := val_main_v56_apply (F := Ideal) x1 x8 (ix1 e)
  rw [v54_apply, v55_apply] at h
  exact h

theorem v58_apply (e : Fin 800000) :
    val_main_v58 (F := Ideal) x1 x8 (ix1 e) = c20 * ((((two * edir x1 x8 e 2) * edir x1 x8 e 2) - (edir x1 x8 e 0 * edir x1 x8 e 0)) - (edir x1 x8 e 1 * edir x1 x8 e 1)) := by
  have h := val_main_v58_apply (F := Ideal) x1 x8 (ix1 e)
  rw [v57_c, v56_apply] at h
  exact h

theorem v60_apply (e : Fin 800000) :
    val_main_v60 (F := Ideal) x1 x8 (ix1 e) = c2z * edir x1 x8 e 2 := by
  have h := val_main_v60_apply (F := Ideal) x1 x8 (ix1 e)
  rw [v59_c, v32_apply] at h
  exact h

theorem v61_apply (e : Fin 800000) :
    val_main_v61 (F := Ideal) x1 x8 (ix1 e) = (c2z * edir x1 x8 e 2) * edir x1 x8 e 0 := by
  have h := val_main_v61_apply (F := Ideal) x1 x8 (ix1 e)
  rw [v60_apply, v28_apply] at h
  exact h

theorem v62_apply (e : Fin 800000) :
    val_main_v62 (F := Ideal) x1 x8 (ix1 e) = edir x1 x8 e 0 * edir x1 x8 e 0 := by
  have h := val_main_v62_apply (F := Ideal) x1 x8 (ix1 e)
  rw [v28_apply] at h
  exact h

theorem v63_apply (e : Fin 800000) :
    val_main_v63 (F := Ideal) x1 x8 (ix1 e) = edir x1 x8 e 1 * edir x1 x8 e 1 := by
  have h := val_main_v63_apply (F := Ideal) x1 x8 (ix1 e)
  rw [v30_apply] at h
  exact h

theorem v64_apply (e : Fin 800000) :
    val_main_v64 (F := Ideal) x1 x8 (ix1 e) = (edir x1 x8 e 0 * edir x1 x8 e 0) - (edir x1 x8 e 1 * edir x1 x8 e 1) := by
  have h := val_main_v64_apply (F := Ideal) x1 x8 (ix1 e)
  rw [v62_apply, v63_apply] at h
  exact h

theorem v66_apply (e : Fin 800000) :
    val_main_v66 (F := Ideal) x1 x8 (ix1 e) = c2 * ((edir x1 x8 e 0 * edir x1 x8 e 0) - (edir x1 x8 e 1 * edir x1 x8 e 1)) := by
  have h := val_main_v66_apply (F := Ideal) x1 x8 (ix1 e)
  rw [v65_c, v64_apply] at h
  exact h

/-! ## The nine one-column arrays

Each feature is spread to a one-column array; its element `(e, 0)` is the feature at edge `e`. -/

theorem colIdx (e : Fin 800000) : idx_main_v67 (ix2 e (⟨0, Nat.one_pos⟩ : Fin 1)) = ix1 e :=
  funext fun a => match a with
    | ⟨0, _⟩ => rfl

theorem v67_apply (e : Fin 800000) :
    val_main_v67 (F := Ideal) (ix2 e ⟨0, Nat.one_pos⟩) = c00 * one :=
  (val_main_v67_apply (F := Ideal) _).trans
    ((congrArg (val_main_v35 (F := Ideal)) (colIdx e)).trans (v35_apply e))

theorem v68_apply (e : Fin 800000) :
    val_main_v68 (F := Ideal) x1 x8 (ix2 e ⟨0, Nat.one_pos⟩) = c1n * edir x1 x8 e 0 :=
  (val_main_v68_apply (F := Ideal) x1 x8 _).trans
    ((congrArg (val_main_v37 (F := Ideal) x1 x8) (colIdx e)).trans (v37_apply x1 x8 e))

theorem v69_apply (e : Fin 800000) :
    val_main_v69 (F := Ideal) x1 x8 (ix2 e ⟨0, Nat.one_pos⟩) = c1z * edir x1 x8 e 2 :=
  (val_main_v69_apply (F := Ideal) x1 x8 _).trans
    ((congrArg (val_main_v39 (F := Ideal) x1 x8) (colIdx e)).trans (v39_apply x1 x8 e))

theorem v70_apply (e : Fin 800000) :
    val_main_v70 (F := Ideal) x1 x8 (ix2 e ⟨0, Nat.one_pos⟩) = c1 * edir x1 x8 e 0 :=
  (val_main_v70_apply (F := Ideal) x1 x8 _).trans
    ((congrArg (val_main_v41 (F := Ideal) x1 x8) (colIdx e)).trans (v41_apply x1 x8 e))

theorem v71_apply (e : Fin 800000) :
    val_main_v71 (F := Ideal) x1 x8 (ix2 e ⟨0, Nat.one_pos⟩) = c2 * ((edir x1 x8 e 0 * edir x1 x8 e 0) - (edir x1 x8 e 1 * edir x1 x8 e 1)) :=
  (val_main_v71_apply (F := Ideal) x1 x8 _).trans
    ((congrArg (val_main_v46 (F := Ideal) x1 x8) (colIdx e)).trans (v46_apply x1 x8 e))

theorem v72_apply (e : Fin 800000) :
    val_main_v72 (F := Ideal) x1 x8 (ix2 e ⟨0, Nat.one_pos⟩) = (c2zn * edir x1 x8 e 2) * edir x1 x8 e 0 :=
  (val_main_v72_apply (F := Ideal) x1 x8 _).trans
    ((congrArg (val_main_v49 (F := Ideal) x1 x8) (colIdx e)).trans (v49_apply x1 x8 e))

theorem v73_apply (e : Fin 800000) :
    val_main_v73 (F := Ideal) x1 x8 (ix2 e ⟨0, Nat.one_pos⟩) = c20 * ((((two * edir x1 x8 e 2) * edir x1 x8 e 2) - (edir x1 x8 e 0 * edir x1 x8 e 0)) - (edir x1 x8 e 1 * edir x1 x8 e 1)) :=
  (val_main_v73_apply (F := Ideal) x1 x8 _).trans
    ((congrArg (val_main_v58 (F := Ideal) x1 x8) (colIdx e)).trans (v58_apply x1 x8 e))

theorem v74_apply (e : Fin 800000) :
    val_main_v74 (F := Ideal) x1 x8 (ix2 e ⟨0, Nat.one_pos⟩) = (c2z * edir x1 x8 e 2) * edir x1 x8 e 0 :=
  (val_main_v74_apply (F := Ideal) x1 x8 _).trans
    ((congrArg (val_main_v61 (F := Ideal) x1 x8) (colIdx e)).trans (v61_apply x1 x8 e))

theorem v75_apply (e : Fin 800000) :
    val_main_v75 (F := Ideal) x1 x8 (ix2 e ⟨0, Nat.one_pos⟩) = c2 * ((edir x1 x8 e 0 * edir x1 x8 e 0) - (edir x1 x8 e 1 * edir x1 x8 e 1)) :=
  (val_main_v75_apply (F := Ideal) x1 x8 _).trans
    ((congrArg (val_main_v66 (F := Ideal) x1 x8) (colIdx e)).trans (v66_apply x1 x8 e))

/-! ## The nine columns joined

Element `(e, s)` of the join of nine one-column arrays along the column axis lies in piece `s` (the `s` pieces before
it span `s` columns), at `(e, 0)`. -/

theorem cat9_apply {α : Type} (xs : List ((s : Shape) × (s.Idx → α)))
    (h : Shape.Concatenates (xs.map (·.1)) S800000x9 1) (hlen : xs.length = 9) (e : Fin 800000) (k : Nat) (hk9 : k < 9)
    (p : S800000x1.Idx → α) (hxk : xs[k]'(hlen.symm ▸ hk9) = ⟨S800000x1, p⟩)
    (hpre : (((xs.take k).map (·.1)).map fun s =>
      if h : s.rank = S800000x9.rank then s.size ((1 : Fin S800000x9.rank).cast h.symm) else 0).sum = k) :
    concatenate S800000x9 1 xs h (ix2 e ⟨k, hk9⟩) = p (ix2 e ⟨0, Nat.one_pos⟩) :=
  concatenate_apply_piece (1 : Fin S800000x9.rank) xs h (ix2 e ⟨k, hk9⟩) k (hlen.symm ▸ hk9) S800000x1 p hxk rfl k hpre
    (ix2 e ⟨0, Nat.one_pos⟩)
    (fun b hb => match b, hb with
      | ⟨0, _⟩, _ => rfl
      | ⟨1, _⟩, hb => absurd rfl hb)
    rfl

/-- The nine angular features of edge `e`. -/
theorem v76_apply (e : Fin 800000) (s : Fin 9) :
    val_main_v76 (F := Ideal) x1 x8 (ix2 e s) = sh (dirn (Cert.Edges.rel x1 x8 e)) s :=
  match s with
  | ⟨0, _⟩ => (cat9_apply _ _ rfl e 0 (by decide) _ rfl rfl).trans (v67_apply e)
  | ⟨1, _⟩ => (cat9_apply _ _ rfl e 1 (by decide) _ rfl rfl).trans (v68_apply x1 x8 e)
  | ⟨2, _⟩ => (cat9_apply _ _ rfl e 2 (by decide) _ rfl rfl).trans (v69_apply x1 x8 e)
  | ⟨3, _⟩ => (cat9_apply _ _ rfl e 3 (by decide) _ rfl rfl).trans (v70_apply x1 x8 e)
  | ⟨4, _⟩ => (cat9_apply _ _ rfl e 4 (by decide) _ rfl rfl).trans (v71_apply x1 x8 e)
  | ⟨5, _⟩ => (cat9_apply _ _ rfl e 5 (by decide) _ rfl rfl).trans (v72_apply x1 x8 e)
  | ⟨6, _⟩ => (cat9_apply _ _ rfl e 6 (by decide) _ rfl rfl).trans (v73_apply x1 x8 e)
  | ⟨7, _⟩ => (cat9_apply _ _ rfl e 7 (by decide) _ rfl rfl).trans (v74_apply x1 x8 e)
  | ⟨8, _⟩ => (cat9_apply _ _ rfl e 8 (by decide) _ rfl rfl).trans (v75_apply x1 x8 e)

/-! ## The source node's feature row

A row gather reads, at `(e, k)`, the table at the row its start index selects (read signed, clamped into the table)
and column `k`; the start index of edge `e` is its source end. -/

theorem v83_apply (e : Fin 800000) (k : Fin 64) :
    val_main_v83 (F := Ideal) x0 x8 (ix2 e k) = Cert.Edges.feat x0 x8 e k :=
  (RowGather.gather_row_ix2_of_fields (N := 50000) (C := 64) (E := 800000) (by decide)
      gather_S50000x64_S800000x1_S800000x64_1_0_n_n_0_1_164 rfl rfl rfl rfl rfl rfl rfl
      x0 (val_main_v82 (F := Ideal) x8) e k).trans
    (congrArg (fun idx : IVec ⟨2, ![800000, 1]⟩ 32 =>
        x0 (ix2 (RowGather.clampRow 50000 (by decide) (idx (ix2 e ⟨0, Nat.one_pos⟩))) k))
      (RefDir.v82_eq x8))

/-! ## The 73 numbers

The features and the feature row joined along the column axis: a column below nine is a feature, a column `9 + k`
is entry `k` of the feature row. -/

theorem v84_apply (e : Fin 800000) (t : Fin 73) :
    val_main_v84 (F := Ideal) x0 x1 x8 (ix2 e t)
      = (Fin.append (sh (dirn (Cert.Edges.rel x1 x8 e))) (Cert.Edges.feat x0 x8 e) : Fin 73 → EReal) t :=
  Fin.addCases (m := 9) (n := 64)
    (motive := fun t => val_main_v84 (F := Ideal) x0 x1 x8 (ix2 e t)
      = (Fin.append (sh (dirn (Cert.Edges.rel x1 x8 e))) (Cert.Edges.feat x0 x8 e) : Fin 73 → EReal) t)
    (fun s =>
      ((concatenate_pair_apply_left (1 : Fin S800000x73.rank) (val_main_v76 (F := Ideal) x1 x8)
          (val_main_v83 (F := Ideal) x0 x8) concatenates_S800000x9_S800000x64_S800000x73_d1
          (ix2 e (Fin.castAdd 64 s)) rfl (ix2 e s)
          (fun b => match b with
            | ⟨0, _⟩ => rfl
            | ⟨1, _⟩ => rfl)).trans (v76_apply x1 x8 e s)).trans
        (Fin.append_left (sh (dirn (Cert.Edges.rel x1 x8 e))) (Cert.Edges.feat x0 x8 e) s).symm)
    (fun k =>
      ((concatenate_pair_apply_right (1 : Fin S800000x73.rank) (val_main_v76 (F := Ideal) x1 x8)
          (val_main_v83 (F := Ideal) x0 x8) concatenates_S800000x9_S800000x64_S800000x73_d1
          (ix2 e (Fin.natAdd 9 k)) rfl rfl (ix2 e k)
          (fun b hb => match b, hb with
            | ⟨0, _⟩, _ => rfl
            | ⟨1, _⟩, hb => absurd rfl hb)
          (by show k.val + 9 = 9 + k.val; omega)).trans (v83_apply x0 x8 e k)).trans
        (Fin.append_right (sh (dirn (Cert.Edges.rel x1 x8 e))) (Cert.Edges.feat x0 x8 e) k).symm)
    t

end Cert.ReferenceIdeal.RefFeat

end
-- ==== Proof.RefMlp.lean ====
/-
  The reference's message of an edge, read at an index: the three layers and the sum over the nine groups.

  The 73 numbers of edge `e` (nine angular features of its direction, then the feature row of its source node) are
  contracted against the first weight matrix, the first bias is added and the activation is applied; the 32 results are
  contracted against the second weight matrix, the second bias is added and the activation is applied again; the 32
  results are contracted against the 288 columns of the last weight matrix and the last bias is added.  The 288 outputs
  are viewed as nine groups of 32 (output `32 s + c` is member `c` of group `s`) and summed over the groups from zero.

  The program spells the activation of `x` as `x` times the quotient of one by one plus the exponential of `-x`; the
  constant one is the real number one, so this is `x` times the logistic function of `x`.

  Every stage is read at the index made of the edge and a column, in program order; the last is the whole arrangement
  of the message.
-/
import proofs.«427460_j56573309223683_3_alg».proof.Proof.RefStages
import proofs.«427460_j56573309223683_3_alg».proof.Proof.Edges
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws
import proofs.«427460_j56573309223683_3_alg».proof.Proof.RefFeat

noncomputable section

namespace Cert.ReferenceIdeal.RefMlp

open Cert.ReferenceIdeal Cert.ReferenceIdeal.Stages Idealize.ShloMosaic Idealize.ShloMosaic.ValueIdx Cert.EdgeMsg Cert.Edges

/-! ## The activation -/

/-- The activation as the program spells it: `x` times the quotient of one by one plus `exp (-x)`. -/
theorem silu_spelled (x : EReal) :
    x * Ideal.div (Ideal.ofBits .f32 0x3F800000#32) (Ideal.ofBits .f32 0x3F800000#32 + Ideal.exp (-x)) = silu x := by
  rw [Ideal.ofBits_one_f32]; rfl

/-! ## Indices by their coordinates -/

/-- First contraction, left operand: row `e`, entry `t`. -/
theorem lidx85 (e : Fin 800000) (j : Fin 32) (t : Fin 73) : lidx_main_v85 (ix2 e j) t = ix2 e t :=
  funext fun a => by match a with | ⟨0, _⟩ => rfl | ⟨1, _⟩ => rfl
/-- First contraction, right operand: row `t`, column `j`. -/
theorem ridx85 (e : Fin 800000) (j : Fin 32) (t : Fin 73) : ridx_main_v85 (ix2 e j) t = ix2 t j :=
  funext fun a => by match a with | ⟨0, _⟩ => rfl | ⟨1, _⟩ => rfl
/-- The first bias, spread over all edges, reads its column's entry. -/
theorem idxb1 (e : Fin 800000) (j : Fin 32) : idx_main_v86 (idx_main_v87 (ix2 e j)) = ix1 j :=
  funext fun a => by match a with | ⟨0, _⟩ => rfl
/-- Second contraction, left operand. -/
theorem lidx90 (e : Fin 800000) (k : Fin 32) (j : Fin 32) : lidx_main_v90 (ix2 e k) j = ix2 e j :=
  funext fun a => by match a with | ⟨0, _⟩ => rfl | ⟨1, _⟩ => rfl
/-- Second contraction, right operand. -/
theorem ridx90 (e : Fin 800000) (k : Fin 32) (j : Fin 32) : ridx_main_v90 (ix2 e k) j = ix2 j k :=
  funext fun a => by match a with | ⟨0, _⟩ => rfl | ⟨1, _⟩ => rfl
/-- The second bias, spread over all edges, reads its column's entry. -/
theorem idxb2 (e : Fin 800000) (k : Fin 32) : idx_main_v91 (idx_main_v92 (ix2 e k)) = ix1 k :=
  funext fun a => by match a with | ⟨0, _⟩ => rfl
/-- Third contraction, left operand. -/
theorem lidx95 (e : Fin 800000) (n : Fin 288) (k : Fin 32) : lidx_main_v95 (ix2 e n) k = ix2 e k :=
  funext fun a => by match a with | ⟨0, _⟩ => rfl | ⟨1, _⟩ => rfl
/-- Third contraction, right operand. -/
theorem ridx95 (e : Fin 800000) (n : Fin 288) (k : Fin 32) : ridx_main_v95 (ix2 e n) k = ix2 k n :=
  funext fun a => by match a with | ⟨0, _⟩ => rfl | ⟨1, _⟩ => rfl
/-- The last bias, spread over all edges, reads its column's entry. -/
theorem idxb3 (e : Fin 800000) (n : Fin 288) : idx_main_v96 (idx_main_v97 (ix2 e n)) = ix1 n :=
  funext fun a => by match a with | ⟨0, _⟩ => rfl
/-- The 288 outputs viewed as nine groups of 32, row-major: member `c` of group `s` is output `32 s + c`. -/
theorem idx99 (e : Fin 800000) (s : Fin 9) (c : Fin 32) : idx_main_v99 (ix3 e s c) = ix2 e (col s c) :=
  funext fun a => Fin.ext (by
    have he := e.isLt; have hs := s.isLt; have hc := c.isLt
    match a with
    | ⟨0, _⟩ => show ((e.val * 9 + s.val) * 32 + c.val) / 288 = e.val; omega
    | ⟨1, _⟩ => show ((e.val * 9 + s.val) * 32 + c.val) % 288 = 32 * s.val + c.val; omega)
/-- The sum over the groups runs over the middle coordinate. -/
theorem idx100 (e : Fin 800000) (c : Fin 32) (s : Fin 9) : idx_main_v100 (ix2 e c) s = ix3 e s c :=
  funext fun a => by match a with | ⟨0, _⟩ => rfl | ⟨1, _⟩ => rfl | ⟨2, _⟩ => rfl

section Stages

variable (x0 : (⟨S50000x64, .f32⟩ : BufTy).Contents (Elt Ideal)) (x1 : (⟨S50000x3, .f32⟩ : BufTy).Contents (Elt Ideal))
  (x2 : (⟨S73x32, .f32⟩ : BufTy).Contents (Elt Ideal)) (x3 : (⟨S32, .f32⟩ : BufTy).Contents (Elt Ideal))
  (x4 : (⟨S32x32, .f32⟩ : BufTy).Contents (Elt Ideal)) (x5 : (⟨S32, .f32⟩ : BufTy).Contents (Elt Ideal))
  (x6 : (⟨S32x288, .f32⟩ : BufTy).Contents (Elt Ideal)) (x7 : (⟨S288, .f32⟩ : BufTy).Contents (Elt Ideal))
  (x8 : (⟨S2x800000, .i32⟩ : BufTy).Contents (Elt Ideal))

/-! ## First layer -/

/-- The first layer before the activation: the 73 numbers against column `j`, plus the bias. -/
theorem v88_apply (e : Fin 800000) (j : Fin 32) :
    val_main_v88 (F := Ideal) x0 x1 x2 x3 x8 (ix2 e j)
      = (∑ t : Fin 73, (Fin.append (sh (dirn (rel x1 x8 e))) (feat x0 x8 e) : Fin 73 → EReal) t * x2 (ix2 t j))
          + x3 (ix1 j) := by
  rw [val_main_v88_apply, val_main_v85_apply, val_main_v87_apply, val_main_v86_apply, Ideal.addf_def, idxb1]
  refine congrArg (· + x3 (ix1 j)) (Finset.sum_congr rfl fun t _ => ?_)
  rw [lidx85, ridx85, RefFeat.v84_apply]

/-- The first call of the activation is the activation of its input, at every index. -/
theorem v89_silu (i : S800000x32.Idx) :
    val_main_v89 (F := Ideal) x0 x1 x2 x3 x8 i = silu (val_main_v88 (F := Ideal) x0 x1 x2 x3 x8 i) := by
  rw [val_main_v89_apply, val_main_call4_v5_apply, val_main_call4_v4_apply, val_main_call4_cst_0_apply,
    val_main_call4_v3_apply, val_main_call4_v2_apply, val_main_call4_cst_apply, val_main_call4_v1_apply,
    val_main_call4_v0_apply]
  exact silu_spelled _

/-- The first hidden layer. -/
theorem v89_apply (e : Fin 800000) (j : Fin 32) :
    val_main_v89 (F := Ideal) x0 x1 x2 x3 x8 (ix2 e j)
      = hid1R (rel x1 x8 e) (feat x0 x8 e) (fun t j => x2 (ix2 t j)) (fun j => x3 (ix1 j)) j := by
  rw [v89_silu, v88_apply]; rfl

/-! ## Second layer -/

/-- The second layer before the activation. -/
theorem v93_apply (e : Fin 800000) (k : Fin 32) :
    val_main_v93 (F := Ideal) x0 x1 x2 x3 x4 x5 x8 (ix2 e k)
      = (∑ j : Fin 32, hid1R (rel x1 x8 e) (feat x0 x8 e) (fun t j => x2 (ix2 t j)) (fun j => x3 (ix1 j)) j * x4 (ix2 j k))
          + x5 (ix1 k) := by
  rw [val_main_v93_apply, val_main_v90_apply, val_main_v92_apply, val_main_v91_apply, Ideal.addf_def, idxb2]
  refine congrArg (· + x5 (ix1 k)) (Finset.sum_congr rfl fun j _ => ?_)
  rw [lidx90, ridx90, v89_apply]

/-- The second call of the activation is the activation of its input, at every index. -/
theorem v94_silu (i : S800000x32.Idx) :
    val_main_v94 (F := Ideal) x0 x1 x2 x3 x4 x5 x8 i = silu (val_main_v93 (F := Ideal) x0 x1 x2 x3 x4 x5 x8 i) := by
  rw [val_main_v94_apply, val_main_call5_v5_apply, val_main_call5_v4_apply, val_main_call5_cst_0_apply,
    val_main_call5_v3_apply, val_main_call5_v2_apply, val_main_call5_cst_apply, val_main_call5_v1_apply,
    val_main_call5_v0_apply]
  exact silu_spelled _

/-- The second hidden layer. -/
theorem v94_apply (e : Fin 800000) (k : Fin 32) :
    val_main_v94 (F := Ideal) x0 x1 x2 x3 x4 x5 x8 (ix2 e k)
      = hid2 (hid1R (rel x1 x8 e) (feat x0 x8 e) (fun t j => x2 (ix2 t j)) (fun j => x3 (ix1 j)))
          (fun j k => x4 (ix2 j k)) (fun k => x5 (ix1 k)) k := by
  rw [v94_silu, v93_apply]; rfl

/-! ## Third layer and the sum over the groups -/

/-- Output `n` of the 288: the second hidden layer against column `n`, plus the bias. -/
theorem v98_apply (e : Fin 800000) (n : Fin 288) :
    val_main_v98 (F := Ideal) x0 x1 x2 x3 x4 x5 x6 x7 x8 (ix2 e n)
      = (∑ k : Fin 32, hid2 (hid1R (rel x1 x8 e) (feat x0 x8 e) (fun t j => x2 (ix2 t j)) (fun j => x3 (ix1 j)))
          (fun j k => x4 (ix2 j k)) (fun k => x5 (ix1 k)) k * x6 (ix2 k n))
          + x7 (ix1 n) := by
  rw [val_main_v98_apply, val_main_v95_apply, val_main_v97_apply, val_main_v96_apply, Ideal.addf_def, idxb3]
  refine congrArg (· + x7 (ix1 n)) (Finset.sum_congr rfl fun k _ => ?_)
  rw [lidx95, ridx95, v94_apply]

/-- Member `c` of group `s` is output `32 s + c`. -/
theorem v99_apply (e : Fin 800000) (s : Fin 9) (c : Fin 32) :
    val_main_v99 (F := Ideal) x0 x1 x2 x3 x4 x5 x6 x7 x8 (ix3 e s c)
      = val_main_v98 (F := Ideal) x0 x1 x2 x3 x4 x5 x6 x7 x8 (ix2 e (col s c)) := by
  rw [val_main_v99_apply, idx99]

end Stages

/-- The reference's message of edge `e`, member `c`: the whole arrangement. -/
theorem v100_apply (x0 : (⟨S50000x64, .f32⟩ : BufTy).Contents (Elt Ideal)) (x1 : (⟨S50000x3, .f32⟩ : BufTy).Contents (Elt Ideal))
    (x2 : (⟨S73x32, .f32⟩ : BufTy).Contents (Elt Ideal)) (x3 : (⟨S32, .f32⟩ : BufTy).Contents (Elt Ideal))
    (x4 : (⟨S32x32, .f32⟩ : BufTy).Contents (Elt Ideal)) (x5 : (⟨S32, .f32⟩ : BufTy).Contents (Elt Ideal))
    (x6 : (⟨S32x288, .f32⟩ : BufTy).Contents (Elt Ideal)) (x7 : (⟨S288, .f32⟩ : BufTy).Contents (Elt Ideal))
    (x8 : (⟨S2x800000, .i32⟩ : BufTy).Contents (Elt Ideal)) (e : Fin 800000) (c : Fin 32) :
    val_main_v100 (F := Ideal) x0 x1 x2 x3 x4 x5 x6 x7 x8 (ix2 e c) = Cert.Edges.msgR x0 x1 x2 x3 x4 x5 x6 x7 x8 e c := by
  rw [val_main_v100_apply, val_main_cst_17_apply, Ideal.ofBits_def, Ideal.ofBits_zero_f32]
  unfold msgR outR
  refine congrArg (0 + ·) (Finset.sum_congr rfl fun s _ => ?_)
  rw [idx100, v99_apply, v98_apply]

end Cert.ReferenceIdeal.RefMlp

end
-- ==== Proof.PreFinite.lean ====
/-
  The precondition "every float input is finite", read back.

  The printed predicate is, for each of the eight float inputs x, the scalar  all(|x| < +inf)  — the absolute value,
  a comparison "less than" against the broadcast constant +inf (bit pattern 0x7F800000), and a reduction of the one-bit
  answers by "and" over all axes — and the eight scalars are joined by "and". Over the extended reals |x| is
  max x (-x), the constant is ⊤, and max x (-x) < ⊤ fails at x = ⊤ (max ⊤ ⊥ = ⊤) and at x = ⊥ (max ⊥ ⊤ = ⊤): what is
  left is a real number. So the predicate being true says every entry of every float input is a real number.
-/
import proofs.«427460_j56573309223683_3_alg».proof.Pre_finite_inputs
import proofs.«427460_j56573309223683_3_alg».proof.Proof.Gen.Pre_finite_inputs
import proofs.«427460_j56573309223683_3_alg».proof.Proof.Spec
import Idealize.ShloMosaic.Lib.ReduceAll
import Idealize.ShloMosaic.Lib.ValueIdx
import Idealize.ShloMosaic.PureOps.Ideal
import Idealize.ShloMosaic.PureOps.Ideal.Laws

namespace Cert.PreFin

open Idealize.ShloMosaic Cert.Pre_finite_inputs

/-- The scalar shape has one index. -/
instance : Subsingleton S_.Idx := ⟨fun a b => funext fun d => d.elim0⟩

/-- The bit pattern 0x7F800000 is +inf. -/
theorem inf_bits : Ideal.ofBits .f32 0x7F800000#32 = (⊤ : EReal) := by
  simp [Ideal.ofBits, Ideal.ieee]

/-- An extended real whose absolute value max x (-x) is below ⊤ is a real number: at ⊥ the maximum is -⊥ = ⊤, at ⊤
    it is ⊤ itself. -/
theorem isR_of_abs_lt_top (x : EReal) (h : max x (-x) < ⊤) : Cert.EdgeMsg.IsR x := by
  induction x using EReal.rec with
  | bot => exact absurd h (by simp)
  | coe r => exact ⟨r, rfl⟩
  | top => exact absurd h (by simp)

/-- One element of the comparison block: "|x| < +inf" answering 1 says x is a real number. -/
theorem isR_of_elem (x : Ideal .f32)
    (h : FloatOps.cmpf (F := Ideal) .olt (FloatOps.hostAbsf x) (Ideal.ofBits .f32 0x7F800000#32) = 1#1) :
    Cert.EdgeMsg.IsR x := by
  rw [inf_bits] at h
  have h' : Ideal.cmp .olt (max x (-x)) (⊤ : EReal) = 1#1 := h
  simp only [Ideal.cmp] at h'
  by_cases hlt : max x (-x) < (⊤ : EReal)
  · exact isR_of_abs_lt_top x hlt
  · rw [decide_eq_false hlt] at h'
    exact absurd h' (by decide)

/-- One  all(|x| < +inf)  block, for any shape and any reduction of it to the scalar: the block answering 1 at the
    scalar's index says every entry of x is a real number. -/
theorem isR_of_block {s : Shape} {axes : List (Fin s.rank)}
    (hb : S_.BroadcastsInDim s (![] : Fin 0 → Fin s.rank)) (hr : s.ReducesTo axes S_) (hu : 0 < S_.numel)
    (x : FVec Ideal s .f32)
    (h : Host.reduce IntOp.andi
          (cmpf .olt (Host.absf x) (broadcastInDim s ![] hb (constant (F := Ideal) S_ .f32 0x7F800000#32)))
          (constantI S_ 1 1#1) hr hu ValueIdx.ix0 = 1#1) :
    ∀ i, Cert.EdgeMsg.IsR (x i) := by
  intro i
  have hi := Host.reduce_andi_all _ _ hr hu ValueIdx.ix0 h i
  exact isR_of_elem (x i) hi

theorem isR_of_pre (x0 : FVec Ideal S50000x64 .f32) (x1 : FVec Ideal S50000x3 .f32) (x2 : FVec Ideal S73x32 .f32) (x3 : FVec Ideal S32 .f32) (x4 : FVec Ideal S32x32 .f32) (x5 : FVec Ideal S32 .f32) (x6 : FVec Ideal S32x288 .f32) (x7 : FVec Ideal S288 .f32) (x8 : IVec S2x800000 32)
    (h : Cert.Pre_finite_inputs.fn (F := Ideal) x0 x1 x2 x3 x4 x5 x6 x7 x8 = fun _ => 1#1) :
    (∀ i, Cert.EdgeMsg.IsR (x0 i)) ∧ (∀ i, Cert.EdgeMsg.IsR (x1 i)) ∧ (∀ i, Cert.EdgeMsg.IsR (x2 i)) ∧ (∀ i, Cert.EdgeMsg.IsR (x3 i)) ∧ (∀ i, Cert.EdgeMsg.IsR (x4 i)) ∧ (∀ i, Cert.EdgeMsg.IsR (x5 i)) ∧ (∀ i, Cert.EdgeMsg.IsR (x6 i)) ∧ (∀ i, Cert.EdgeMsg.IsR (x7 i)) := by
  have h0 := congrFun h ValueIdx.ix0
  dsimp only [fn, fn_part1, fn_part2] at h0
  -- the seven "and"s, outermost first: the last block is the right operand each time
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨isR_of_block _ _ _ x0 h0, isR_of_block _ _ _ x1 h1, isR_of_block _ _ _ x2 h2, isR_of_block _ _ _ x3 h3,
    isR_of_block _ _ _ x4 h4, isR_of_block _ _ _ x5 h5, isR_of_block _ _ _ x6 h6, isR_of_block _ _ _ x7 h7⟩

end Cert.PreFin
-- ==== Proof.lean ====
/-
  The five claims.

  The three frames are the generated frame runs (the reference's is its generated run with the result dropped), and
  there is nothing to preserve (the idealization rewrote nothing).  The value claim: both programs end with the sum of
  each edge's message into the row of its target node, taken from zero over the same target indices; the kernel
  program's message array is the split and folded arrangement of the perceptron (the contraction of the source
  features with the lower rows of the first weight matrix taken per node before the gather, the angular features
  contracted term by term, the sum over the nine output groups folded into the last weights), the reference's is the
  whole arrangement, and on finite arguments the two are one function of the argument arrays.
-/
import proofs.«427460_j56573309223683_3_alg».proof.Defs
import proofs.«427460_j56573309223683_3_alg».proof.Proof.Gen.Kernel
import proofs.«427460_j56573309223683_3_alg».proof.Proof.Gen.Kernel.Skeleton
import proofs.«427460_j56573309223683_3_alg».proof.Proof.Gen.Kernel.Launch
import proofs.«427460_j56573309223683_3_alg».proof.Proof.Gen.Kernel.Points
import proofs.«427460_j56573309223683_3_alg».proof.Proof.Gen.Kernel.Frame
import proofs.«427460_j56573309223683_3_alg».proof.Proof.Gen.KernelIdeal
import proofs.«427460_j56573309223683_3_alg».proof.Proof.Gen.KernelIdeal.Skeleton
import proofs.«427460_j56573309223683_3_alg».proof.Proof.Gen.KernelIdeal.Launch
import proofs.«427460_j56573309223683_3_alg».proof.Proof.Gen.KernelIdeal.Points
import proofs.«427460_j56573309223683_3_alg».proof.Proof.Gen.KernelIdeal.Frame
import proofs.«427460_j56573309223683_3_alg».proof.Proof.Gen.ReferenceIdeal
import proofs.«427460_j56573309223683_3_alg».proof.Proof.RefRun
import proofs.«427460_j56573309223683_3_alg».proof.Proof.Gen.Pre_finite_inputs
import proofs.«427460_j56573309223683_3_alg».proof.Proof.KernelTail
import proofs.«427460_j56573309223683_3_alg».proof.Proof.RefMlp
import proofs.«427460_j56573309223683_3_alg».proof.Proof.PreFinite
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- On finite arguments the kernel program's result is the reference's last stage of the same arguments: the same
    sum into target rows, of message arrays that agree edge by edge. -/
theorem result_eq
    (m : (ℓ : Loc Cert.KernelIdeal.nD Cert.KernelIdeal.τ Cert.KernelIdeal.sig) → Buf (Elt Ideal) ℓ) (c : Dev Cert.KernelIdeal.nD)
    (h : Cert.Pre_finite_inputs.fn (F := Ideal) (Cert.KernelIdeal.Arr.A0 m c) (Cert.KernelIdeal.Arr.A1 m c) (Cert.KernelIdeal.Arr.A2 m c)
      (Cert.KernelIdeal.Arr.A3 m c) (Cert.KernelIdeal.Arr.A4 m c) (Cert.KernelIdeal.Arr.A5 m c) (Cert.KernelIdeal.Arr.A6 m c)
      (Cert.KernelIdeal.Arr.A7 m c) (Cert.KernelIdeal.Arr.A8 m c) = fun _ => 1#1) :
    Cert.KernelIdeal.Tail.scattered (Cert.KernelIdeal.Arr.A8 m c) (Cert.KernelIdeal.Arr.msgArr m c)
      = Cert.ReferenceIdeal.Stages.val_main_v103 (F := Ideal) (Cert.KernelIdeal.Arr.A0 m c) (Cert.KernelIdeal.Arr.A1 m c)
          (Cert.KernelIdeal.Arr.A2 m c) (Cert.KernelIdeal.Arr.A3 m c) (Cert.KernelIdeal.Arr.A4 m c) (Cert.KernelIdeal.Arr.A5 m c)
          (Cert.KernelIdeal.Arr.A6 m c) (Cert.KernelIdeal.Arr.A7 m c) (Cert.KernelIdeal.Arr.A8 m c) := by
  obtain ⟨h0, h1, h2, h3, h4, h5, h6, h7⟩ := Cert.PreFin.isR_of_pre _ _ _ _ _ _ _ _ _ h
  have hmsg : Cert.KernelIdeal.Arr.msgArr m c
      = Cert.ReferenceIdeal.Stages.val_main_v100 (F := Ideal) (Cert.KernelIdeal.Arr.A0 m c) (Cert.KernelIdeal.Arr.A1 m c)
          (Cert.KernelIdeal.Arr.A2 m c) (Cert.KernelIdeal.Arr.A3 m c) (Cert.KernelIdeal.Arr.A4 m c) (Cert.KernelIdeal.Arr.A5 m c)
          (Cert.KernelIdeal.Arr.A6 m c) (Cert.KernelIdeal.Arr.A7 m c) (Cert.KernelIdeal.Arr.A8 m c) := by
    funext i
    obtain ⟨e, q, rfl⟩ : ∃ (e : Fin 800000) (q : Fin 32), i = ix2 e q := ⟨i 0, i 1, eq_ix2 i⟩
    rw [Cert.ReferenceIdeal.RefMlp.v100_apply]
    exact Cert.Edges.msgK_eq_msgR _ _ _ _ _ _ _ _ _ h0 h1 h2 h3 h4 h5 h6 e q
  unfold Cert.KernelIdeal.Tail.scattered Cert.ReferenceIdeal.Stages.val_main_v103
  rw [hmsg]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Run.run (F := Ideal) m ρ)

theorem algebraic :
    Cert.algebraic_KernelIdeal_ReferenceIdeal := by
  intro m ρ m' ρ' hpre hagree
  refine ⟨fun c => Cert.KernelIdeal.Tail.scattered (Cert.KernelIdeal.Arr.A8 m c) (Cert.KernelIdeal.Arr.msgArr m c),
    Cert.KernelIdeal.Tail.run m ρ, ?_⟩
  refine (θ_run Cert.ReferenceIdeal.defs _ _).mono (fun _ h c => ⟨(h c).1.trans ?_, (h c).2⟩)
    (Cert.ReferenceIdeal.Run.run (F := Ideal) m' ρ')
  obtain ⟨a0, a1, a2, a3, a4, a5, a6, a7, a8⟩ := hagree c
  rw [a0, a1, a2, a3, a4, a5, a6, a7, a8]
  exact (result_eq m c (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
